-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg7 : FVec F S4 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S4 .f32 := Host.absf main_arg7
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : IVec S100000 32) (main_arg4 : FVec F S64x64 .f32) (main_arg5 : FVec F S64 .f32) (main_arg6 : FVec F S64x4 .f32) (main_arg7 : FVec F S4 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4 .f32 := Host.absf main_arg6
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg7 main_v13 main_v16
-- ==== Kernel.lean ====
abbrev S100000x64 : Shape := ⟨2, ![100000, 64]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S_ : Shape := ⟨0, ![]⟩
abbrev S1600000x1 : Shape := ⟨2, ![1600000, 1]⟩
abbrev S100000x1 : Shape := ⟨2, ![100000, 1]⟩
abbrev S100000x2 : Shape := ⟨2, ![100000, 2]⟩
abbrev S1600000x64 : Shape := ⟨2, ![1600000, 64]⟩
abbrev S1x64 : Shape := ⟨2, ![1, 64]⟩
abbrev S10000x64 : Shape := ⟨2, ![10000, 64]⟩
abbrev S10000x2 : Shape := ⟨2, ![10000, 2]⟩
abbrev S10000x1 : Shape := ⟨2, ![10000, 1]⟩
abbrev S1x4 : Shape := ⟨2, ![1, 4]⟩
abbrev S16x4 : Shape := ⟨2, ![16, 4]⟩
abbrev S5000x64 : Shape := ⟨2, ![5000, 64]⟩
abbrev S5000x2 : Shape := ⟨2, ![5000, 2]⟩
abbrev S16x64 : Shape := ⟨2, ![16, 64]⟩
abbrev S16x1 : Shape := ⟨2, ![16, 1]⟩
abbrev S5000x1 : Shape := ⟨2, ![5000, 1]⟩
abbrev S5000x16 : Shape := ⟨2, ![5000, 16]⟩
abbrev S16 : Shape := ⟨1, ![16]⟩

abbrev nBuf : Space → Nat
  | .hbm => 68
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x1, .f32⟩
  | .hbm, ⟨30, _⟩ => ⟨S100000x2, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000, .f32⟩
  | .hbm, ⟨63, _⟩ => ⟨S100000x1, .f32⟩
  | .hbm, ⟨64, _⟩ => ⟨S100000x1, .f32⟩
  | .hbm, ⟨65, _⟩ => ⟨S100000x2, .f32⟩
  | .hbm, ⟨66, _⟩ => ⟨S1x4, .f32⟩
  | .hbm, ⟨67, _⟩ => ⟨S16x4, .f32⟩
  | .local _ .vmem, ⟨0, _⟩ => ⟨S10000x64, .f32⟩
  | .local _ .vmem, ⟨1, _⟩ => ⟨S10000x64, .f32⟩
  | .local _ .vmem, ⟨2, _⟩ => ⟨S10000x2, .f32⟩
  | .local _ .vmem, ⟨3, _⟩ => ⟨S10000x2, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S5000x64, .f32⟩
  | .local _ .vmem, ⟨9, _⟩ => ⟨S5000x64, .f32⟩
  | .local _ .vmem, ⟨10, _⟩ => ⟨S5000x2, .f32⟩
  | .local _ .vmem, ⟨11, _⟩ => ⟨S5000x2, .f32⟩
  | .local _ .vmem, ⟨12, _⟩ => ⟨S64x4, .f32⟩
  | .local _ .vmem, ⟨13, _⟩ => ⟨S1x4, .f32⟩
  | .local _ .vmem, ⟨14, _⟩ => ⟨S16x4, .f32⟩
  | .local _ .vmem, ⟨15, _⟩ => ⟨S16x64, .f32⟩
  | .local _ .vmem, ⟨16, _⟩ => ⟨S16x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v30 : BitVec 1 := Scalar.cmpi .eq arg0 c19_i32
  let v31 : BitVec 32 := Scalar.extui v30
  let c0_i32_14 : BitVec 32 := 0#32
  let v32 : BitVec 1 := Scalar.cmpi .ne v31 c0_i32_14
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  slices_S10000x2_o0_1_S10000x1 : S10000x2.Slices ![0, 1] S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S10000x2_o0_0_S10000x1 : S10000x2.Slices ![0, 0] S10000x1
  shapeCasts_S4_S1x4 : S4.ShapeCasts S1x4
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  iota_S5000x16_d1_w32 : S5000x16.Iotas .tc 32 [1]
  broadcasts_S5000x1_S5000x16 : S5000x1.Broadcasts S5000x16
  natLt_1_32 : 1 < 32
  broadcasts_S16x1_S16x64 : S16x1.Broadcasts S16x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S16x4 : S1x4.Broadcasts S16x4
  broadcasts_S16x1_S16x4 : S16x1.Broadcasts S16x4
  reduces_S16x4_S16 : S16x4.Reduces [1] S16
  shapeCasts_S16_S16x1 : S16.ShapeCasts S16x1
  inb_S16x4_S16x4_0_0 : ∀ a, (![0, 0] : Fin 2 → Nat) a + S16x4.size a ≤ S16x4.size a
  h_S16x4 : 0 < S16x4.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S5000x16_S5000x64_S16x64_0_0_1_1_n_n_wf : DotDims.WF S5000x16 S5000x64 S16x64 [0] [0] [1] [1] [] []
  dot_S5000x16_S5000x1_S16x1_0_0_1_1_n_n_wf : DotDims.WF S5000x16 S5000x1 S16x1 [0] [0] [1] [1] [] []
  dot_S16x64_S64x4_S16x4_1_0_0_1_n_n_wf : DotDims.WF S16x64 S64x4 S16x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x2.size a ≤ S100000x2.size a
  hwx0_1 : ∀ i : grid0.Coords, EltTy.bits .f32 = 32 ∨ (Rect.block (s := S100000x2) S10000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4.size a ≤ S64x4.size a
  hwx1_2 : ∀ i : grid1.Coords, EltTy.bits .f32 = 32 ∨ (Rect.block (s := S64x4) S64x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x4.size a ≤ S16x4.size a
  hwx1_4 : ∀ i : grid1.Coords, EltTy.bits .f32 = 32 ∨ (Rect.block (s := S16x4) S16x4.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x16_S5000x64_S16x64_0_0_1_1_n_n : DotDims S5000x16 S5000x64 S16x64 where
  lhsContracting := [0]
  rhsContracting := [0]
  lhsNonContracting := [1]
  rhsNonContracting := [1]
  lhsBatch := []
  rhsBatch := []
  wf := dot_S5000x16_S5000x64_S16x64_0_0_1_1_n_n_wf
def dot_S5000x16_S5000x1_S16x1_0_0_1_1_n_n : DotDims S5000x16 S5000x1 S16x1 where
  lhsContracting := [0]
  rhsContracting := [0]
  lhsNonContracting := [1]
  rhsNonContracting := [1]
  lhsBatch := []
  rhsBatch := []
  wf := dot_S5000x16_S5000x1_S16x1_0_0_1_1_n_n_wf
def dot_S16x64_S64x4_S16x4_1_0_0_1_n_n : DotDims S16x64 S64x4 S16x4 where
  lhsContracting := [1]
  rhsContracting := [0]
  lhsNonContracting := [0]
  rhsNonContracting := [1]
  lhsBatch := []
  rhsBatch := []
  wf := dot_S16x64_S64x4_S16x4_1_0_0_1_n_n_wf

abbrev win0_0 : Pipeline.Window sig grid0 :=
  Pipeline.Window.ofSpec (Memref.whole main_v26) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S16x4.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x4 : Shape := ⟨2, ![64, 4]⟩
abbrev S4 : Shape := ⟨1, ![4]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x4 : Shape := ⟨2, ![100000, 4]⟩
abbrev S1x4 : Shape := ⟨2, ![1, 4]⟩
abbrev S16 : Shape := ⟨1, ![16]⟩
abbrev S16x4 : Shape := ⟨2, ![16, 4]⟩
abbrev S16x1 : Shape := ⟨2, ![16, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x4, .f32⟩
  | .hbm, ⟨74, _⟩ => ⟨S1x4, .f32⟩
  | .hbm, ⟨75, _⟩ => ⟨S100000x4, .f32⟩
  | .hbm, ⟨76, _⟩ => ⟨S100000x4, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S16, .f32⟩
  | .hbm, ⟨81, _⟩ => ⟨S100000x1, .i32⟩
  | .hbm, ⟨82, _⟩ => ⟨S16, .f32⟩
  | .hbm, ⟨83, _⟩ => ⟨S_, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S16x4, .f32⟩
  | .hbm, ⟨89, _⟩ => ⟨S100000x1, .i32⟩
  | .hbm, ⟨90, _⟩ => ⟨S16x4, .f32⟩
  | .hbm, ⟨91, _⟩ => ⟨S16x1, .f32⟩
  | .hbm, ⟨92, _⟩ => ⟨S16x4, .f32⟩
  | .hbm, ⟨93, _⟩ => ⟨S16x4, .f32⟩
  | .hbm, ⟨94, _⟩ => ⟨S_, .f32⟩
  | .hbm, ⟨95, _⟩ => ⟨S16, .f32⟩
  | .hbm, ⟨96, _⟩ => ⟨S_, .f32⟩
  | .hbm, ⟨97, _⟩ => ⟨S16, .f32⟩
  | .hbm, ⟨98, _⟩ => ⟨S16, .f32⟩
  | .hbm, ⟨99, _⟩ => ⟨S16x1, .f32⟩
  | .hbm, ⟨100, _⟩ => ⟨S16x4, .f32⟩
  | .hbm, ⟨101, _⟩ => ⟨S16x4, .f32⟩
  | .hbm, ⟨102, _⟩ => ⟨S16x4, .f32⟩
  | .hbm, ⟨103, _⟩ => ⟨S_, .f32⟩
  | .hbm, ⟨104, _⟩ => ⟨S16, .f32⟩
  | .hbm, ⟨105, _⟩ => ⟨S16x1, .f32⟩
  | .hbm, ⟨106, _⟩ => ⟨S16x4, .f32⟩
  | .hbm, ⟨107, _⟩ => ⟨S16x4, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_cst : Ref sig .tc := ⟨.hbm, 51, rfl⟩
abbrev main_call2_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_call3_v0 : Ref sig .tc := ⟨.hbm, 84, rfl⟩
abbrev main_call3_v1 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S16 : S_.BroadcastsInDim S16 (![] : Fin 0 → Fin S16.rank)
  bcast_S_S16x4 : S_.BroadcastsInDim S16x4 (![] : Fin 0 → Fin S16x4.rank)
  bcast_S16_S16x1_0 : S16.BroadcastsInDim S16x1 (![0] : Fin 1 → Fin S16x1.rank)
  bcast_S16x1_S16x4_0_1 : S16x1.BroadcastsInDim S16x4 (![0, 1] : Fin 2 → Fin S16x4.rank)
  reducesTo_S16x4_S16_d1 : S16x4.ReducesTo [1] S16
  h_S_ : 0 < S_.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x4_S100000x4_1_0_0_1_n_n_wf : DotDims.WF S100000x64 S64x4 S100000x4 [1] [0] [0] [1] [] []
  scatter_S16_S100000x1_S100000_n_0_0_1_wf : ScatterDims.WF S16 S100000x1 S100000 [] [0] [0] 1
  scatter_S16x4_S100000x1_S100000x4_1_0_0_1_wf : ScatterDims.WF S16x4 S100000x1 S100000x4 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def scatter_S16x4_S100000x1_S100000x4_1_0_0_1 : ScatterDims S16x4 S100000x1 S100000x4 where
  updateWindowDims := [1]
  insertedWindowDims := [0]
  scatterDimsToOperandDims := [0]
  indexVectorDim := 1
  wf := scatter_S16x4_S100000x1_S100000x4_1_0_0_1_wf

class Facts : Prop extends Facts₀ where

variable [Facts]
-- ==== Proof.KDense.lean ====
/-
  The dense layer's kernel region (the first pallas_call): what each grid point computes, and that the body runs.

  The grid has ten points; point `t` works on rows `10000 t … 10000 t + 9999` of the node axis. Its body loads the
  point's block of the aggregated features (window 0), the point's block of the two norm columns (window 1), the whole
  weight matrix (window 2) and the bias row (window 3), and stores ONE value into the whole output block (window 4):
  the payload `k0_pay1` of the four loaded blocks. So after the body the output's staging buffer holds that payload,
  and the inputs' buffers hold their blocks unchanged. The region's invariant is the class's: the scoped buffers no
  window stages and the generator register, which the body never touches.

  Everything is stated at a parameter `V`, the contents of the core's buffers when the region is entered.
-/
import proofs.«402030_j79542794322477_3_alg».proof.Proof.Gen.Kernel.Launch
import proofs.«402030_j79542794322477_3_alg».proof.Proof.Gen.Kernel.Skeleton
import proofs.«402030_j79542794322477_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the
    block index has not moved. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output's buffer -/

abbrev rAgg : Rect S10000x64 := Rect.unit (s := S10000x64) ![0, 0] S10000x64.size inb_S10000x64_S10000x64_0_0
abbrev rNorms : Rect S10000x2 := Rect.unit (s := S10000x2) ![0, 0] S10000x2.size inb_S10000x2_S10000x2_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The output block after the body, from the four input blocks: the one store's value over the whole block. -/
def outBlk (x0 : Vec F S10000x64 .f32) (x1 : Vec F S10000x2 .f32) (x2 : Vec F S64x64 .f32) (x3 : Vec F S1x64 .f32) : Vec F S10000x64 .f32 :=
  View.canon [⟨rAgg, k0_pay1 (View.ld x1 rNorms) (View.ld x0 rAgg) (View.ld x2 rW) (View.ld x3 rB)⟩]

/-- The one store covers the whole block. -/
theorem cover_out (p0 : Vec F S10000x64 .f32) (y : S10000x64.Idx) :
    ∃ pc ∈ ([⟨rAgg, p0⟩] : List (View.Piece (Elt F) S10000x64 .f32)), y ∈ pc.1.set :=
  View.cover_of_tiled [⟨rAgg, p0⟩] S10000x64.size (by rfl) y

/-! ## The body's triple -/

set_option maxHeartbeats 1000000 in
/-- The body on whole staging memrefs, the inputs' at contents `x0 … x3` and the output's at anything, runs to the
    continuation with the inputs' as they were and the output's at `outBlk` of them. -/
theorem sound_kernel (c : Dev nD) (E : Set ℕ) (i : grid0.Coords)
    (arg1 : Memref sig .tc .vmem S10000x64 .f32) (harg1 : arg1.IsWhole) (arg2 : Memref sig .tc .vmem S10000x2 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x2 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__graphconv_dense_kernel i arg1 harg1 arg2 harg2 arg3 harg3 arg4 harg4 arg5 harg5) K := by
  simp only [cc0__graphconv_dense_kernel_eq_skeleton]; unfold cc0__graphconv_dense_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The proof data -/

/-- The region's proof data on core `c`: the arrays as the region finds them; after the body at point `t` each input's
    buffer at its block and the output's at `outBlk` of the input blocks; the class's invariant; nothing owed; full
    shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outBlk (iblk V c 0 t) (iblk V c 1 t) (iblk V c 2 t) (iblk V c 3 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Dense

end
-- ==== Proof.KPool.lean ====
/-
  The pooled-softmax kernel region (the second pallas_call): what each grid point computes, and that the body runs.

  The grid has twenty points, run in order; point `t` works on rows `5000 t … 5000 t + 4999` of the node axis. Two
  scratch buffers are carried from point to point: the per-graph feature sums (16 × 64) and the per-graph node counts
  (16 × 1). At the first point the body stores zeros into both; at every point it loads the point's block of the
  aggregated features (window 0) and of the two columns "destination norm, graph id" (window 1) and adds this block's
  contribution to each scratch; at the last point it also loads the weights (window 2) and the bias row (window 3),
  and stores the softmax of the logits into the output block (window 4), which is written back only there.

  Everything is stated at a parameter `V`, the contents of the core's buffers when the region is entered.
-/
import proofs.«402030_j79542794322477_3_alg».proof.Proof.Gen.Kernel.Launch
import proofs.«402030_j79542794322477_3_alg».proof.Proof.Gen.Kernel.Skeleton
import proofs.«402030_j79542794322477_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and the carried sums -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem N_eq : cfg1.N = 20 := N_1

/-- The last grid point. -/
def tLast : Fin cfg1.N := ⟨19, by rw [N_eq]; decide⟩

/-- One point's update of the two carried buffers `(sums, counts)` from the point's feature block `x0` and its
    "norm, graph id" block `x1`. -/
def accStep (x0 : Vec F S5000x64 .f32) (x1 : Vec F S5000x2 .f32) (s : Vec F S16x64 .f32 × Vec F S16x1 .f32) :
    Vec F S16x64 .f32 × Vec F S16x1 .f32 :=
  (k1_pay5 x1 x0 s.1, k1_pay6 x1 s.2)

/-- What the two carried buffers hold after point `n`: the zeros the first point stores, updated by the points
    `0 … n` in order. -/
def acc (c : Dev nD) : (n : ℕ) → n < cfg1.N → Vec F S16x64 .f32 × Vec F S16x1 .f32
  | 0, h => accStep (iblk V c 0 ⟨0, h⟩) (iblk V c 1 ⟨0, h⟩) (k1_pay1, k1_pay2)
  | n + 1, h => accStep (iblk V c 0 ⟨n + 1, h⟩) (iblk V c 1 ⟨n + 1, h⟩) (acc c n (Nat.lt_of_succ_lt h))

/-- What the last point stores into the output block: the softmax payload of the final counts and sums, the weights and
    the bias row. -/
def resBlk (c : Dev nD) : Vec F S16x4 .f32 :=
  k1_pay7 (acc V c 19 tLast.isLt).2 (acc V c 19 tLast.isLt).1 (iblk V c 2 tLast) (iblk V c 3 tLast)

/-! ## The region's invariant: the two carried buffers at the running sums -/

/-- The two carried buffers, as whole memrefs. -/
abbrev scSum : Memref sig .tc .vmem S16x64 .f32 := Memref.whole cc1_scratch0
abbrev scCnt : Memref sig .tc .vmem S16x1 .f32 := Memref.whole cc1_scratch1

/-- The scoped buffers this region never touches (the other call's staging buffers), each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant before position `n`: before the first point the class's (every scoped buffer that is no staging
    buffer of this call at some contents, and the generator register); afterwards the same with the two carried
    buffers at the sums and counts the points `0 … n - 1` have accumulated. -/
def Phi (c : Dev nD) : (n : ℕ) → n ≤ cfg1.N → sProp 𝕄
  | 0, _ => Pipeline.ΦA spec1 c
  | n + 1, hn => iprop(others (F := F) c ∗ owns (c : Thread nD τ) scSum fullShare (acc V c n hn).1
      ∗ owns (c : Thread nD τ) scCnt fullShare (acc V c n hn).2 ∗ (∃ r, prngReg c r))

/-! ## The proof data -/

/-- The region's proof data on core `c`: the arrays as the region finds them; after the body at point `t` each input's
    buffer at its block, and the output's at the softmax payload of the sums and counts accumulated through `t` (what
    the last point stores; at the other points the output's buffer is not stored into and not written back, and this
    value is read by nothing); the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay7 (acc V c t.val t.isLt).2 (acc V c t.val t.isLt).1 (iblk V c 2 t) (iblk V c 3 t)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_4_last (c : Dev nD) : (dat V c).after 4 tLast = resBlk V c := by
  dsimp only [dat]; rfl

/-! ## The invariant, position by position -/

theorem Phi_zero (c : Dev nD) (n : ℕ) (h : n ≤ cfg1.N) (hz : n = 0) : Phi V c n h = Pipeline.ΦA spec1 c := by
  subst hz; rfl

/-- After point `n` (before point `n + 1`): the carried buffers at what the points through `n` accumulated. -/
theorem Phi_succ (c : Dev nD) (n : ℕ) (hn : n < cfg1.N) :
    Phi V c (n + 1) hn = iprop(others (F := F) c ∗ owns (c : Thread nD τ) scSum fullShare (acc V c n hn).1
      ∗ owns (c : Thread nD τ) scCnt fullShare (acc V c n hn).2 ∗ (∃ r, prngReg c r)) := rfl

/-- Before a point that is not the first: the carried buffers at what the point before left. -/
theorem Phi_pos (c : Dev nD) (n : ℕ) (h : n ≤ cfg1.N) (hz : n ≠ 0) :
    Phi V c n h = iprop(others (F := F) c ∗ owns (c : Thread nD τ) scSum fullShare (acc V c (n - 1) (by omega)).1
      ∗ owns (c : Thread nD τ) scCnt fullShare (acc V c (n - 1) (by omega)).2 ∗ (∃ r, prngReg c r)) := by
  cases n with
  | zero => exact absurd rfl hz
  | succ n => rfl

/-- The class's invariant with the two carried buffers named: the untouched buffers, the two at some contents, the
    generator register. -/
theorem PhiA_open (c : Dev nD) :
    Pipeline.ΦA spec1 c ⊢ (iprop(others (F := F) c ∗ (∃ d, owns (c : Thread nD τ) scSum fullShare d)
      ∗ (∃ d, owns (c : Thread nD τ) scCnt fullShare d) ∗ (∃ r, prngReg c r)) : sProp 𝕄) := by
  unfold Pipeline.ΦA others; rw [scopedRest1_eq]; simp only [scSum, scCnt, owns_whole]
  iintro ⟨⟨A0, A1, A2, A3, A4, A5, A6, A7, S0, S1⟩, Hg⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [S0]; · iexact S0
  isplitl [S1]; · iexact S1
  iexact Hg

theorem PhiA_close (c : Dev nD) :
    (iprop(others (F := F) c ∗ (∃ d, owns (c : Thread nD τ) scSum fullShare d)
      ∗ (∃ d, owns (c : Thread nD τ) scCnt fullShare d) ∗ (∃ r, prngReg c r)) : sProp 𝕄) ⊢ Pipeline.ΦA spec1 c := by
  unfold Pipeline.ΦA others; rw [scopedRest1_eq]; simp only [scSum, scCnt, owns_whole]
  iintro ⟨⟨A0, A1, A2, A3, A4, A5, A6, A7⟩, S0, S1, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [S0]; · iexact S0
    iexact S1
  iexact Hg

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives the class's back: the carried buffers' contents are forgotten. -/
theorem hout (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last, N_eq]; decide)]
  refine BIBase.Entails.trans ?_ (PhiA_close c)
  iintro ⟨Ho, S0, S1, Hg⟩
  isplitl [Ho]; · iexact Ho
  isplitl [S0]; · iexists _; iexact S0
  isplitl [S1]; · iexists _; iexact S1
  iexact Hg

/-! ## The body's two conditions on the grid point -/

/-- The first conditional's condition (the point is the first), as the body computes it from the coordinate. -/
abbrev condFirst (i : grid1.Coords) : Prop :=
  (Scalar.cmpi .ne (Scalar.extui (Scalar.cmpi .eq (BitVec.ofNat 32 (i 0).val) 0#32)) 0#32) = 1#1
/-- It holds at the first point only. -/
theorem hcondFirst : ∀ t : Fin cfg1.N, condFirst (grid1.coords t) ↔ t.val = 0 :=
  (by decide +kernel : ∀ t : Fin grid1.N, condFirst (grid1.coords t) ↔ t.val = 0)

/-- The second conditional's condition (the point is the last). -/
abbrev condLast (i : grid1.Coords) : Prop := k1_cond2 i = 1#1
/-- It holds at the last point only. -/
theorem hcondLast : ∀ t : Fin cfg1.N, condLast (grid1.coords t) ↔ t.val = 19 :=
  (by decide +kernel : ∀ t : Fin grid1.N, condLast (grid1.coords t) ↔ t.val = 19)

/-- The inputs are never idle. -/
theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cfg1.idle 3 (grid1.coords t) = false := fun _ => rfl
/-- The output is idle at every point but the last, and not written back there; -/
theorem idle_4 : ∀ t : Fin cfg1.N, ¬condLast (grid1.coords t) → cfg1.idle 4 (grid1.coords t) = true := by decide +kernel
theorem noFlush_4 : ∀ t : Fin cfg1.N, ¬condLast (grid1.coords t) → (cfg1.win 4).flush t = false := by decide +kernel
/-- at the last point it is live. -/
theorem live_4 : ∀ t : Fin cfg1.N, condLast (grid1.coords t) → cfg1.idle 4 (grid1.coords t) = false := by decide +kernel

/-! ## The body's three runs

All of the body's loads and stores are of whole buffers: a load reads the buffer's contents, and a buffer stored into
holds the last store's value. -/

theorem zeroOffs : (![0, 0] : Fin 2 → ℕ) = fun _ => 0 := funext fun a => by fin_cases a <;> rfl

/-- A buffer whose last store was of the whole buffer reads as that store's value, whatever was stored before. -/
theorem read_store_whole {S : Shape} (v : View sig .tc .vmem S .f32) (f : v.ty.Contents (Elt F)) {off : Fin S.rank → ℕ}
    (h : off = fun _ => 0) (inb : ∀ a, off a + S.size a ≤ S.size a) (w : S.Idx → Elt F .f32)
    (L : List (View.Piece (Elt F) S .f32)) :
    v.read (Elt F) (v.writes (Elt F) f ((⟨Rect.unit off S.size inb, w⟩ : View.Piece (Elt F) S .f32) :: L)) = w :=
  (View.read_writes_eq_canon v f _ (fun y => ⟨_, List.mem_cons_self, View.mem_set_unit_zero h inb y⟩)).trans
    (View.canon_cons_unit_zero h inb w L)

set_option maxHeartbeats 1000000 in
/-- A middle point: both carried buffers are updated from the point's two blocks; nothing else is touched. -/
theorem run_mid (c : Dev nD) (E : Set ℕ) (i : grid1.Coords) (hc0 : ¬condFirst i) (hc1 : ¬condLast i)
    (arg1 : Memref sig .tc .vmem S5000x64 .f32) (harg1 : arg1.IsWhole) (arg2 : Memref sig .tc .vmem S5000x2 .f32) (harg2 : arg2.IsWhole)
    (arg3 : Memref sig .tc .vmem S64x4 .f32) (harg3 : arg3.IsWhole) (arg4 : Memref sig .tc .vmem S1x4 .f32) (harg4 : arg4.IsWhole)
    (arg5 : Memref sig .tc .vmem S16x4 .f32) (harg5 : arg5.IsWhole)
    (arg6 : Memref sig .tc .vmem S16x64 .f32) (harg6 : arg6.IsWhole) (arg7 : Memref sig .tc .vmem S16x1 .f32) (harg7 : arg7.IsWhole)
    (x0 : Vec F S5000x64 .f32) (x1 : Vec F S5000x2 .f32) (s0 : Vec F S16x64 .f32) (s1 : Vec F S16x1 .f32) (K : PUnit → sProp 𝕄) :
    iprop(owns (c : Thread nD τ) arg1 fullShare x0 ∗ owns (c : Thread nD τ) arg2 fullShare x1
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg6 fullShare (k1_pay5 x1 x0 s0) ∗ owns (c : Thread nD τ) arg7 fullShare (k1_pay6 x1 s1)) -∗ K ⟨⟩))
      ⊢ wp frame (wpE (defs₀ (F := F)) Variants.none c none) E (cc1__meanpool_softmax_kernel i arg1 harg1 arg2 harg2 arg3 harg3 arg4 harg4 arg5 harg5 arg6 harg6 arg7 harg7) K := by
  simp only [cc1__meanpool_softmax_kernel_eq_skeleton]; unfold cc1__meanpool_softmax_kernel_skel
  unfold owns
  iintro ⟨⟨%f0, %hf0, H0⟩, ⟨%f1, %hf1, H1⟩, ⟨%g0, %hg0, S0⟩, ⟨%g1, %hg1, S1⟩, Hk⟩
  subst hf0; subst hf1; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    rw [read_store_whole _ _ zeroOffs]
    simp only [View.readAt_eq_ld, View.ld_unit_zero (S := S5000x2) zeroOffs, View.ld_unit_zero (S := S5000x64) zeroOffs, View.ld_unit_zero (S := S16x64) zeroOffs]
  iexists _; isplitr
  swap; · iexact S1
  ipureintro
  rw [read_store_whole _ _ zeroOffs]
  simp only [View.readAt_eq_ld, View.ld_unit_zero (S := S5000x2) zeroOffs, View.ld_unit_zero (S := S16x1) zeroOffs]

set_option maxHeartbeats 1000000 in
/-- The first point: both carried buffers, found at anything, are zeroed and then updated. -/
theorem run_first (c : Dev nD) (E : Set ℕ) (i : grid1.Coords) (hc0 : condFirst i) (hc1 : ¬condLast i)
    (arg1 : Memref sig .tc .vmem S5000x64 .f32) (harg1 : arg1.IsWhole) (arg2 : Memref sig .tc .vmem S5000x2 .f32) (harg2 : arg2.IsWhole)
    (arg3 : Memref sig .tc .vmem S64x4 .f32) (harg3 : arg3.IsWhole) (arg4 : Memref sig .tc .vmem S1x4 .f32) (harg4 : arg4.IsWhole)
    (arg5 : Memref sig .tc .vmem S16x4 .f32) (harg5 : arg5.IsWhole)
    (arg6 : Memref sig .tc .vmem S16x64 .f32) (harg6 : arg6.IsWhole) (arg7 : Memref sig .tc .vmem S16x1 .f32) (harg7 : arg7.IsWhole)
    (x0 : Vec F S5000x64 .f32) (x1 : Vec F S5000x2 .f32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k1_pay5 x1 x0 k1_pay1) ∗ owns (c : Thread nD τ) arg7 fullShare (k1_pay6 x1 k1_pay2)) -∗ K ⟨⟩))
      ⊢ wp frame (wpE (defs₀ (F := F)) Variants.none c none) E (cc1__meanpool_softmax_kernel i arg1 harg1 arg2 harg2 arg3 harg3 arg4 harg4 arg5 harg5 arg6 harg6 arg7 harg7) K := by
  simp only [cc1__meanpool_softmax_kernel_eq_skeleton]; unfold cc1__meanpool_softmax_kernel_skel
  unfold owns
  iintro ⟨⟨%f0, %hf0, H0⟩, ⟨%f1, %hf1, H1⟩, ⟨%d6, %g0, -, S0⟩, ⟨%d7, %g1, -, S1⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    sl_unfold_words
    rw [read_store_whole _ _ zeroOffs]
    simp only [View.readAt_eq_ld, View.readCov_unit_zero (S := S16x64) _ zeroOffs, View.ld_unit_zero (S := S5000x2) zeroOffs,
      View.ld_unit_zero (S := S5000x64) zeroOffs]
  iexists _; isplitr
  swap; · iexact S1
  ipureintro
  sl_unfold_words
  rw [read_store_whole _ _ zeroOffs]
  simp only [View.readAt_eq_ld, View.readCov_unit_zero (S := S16x1) _ zeroOffs, View.ld_unit_zero (S := S5000x2) zeroOffs]

set_option maxHeartbeats 1000000 in
/-- The last point: the carried buffers are updated, then the output's buffer, found at anything, is stored the softmax
    block of the updated counts and sums, the weights and the bias row. -/
theorem run_last (c : Dev nD) (E : Set ℕ) (i : grid1.Coords) (hc0 : ¬condFirst i) (hc1 : condLast i)
    (arg1 : Memref sig .tc .vmem S5000x64 .f32) (harg1 : arg1.IsWhole) (arg2 : Memref sig .tc .vmem S5000x2 .f32) (harg2 : arg2.IsWhole)
    (arg3 : Memref sig .tc .vmem S64x4 .f32) (harg3 : arg3.IsWhole) (arg4 : Memref sig .tc .vmem S1x4 .f32) (harg4 : arg4.IsWhole)
    (arg5 : Memref sig .tc .vmem S16x4 .f32) (harg5 : arg5.IsWhole)
    (arg6 : Memref sig .tc .vmem S16x64 .f32) (harg6 : arg6.IsWhole) (arg7 : Memref sig .tc .vmem S16x1 .f32) (harg7 : arg7.IsWhole)
    (x0 : Vec F S5000x64 .f32) (x1 : Vec F S5000x2 .f32) (x2 : Vec F S64x4 .f32) (x3 : Vec F S1x4 .f32)
    (s0 : Vec F S16x64 .f32) (s1 : Vec F S16x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay7 (k1_pay6 x1 s1) (k1_pay5 x1 x0 s0) x2 x3)
            ∗ owns (c : Thread nD τ) arg6 fullShare (k1_pay5 x1 x0 s0) ∗ owns (c : Thread nD τ) arg7 fullShare (k1_pay6 x1 s1)) -∗ K ⟨⟩))
      ⊢ wp frame (wpE (defs₀ (F := F)) Variants.none c none) E (cc1__meanpool_softmax_kernel i arg1 harg1 arg2 harg2 arg3 harg3 arg4 harg4 arg5 harg5 arg6 harg6 arg7 harg7) K := by
  simp only [cc1__meanpool_softmax_kernel_eq_skeleton]; unfold cc1__meanpool_softmax_kernel_skel
  unfold owns
  iintro ⟨⟨%f0, %hf0, H0⟩, ⟨%f1, %hf1, H1⟩, ⟨%f2, %hf2, H2⟩, ⟨%f3, %hf3, H3⟩, ⟨%d5, %f4, -, H4⟩, ⟨%g0, %hg0, S0⟩, ⟨%g1, %hg1, S1⟩, Hk⟩
  subst hf0; subst hf1; subst hf2; subst hf3; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [read_store_whole _ _ zeroOffs]
    simp only [View.readAt_eq_ld, View.readCov_unit_zero (S := S16x64) _ zeroOffs, View.readCov_unit_zero (S := S16x1) _ zeroOffs,
      View.ld_unit_zero (S := S5000x2) zeroOffs, View.ld_unit_zero (S := S5000x64) zeroOffs, View.ld_unit_zero (S := S16x64) zeroOffs,
      View.ld_unit_zero (S := S16x1) zeroOffs, View.ld_unit_zero (S := S64x4) zeroOffs, View.ld_unit_zero (S := S1x4) zeroOffs]
  isplitl [S0]
  · iexists _; isplitr
    swap; · iexact S0
    ipureintro
    sl_unfold_words
    rw [read_store_whole _ _ zeroOffs]
    simp only [View.readAt_eq_ld, View.ld_unit_zero (S := S5000x2) zeroOffs, View.ld_unit_zero (S := S5000x64) zeroOffs, View.ld_unit_zero (S := S16x64) zeroOffs]
  iexists _; isplitr
  swap; · iexact S1
  ipureintro
  sl_unfold_words
  rw [read_store_whole _ _ zeroOffs]
  simp only [View.readAt_eq_ld, View.ld_unit_zero (S := S5000x2) zeroOffs, View.ld_unit_zero (S := S16x1) zeroOffs]

/-! ## The inputs' buffers at every point -/

/-- An input window's staging buffer holds its block at every point, fetched there or not: where it is not fetched the
    block index has not moved. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay7 (acc V c t.val t.isLt).2 (acc V c t.val t.isLt).1 (iblk V c 2 t) (iblk V c 3 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d

/-- The invariant at a point's start, restated at the point's position. -/
theorem Phi_castSucc (c : Dev nD) (t : Fin cfg1.N) :
    (dat V c).Φ t.castSucc = Phi V c t.val (Nat.le_of_lt t.isLt) := by
  dsimp only [dat]; simp only [Fin.coe_castSucc]

/-! ## The carried sums, point by point -/

theorem acc_first_fst (c : Dev nD) (t : Fin cfg1.N) (hz : t.val = 0) :
    (acc V c t.val t.isLt).1 = k1_pay5 (iblk V c 1 t) (iblk V c 0 t) k1_pay1 := by
  obtain ⟨n, hn⟩ := t
  cases n with
  | zero => rfl
  | succ n => exact absurd hz (Nat.succ_ne_zero n)
theorem acc_first_snd (c : Dev nD) (t : Fin cfg1.N) (hz : t.val = 0) :
    (acc V c t.val t.isLt).2 = k1_pay6 (iblk V c 1 t) k1_pay2 := by
  obtain ⟨n, hn⟩ := t
  cases n with
  | zero => rfl
  | succ n => exact absurd hz (Nat.succ_ne_zero n)
theorem acc_pos_fst (c : Dev nD) (t : Fin cfg1.N) (hz : t.val ≠ 0) :
    (acc V c t.val t.isLt).1
      = k1_pay5 (iblk V c 1 t) (iblk V c 0 t) (acc V c (t.val - 1) (Nat.lt_of_le_of_lt (Nat.sub_le _ _) t.isLt)).1 := by
  obtain ⟨n, hn⟩ := t
  cases n with
  | zero => exact absurd rfl hz
  | succ n => rfl
theorem acc_pos_snd (c : Dev nD) (t : Fin cfg1.N) (hz : t.val ≠ 0) :
    (acc V c t.val t.isLt).2
      = k1_pay6 (iblk V c 1 t) (acc V c (t.val - 1) (Nat.lt_of_le_of_lt (Nat.sub_le _ _) t.isLt)).2 := by
  obtain ⟨n, hn⟩ := t
  cases n with
  | zero => exact absurd rfl hz
  | succ n => rfl

/-- The class's invariant with the two carried buffers named. -/
theorem PhiA_eq (c : Dev nD) :
    (Pipeline.ΦA spec1 c : sProp 𝕄) = iprop(others (F := F) c ∗ (∃ d, owns (c : Thread nD τ) scSum fullShare d)
      ∗ (∃ d, owns (c : Thread nD τ) scCnt fullShare d) ∗ (∃ r, prngReg c r)) :=
  BI.equiv_iff.mp ⟨PhiA_open c, PhiA_close c⟩

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns: the output's buffer as found where the point is idle for it, at the stored block at the last. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 2000000 in
/-- The body at any point. The inputs' memrefs hold their blocks; the coordinate decides the case. At the first point
    the invariant is the class's and hands the two carried buffers over at anything; later it hands them at what the
    point before left. The run returns them at this point's sums, which is the invariant at the next position. At
    the last point the output's buffer comes back at the stored block; elsewhere it passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show (dat V c).leavesExact 3 t = owns (c : Thread nD τ) (st1_3 t) fullShare ((dat V c).after 3 t) from by
    unfold Dat.leavesExact; rw [live_3 t], after_3]
  have hN : t.val < 20 := lt_of_lt_of_eq t.isLt N_eq
  by_cases hl : t.val = 19
  · have h0 : t.val ≠ 0 := by omega
    rw [show (dat V c).leavesExact 4 t = owns (c : Thread nD τ) (st1_4 t) fullShare ((dat V c).after 4 t) from by
      unfold Dat.leavesExact; rw [live_4 t ((hcondLast t).mpr hl)], after_4]
    rw [acc_pos_fst V c t h0, acc_pos_snd V c t h0]
    rw [Phi_castSucc V c t, Phi_pos V c _ _ h0]
    iintro ⟨⟨Hoth, S0, S1, Hg⟩, Ho, ⟨%d0, H0⟩, ⟨%d1, H1⟩, ⟨%d2, H2⟩, ⟨%d3, H3⟩, ⟨%d4, H4⟩⟩
    iapply (run_last c Set.univ (grid1.coords t) (fun h => h0 ((hcondFirst t).mp h)) ((hcondLast t).mpr hl)
      _ _ _ _ _ _ _ _ _ _ _ _ _ _ (iblk V c 0 t) (iblk V c 1 t) (iblk V c 2 t) (iblk V c 3 t)
      (acc V c (t.val - 1) (Nat.lt_of_le_of_lt (Nat.sub_le _ _) t.isLt)).1
      (acc V c (t.val - 1) (Nat.lt_of_le_of_lt (Nat.sub_le _ _) t.isLt)).2 _)
    isplitl [H0]; · iexact H0
    isplitl [H1]; · iexact H1
    isplitl [H2]; · iexact H2
    isplitl [H3]; · iexact H3
    isplitl [H4]; · iexists _; iexact H4
    isplitl [S0]; · iexact S0
    isplitl [S1]; · iexact S1
    iintro ⟨H0, H1, H2, H3, H4, S0, S1⟩
    isplitl [Hoth S0 S1 Hg]
    · isplitl [Hoth]; · iexact Hoth
      isplitl [S0]; · iexact S0
      isplitl [S1]; · iexact S1
      iexact Hg
    isplitl [Ho]; · iexact Ho
    isplitl [H0]; · iexact H0
    isplitl [H1]; · iexact H1
    isplitl [H2]; · iexact H2
    isplitl [H3]; · iexact H3
    iexact H4
  · have hnl : ¬condLast (grid1.coords t) := fun h => hl ((hcondLast t).mp h)
    rw [Dat.leavesExact_idle (dat V c) 4 t (idle_4 t hnl) (noFlush_4 t hnl)]
    by_cases h0 : t.val = 0
    · rw [acc_first_fst V c t h0, acc_first_snd V c t h0]
      rw [Phi_castSucc V c t, Phi_zero V c _ _ h0, PhiA_eq]
      iintro ⟨⟨Hoth, S0, S1, Hg⟩, Ho, ⟨%d0, H0⟩, ⟨%d1, H1⟩, ⟨%d2, H2⟩, ⟨%d3, H3⟩, ⟨%d4, H4⟩⟩
      iapply (run_first c Set.univ (grid1.coords t) ((hcondFirst t).mpr h0) hnl
        _ _ _ _ _ _ _ _ _ _ _ _ _ _ (iblk V c 0 t) (iblk V c 1 t) _)
      isplitl [H0]; · iexact H0
      isplitl [H1]; · iexact H1
      isplitl [S0]; · iexact S0
      isplitl [S1]; · iexact S1
      iintro ⟨H0, H1, S0, S1⟩
      isplitl [Hoth S0 S1 Hg]
      · isplitl [Hoth]; · iexact Hoth
        isplitl [S0]; · iexact S0
        isplitl [S1]; · iexact S1
        iexact Hg
      isplitl [Ho]; · iexact Ho
      isplitl [H0]; · iexact H0
      isplitl [H1]; · iexact H1
      isplitl [H2]; · iexact H2
      isplitl [H3]; · iexact H3
      iexists _; iexact H4
    · rw [acc_pos_fst V c t h0, acc_pos_snd V c t h0]
      rw [Phi_castSucc V c t, Phi_pos V c _ _ h0]
      iintro ⟨⟨Hoth, S0, S1, Hg⟩, Ho, ⟨%d0, H0⟩, ⟨%d1, H1⟩, ⟨%d2, H2⟩, ⟨%d3, H3⟩, ⟨%d4, H4⟩⟩
      iapply (run_mid c Set.univ (grid1.coords t) (fun h => h0 ((hcondFirst t).mp h)) hnl
        _ _ _ _ _ _ _ _ _ _ _ _ _ _ (iblk V c 0 t) (iblk V c 1 t)
        (acc V c (t.val - 1) (Nat.lt_of_le_of_lt (Nat.sub_le _ _) t.isLt)).1
        (acc V c (t.val - 1) (Nat.lt_of_le_of_lt (Nat.sub_le _ _) t.isLt)).2 _)
      isplitl [H0]; · iexact H0
      isplitl [H1]; · iexact H1
      isplitl [S0]; · iexact S0
      isplitl [S1]; · iexact S1
      iintro ⟨H0, H1, S0, S1⟩
      isplitl [Hoth S0 S1 Hg]
      · isplitl [Hoth]; · iexact Hoth
        isplitl [S0]; · iexact S0
        isplitl [S1]; · iexact S1
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Pool

end
-- ==== Proof.KRun.lean ====
/-
  The run of the kernel's program: host operations, the dense-layer region, host operations, the pooled-softmax region.

  Between two items of @main every unscoped buffer of the core is held whole at a known valuation: the launch memory, then
  each host stretch applied in turn, then — across a region — the same valuation with the region's result array replaced
  by what its write-backs leave (the proof data's final array). Beside the buffers ride the generator register at some
  state and the core's dues, which are nothing. Each region's record sorts its windows' arrays out of the unscoped
  buffers at entry and puts them back at exit; its invariant takes the generator register in and gives it back.
  The launch then says: every weakly fair execution terminates, the result buffer holds the second region's final array,
  and every argument is as launched.
-/
import proofs.«402030_j79542794322477_3_alg».proof.Proof.KDense
import proofs.«402030_j79542794322477_3_alg».proof.Proof.KPool
import proofs.«402030_j79542794322477_3_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffers as the first region finds them, read at the core's references. -/
abbrev VA (c : Dev nD) (b : Ref sig .tc) : Buf (Elt F) ((c : Thread nD τ).loc b) := V5 m c b

/-- What the first region leaves in its result array. -/
def res0 (c : Dev nD) : Buf (Elt F) ((c : Thread nD τ).loc main_v28) := (Dense.dat (VA m) c).arrAt 4 cfg0.N

/-- The unknowns of the boundary valuations, with the first region's result filled in. -/
def outs0 : Outs (F := F) := fun _ r c => Function.update (V5 m c) (Proc.devRef .tc main_v28) (res0 m c) (Proc.devRef .tc r)

/-- The buffers as the second region finds them, read at the core's references. -/
abbrev VB (c : Dev nD) (b : Ref sig .tc) : Buf (Elt F) ((c : Thread nD τ).loc b) := V7 m (outs0 m) c b

/-- What the second region leaves in its result array. -/
def res1 (c : Dev nD) : Buf (Elt F) ((c : Thread nD τ).loc main_v44) := (Pool.dat (VB m) c).arrAt 4 cfg1.N

/-- The unknowns of the boundary valuations: each region's result array at what the region leaves. -/
def outs : Outs (F := F) := fun J r c =>
  if J = 8 then Function.update (V7 m (outs0 m) c) (Proc.devRef .tc main_v44) (res1 m c) (Proc.devRef .tc r) else outs0 m J r c

theorem outs_6 (c : Dev nD) : outs m 6 main_v28 c = res0 m c := by
  unfold outs outs0; rw [if_neg (by decide)]; exact Function.update_self _ _ _

theorem outs_8 (c : Dev nD) : outs m 8 main_v44 c = res1 m c := by
  unfold outs; rw [if_pos rfl]; exact Function.update_self _ _ _

theorem V6_outs (c : Dev nD) : V6 m (outs m) c = V6 m (outs0 m) c := by
  unfold V6; rw [outs_6]; unfold outs0; rw [Function.update_self]

theorem V7_outs (c : Dev nD) : V7 m (outs m) c = V7 m (outs0 m) c := by
  unfold V7; rw [V6_outs]

/-! ## The proof data family and what rides beside the buffers -/

/-- Every pipeline's proof data, each at its region's entry contents: a literal match on the pipeline's number. -/
def pdats : (p : Fin 2) → (c : Dev nD) → Dat τ (Elt F) Unit ℕ (UR sig nD τ) ℕ (cfgs p) c
  | ⟨0, _⟩ => fun c => Dense.dat (VA m) c
  | ⟨1, _⟩ => fun c => Pool.dat (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at
    nothing. -/
abbrev R (c : Dev nD) : sProp 𝕄 := iprop((∃ r, prngReg c r) ∗ ∃ W, owes (c : Thread nD τ) (0 : CellTallies nD τ sig Unit) W)

/-! ## The contents at each region's exit -/

/-- The buffers at the first region's exit, read at the core's references. -/
abbrev VA' (c : Dev nD) (b : Ref sig .tc) : Buf (Elt F) ((c : Thread nD τ).loc b) := V6 m (outs m) c b
/-- The buffers at the second region's exit, read at the core's references. -/
abbrev VB' (c : Dev nD) (b : Ref sig .tc) : Buf (Elt F) ((c : Thread nD τ).loc b) := V8 m (outs m) c b

/-- At the first region's exit each of its arrays holds what the pipeline leaves: an input its entry contents (no
    write-back touches it), the result its final array. -/
theorem hF0 (c : Dev nD) (w : Fin cfg0.W) : (pdats m 0 c).arrAt w cfg0.N = VA' m c (Pipeline.arrRef spec0 w) :=
  match w with
  | ⟨0, _⟩ => ((Dense.dat (VA m) c).arrAt_in 0 rfl cfg0.N).trans ((Dense.A_eq (VA m) c 0).trans (V6_of m (outs m) c _ (by decide)).symm)
  | ⟨1, _⟩ => ((Dense.dat (VA m) c).arrAt_in 1 rfl cfg0.N).trans ((Dense.A_eq (VA m) c 1).trans (V6_of m (outs m) c _ (by decide)).symm)
  | ⟨2, _⟩ => ((Dense.dat (VA m) c).arrAt_in 2 rfl cfg0.N).trans ((Dense.A_eq (VA m) c 2).trans (V6_of m (outs m) c _ (by decide)).symm)
  | ⟨3, _⟩ => ((Dense.dat (VA m) c).arrAt_in 3 rfl cfg0.N).trans ((Dense.A_eq (VA m) c 3).trans (V6_of m (outs m) c _ (by decide)).symm)
  | ⟨4, _⟩ => by
    show res0 m c = Function.update (V5 m c) (Proc.devRef .tc main_v28) (outs m 6 main_v28 c) (Proc.devRef .tc main_v28)
    rw [Function.update_self, outs_6]

/-- Every other buffer is as the region found it. -/
theorem hrest0 (c : Dev nD) : ∀ b, b ∉ Finset.univ.image (Pipeline.arrRef spec0) → VA' m c b = VA m c b :=
  fun b hb => V6_of m (outs m) c b (fun h => hb (by
    rw [List.mem_singleton] at h; subst h
    exact Finset.mem_image.mpr ⟨4, Finset.mem_univ _, rfl⟩))

theorem hF1 (c : Dev nD) (w : Fin cfg1.W) : (pdats m 1 c).arrAt w cfg1.N = VB' m c (Pipeline.arrRef spec1 w) :=
  match w with
  | ⟨0, _⟩ => ((Pool.dat (VB m) c).arrAt_in 0 rfl cfg1.N).trans ((Pool.A_eq (VB m) c 0).trans
      ((congrFun (V7_outs m c) _).symm.trans (V8_of m (outs m) c _ (by decide)).symm))
  | ⟨1, _⟩ => ((Pool.dat (VB m) c).arrAt_in 1 rfl cfg1.N).trans ((Pool.A_eq (VB m) c 1).trans
      ((congrFun (V7_outs m c) _).symm.trans (V8_of m (outs m) c _ (by decide)).symm))
  | ⟨2, _⟩ => ((Pool.dat (VB m) c).arrAt_in 2 rfl cfg1.N).trans ((Pool.A_eq (VB m) c 2).trans
      ((congrFun (V7_outs m c) _).symm.trans (V8_of m (outs m) c _ (by decide)).symm))
  | ⟨3, _⟩ => ((Pool.dat (VB m) c).arrAt_in 3 rfl cfg1.N).trans ((Pool.A_eq (VB m) c 3).trans
      ((congrFun (V7_outs m c) _).symm.trans (V8_of m (outs m) c _ (by decide)).symm))
  | ⟨4, _⟩ => by
    show res1 m c = Function.update (V7 m (outs m) c) (Proc.devRef .tc main_v44) (outs m 8 main_v44 c) (Proc.devRef .tc main_v44)
    rw [Function.update_self, outs_8]

theorem hrest1 (c : Dev nD) : ∀ b, b ∉ Finset.univ.image (Pipeline.arrRef spec1) → VB' m c b = VB m c b :=
  fun b hb => (V8_of m (outs m) c b (fun h => hb (by
    rw [List.mem_singleton] at h; subst h
    exact Finset.mem_image.mpr ⟨4, Finset.mem_univ _, rfl⟩))).trans (congrFun (V7_outs m c) _)

/-! ## The regions as segments -/

set_option backward.isDefEq.respectTransparency.types false in
/-- The dense-layer region over the thread state: entered from every unscoped buffer at the contents after the host
    prefix, left at those contents with the result array at its final value. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (VA m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooled-softmax region over the thread state: entered from every unscoped buffer at the contents after the second
    host stretch, left at those contents with the result array at its final value. The class's invariant becomes the
    region's at the first point (the scratch at anything) and is given back after the last (the scratch forgotten). -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool.body_obligation (VB m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V7_outs]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec1 c from by
      unfold Pipeline.ΦA
      iintro ⟨Hp, -, Hr⟩
      isplitl [Hr]; · iexact Hr
      iexact Hp).trans (Pool.hin (VB m) c)
  hout c := by
    rw [Pipeline.ownSems0_none]
    exact (Pool.hout (VB m) c).trans (show Pipeline.ΦA spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN, at any `F`: from any memory with zero counters, every weakly fair execution of @main on the TensorCores
    terminates, nothing faulting; the result buffer ends at the second region's final array and every argument as
    launched. -/
theorem run_main : θ_run defs (onTc (τ := τ) (main (F := F))) ⟨m, fun _ => 0, ρ⟩ (fun r => ∀ c : Dev nD,
      r.2.mem ((c.tc : Thread nD τ).loc main_v44) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v44) = res1 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  -- the end: the result and each argument read off the last valuation
  unfold StableHlo.held
  iintro ⟨Hh, HSI⟩
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨(h (Proc.devRef .tc main_v44) (Finset.mem_filter.mpr ⟨StableHlo.devRef_mem_tcRefs main_v44, by decide⟩)).trans
        ((show V8 m (outs m) c (Proc.devRef .tc main_v44) = outs m 8 main_v44 c from Function.update_self _ _ _).trans (outs_8 m c)),
      (h (Proc.devRef .tc main_arg0) (Finset.mem_filter.mpr ⟨StableHlo.devRef_mem_tcRefs main_arg0, by decide⟩)).trans (V8_main_arg0 m (outs m) c),
      (h (Proc.devRef .tc main_arg1) (Finset.mem_filter.mpr ⟨StableHlo.devRef_mem_tcRefs main_arg1, by decide⟩)).trans (V8_main_arg1 m (outs m) c),
      (h (Proc.devRef .tc main_arg2) (Finset.mem_filter.mpr ⟨StableHlo.devRef_mem_tcRefs main_arg2, by decide⟩)).trans (V8_main_arg2 m (outs m) c),
      (h (Proc.devRef .tc main_arg3) (Finset.mem_filter.mpr ⟨StableHlo.devRef_mem_tcRefs main_arg3, by decide⟩)).trans (V8_main_arg3 m (outs m) c),
      (h (Proc.devRef .tc main_arg4) (Finset.mem_filter.mpr ⟨StableHlo.devRef_mem_tcRefs main_arg4, by decide⟩)).trans (V8_main_arg4 m (outs m) c),
      (h (Proc.devRef .tc main_arg5) (Finset.mem_filter.mpr ⟨StableHlo.devRef_mem_tcRefs main_arg5, by decide⟩)).trans (V8_main_arg5 m (outs m) c),
      (h (Proc.devRef .tc main_arg6) (Finset.mem_filter.mpr ⟨StableHlo.devRef_mem_tcRefs main_arg6, by decide⟩)).trans (V8_main_arg6 m (outs m) c),
      (h (Proc.devRef .tc main_arg7) (Finset.mem_filter.mpr ⟨StableHlo.devRef_mem_tcRefs main_arg7, by decide⟩)).trans (V8_main_arg7 m (outs m) c)⟩
  · iexact HSI

end Cert.Kernel.Run

end
-- ==== Proof.KIDense.lean ====
/-
  The dense layer's kernel region (the first pallas_call): what each grid point computes, and that the body runs.

  The grid has ten points; point `t` works on rows `10000 t … 10000 t + 9999` of the node axis. Its body loads the
  point's block of the aggregated features (window 0), the point's block of the two norm columns (window 1), the whole
  weight matrix (window 2) and the bias row (window 3), and stores ONE value into the whole output block (window 4):
  the payload `k0_pay1` of the four loaded blocks. So after the body the output's staging buffer holds that payload,
  and the inputs' buffers hold their blocks unchanged. The region's invariant is the class's: the scoped buffers no
  window stages and the generator register, which the body never touches.

  Everything is stated at a parameter `V`, the contents of the core's buffers when the region is entered.
-/
import proofs.«402030_j79542794322477_3_alg».proof.Proof.Gen.KernelIdeal.Launch
import proofs.«402030_j79542794322477_3_alg».proof.Proof.Gen.KernelIdeal.Skeleton
import proofs.«402030_j79542794322477_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the
    block index has not moved. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output's buffer -/

abbrev rAgg : Rect S10000x64 := Rect.unit (s := S10000x64) ![0, 0] S10000x64.size inb_S10000x64_S10000x64_0_0
abbrev rNorms : Rect S10000x2 := Rect.unit (s := S10000x2) ![0, 0] S10000x2.size inb_S10000x2_S10000x2_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- The output block after the body, from the four input blocks: the one store's value over the whole block. -/
def outBlk (x0 : Vec F S10000x64 .f32) (x1 : Vec F S10000x2 .f32) (x2 : Vec F S64x64 .f32) (x3 : Vec F S1x64 .f32) : Vec F S10000x64 .f32 :=
  View.canon [⟨rAgg, k0_pay1 (View.ld x1 rNorms) (View.ld x0 rAgg) (View.ld x2 rW) (View.ld x3 rB)⟩]

/-- The one store covers the whole block. -/
theorem cover_out (p0 : Vec F S10000x64 .f32) (y : S10000x64.Idx) :
    ∃ pc ∈ ([⟨rAgg, p0⟩] : List (View.Piece (Elt F) S10000x64 .f32)), y ∈ pc.1.set :=
  View.cover_of_tiled [⟨rAgg, p0⟩] S10000x64.size (by rfl) y

/-! ## The body's triple -/

set_option maxHeartbeats 1000000 in
/-- The body on whole staging memrefs, the inputs' at contents `x0 … x3` and the output's at anything, runs to the
    continuation with the inputs' as they were and the output's at `outBlk` of them. -/
theorem sound_kernel (c : Dev nD) (E : Set ℕ) (i : grid0.Coords)
    (arg1 : Memref sig .tc .vmem S10000x64 .f32) (harg1 : arg1.IsWhole) (arg2 : Memref sig .tc .vmem S10000x2 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole)
    (x0 : Vec F S10000x64 .f32) (x1 : Vec F S10000x2 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__graphconv_dense_kernel i arg1 harg1 arg2 harg2 arg3 harg3 arg4 harg4 arg5 harg5) K := by
  simp only [cc0__graphconv_dense_kernel_eq_skeleton]; unfold cc0__graphconv_dense_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The proof data -/

/-- The region's proof data on core `c`: the arrays as the region finds them; after the body at point `t` each input's
    buffer at its block and the output's at `outBlk` of the input blocks; the class's invariant; nothing owed; full
    shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outBlk (iblk V c 0 t) (iblk V c 1 t) (iblk V c 2 t) (iblk V c 3 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Dense

end
-- ==== Proof.KIPool.lean ====
/-
  The pooled-softmax kernel region (the second pallas_call): what each grid point computes, and that the body runs.

  The grid has twenty points, run in order; point `t` works on rows `5000 t … 5000 t + 4999` of the node axis. Two
  scratch buffers are carried from point to point: the per-graph feature sums (16 × 64) and the per-graph node counts
  (16 × 1). At the first point the body stores zeros into both; at every point it loads the point's block of the
  aggregated features (window 0) and of the two columns "destination norm, graph id" (window 1) and adds this block's
  contribution to each scratch; at the last point it also loads the weights (window 2) and the bias row (window 3),
  and stores the softmax of the logits into the output block (window 4), which is written back only there.

  Everything is stated at a parameter `V`, the contents of the core's buffers when the region is entered.
-/
import proofs.«402030_j79542794322477_3_alg».proof.Proof.Gen.KernelIdeal.Launch
import proofs.«402030_j79542794322477_3_alg».proof.Proof.Gen.KernelIdeal.Skeleton
import proofs.«402030_j79542794322477_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and the carried sums -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem N_eq : cfg1.N = 20 := N_1

/-- The last grid point. -/
def tLast : Fin cfg1.N := ⟨19, by rw [N_eq]; decide⟩

/-- One point's update of the two carried buffers `(sums, counts)` from the point's feature block `x0` and its
    "norm, graph id" block `x1`. -/
def accStep (x0 : Vec F S5000x64 .f32) (x1 : Vec F S5000x2 .f32) (s : Vec F S16x64 .f32 × Vec F S16x1 .f32) :
    Vec F S16x64 .f32 × Vec F S16x1 .f32 :=
  (k1_pay5 x1 x0 s.1, k1_pay6 x1 s.2)

/-- What the two carried buffers hold after point `n`: the zeros the first point stores, updated by the points
    `0 … n` in order. -/
def acc (c : Dev nD) : (n : ℕ) → n < cfg1.N → Vec F S16x64 .f32 × Vec F S16x1 .f32
  | 0, h => accStep (iblk V c 0 ⟨0, h⟩) (iblk V c 1 ⟨0, h⟩) (k1_pay1, k1_pay2)
  | n + 1, h => accStep (iblk V c 0 ⟨n + 1, h⟩) (iblk V c 1 ⟨n + 1, h⟩) (acc c n (Nat.lt_of_succ_lt h))

/-- What the last point stores into the output block: the softmax payload of the final counts and sums, the weights and
    the bias row. -/
def resBlk (c : Dev nD) : Vec F S16x4 .f32 :=
  k1_pay7 (acc V c 19 tLast.isLt).2 (acc V c 19 tLast.isLt).1 (iblk V c 2 tLast) (iblk V c 3 tLast)

/-! ## The region's invariant: the two carried buffers at the running sums -/

/-- The two carried buffers, as whole memrefs. -/
abbrev scSum : Memref sig .tc .vmem S16x64 .f32 := Memref.whole cc1_scratch0
abbrev scCnt : Memref sig .tc .vmem S16x1 .f32 := Memref.whole cc1_scratch1

/-- The scoped buffers this region never touches (the other call's staging buffers), each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant before position `n`: before the first point the class's (every scoped buffer that is no staging
    buffer of this call at some contents, and the generator register); afterwards the same with the two carried
    buffers at the sums and counts the points `0 … n - 1` have accumulated. -/
def Phi (c : Dev nD) : (n : ℕ) → n ≤ cfg1.N → sProp 𝕄
  | 0, _ => Pipeline.ΦA spec1 c
  | n + 1, hn => iprop(others (F := F) c ∗ owns (c : Thread nD τ) scSum fullShare (acc V c n hn).1
      ∗ owns (c : Thread nD τ) scCnt fullShare (acc V c n hn).2 ∗ (∃ r, prngReg c r))

/-! ## The proof data -/

/-- The region's proof data on core `c`: the arrays as the region finds them; after the body at point `t` each input's
    buffer at its block, and the output's at the softmax payload of the sums and counts accumulated through `t` (what
    the last point stores; at the other points the output's buffer is not stored into and not written back, and this
    value is read by nothing); the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay7 (acc V c t.val t.isLt).2 (acc V c t.val t.isLt).1 (iblk V c 2 t) (iblk V c 3 t)
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_4_last (c : Dev nD) : (dat V c).after 4 tLast = resBlk V c := by
  dsimp only [dat]; rfl

/-! ## The invariant, position by position -/

theorem Phi_zero (c : Dev nD) (n : ℕ) (h : n ≤ cfg1.N) (hz : n = 0) : Phi V c n h = Pipeline.ΦA spec1 c := by
  subst hz; rfl

/-- After point `n` (before point `n + 1`): the carried buffers at what the points through `n` accumulated. -/
theorem Phi_succ (c : Dev nD) (n : ℕ) (hn : n < cfg1.N) :
    Phi V c (n + 1) hn = iprop(others (F := F) c ∗ owns (c : Thread nD τ) scSum fullShare (acc V c n hn).1
      ∗ owns (c : Thread nD τ) scCnt fullShare (acc V c n hn).2 ∗ (∃ r, prngReg c r)) := rfl

/-- Before a point that is not the first: the carried buffers at what the point before left. -/
theorem Phi_pos (c : Dev nD) (n : ℕ) (h : n ≤ cfg1.N) (hz : n ≠ 0) :
    Phi V c n h = iprop(others (F := F) c ∗ owns (c : Thread nD τ) scSum fullShare (acc V c (n - 1) (by omega)).1
      ∗ owns (c : Thread nD τ) scCnt fullShare (acc V c (n - 1) (by omega)).2 ∗ (∃ r, prngReg c r)) := by
  cases n with
  | zero => exact absurd rfl hz
  | succ n => rfl

/-- The class's invariant with the two carried buffers named: the untouched buffers, the two at some contents, the
    generator register. -/
theorem PhiA_open (c : Dev nD) :
    Pipeline.ΦA spec1 c ⊢ (iprop(others (F := F) c ∗ (∃ d, owns (c : Thread nD τ) scSum fullShare d)
      ∗ (∃ d, owns (c : Thread nD τ) scCnt fullShare d) ∗ (∃ r, prngReg c r)) : sProp 𝕄) := by
  unfold Pipeline.ΦA others; rw [scopedRest1_eq]; simp only [scSum, scCnt, owns_whole]
  iintro ⟨⟨A0, A1, A2, A3, A4, A5, A6, A7, S0, S1⟩, Hg⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [S0]; · iexact S0
  isplitl [S1]; · iexact S1
  iexact Hg

theorem PhiA_close (c : Dev nD) :
    (iprop(others (F := F) c ∗ (∃ d, owns (c : Thread nD τ) scSum fullShare d)
      ∗ (∃ d, owns (c : Thread nD τ) scCnt fullShare d) ∗ (∃ r, prngReg c r)) : sProp 𝕄) ⊢ Pipeline.ΦA spec1 c := by
  unfold Pipeline.ΦA others; rw [scopedRest1_eq]; simp only [scSum, scCnt, owns_whole]
  iintro ⟨⟨A0, A1, A2, A3, A4, A5, A6, A7⟩, S0, S1, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [S0]; · iexact S0
    iexact S1
  iexact Hg

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives the class's back: the carried buffers' contents are forgotten. -/
theorem hout (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last, N_eq]; decide)]
  refine BIBase.Entails.trans ?_ (PhiA_close c)
  iintro ⟨Ho, S0, S1, Hg⟩
  isplitl [Ho]; · iexact Ho
  isplitl [S0]; · iexists _; iexact S0
  isplitl [S1]; · iexists _; iexact S1
  iexact Hg

/-! ## The body's two conditions on the grid point -/

/-- The first conditional's condition (the point is the first), as the body computes it from the coordinate. -/
abbrev condFirst (i : grid1.Coords) : Prop :=
  (Scalar.cmpi .ne (Scalar.extui (Scalar.cmpi .eq (BitVec.ofNat 32 (i 0).val) 0#32)) 0#32) = 1#1
/-- It holds at the first point only. -/
theorem hcondFirst : ∀ t : Fin cfg1.N, condFirst (grid1.coords t) ↔ t.val = 0 :=
  (by decide +kernel : ∀ t : Fin grid1.N, condFirst (grid1.coords t) ↔ t.val = 0)

/-- The second conditional's condition (the point is the last). -/
abbrev condLast (i : grid1.Coords) : Prop := k1_cond2 i = 1#1
/-- It holds at the last point only. -/
theorem hcondLast : ∀ t : Fin cfg1.N, condLast (grid1.coords t) ↔ t.val = 19 :=
  (by decide +kernel : ∀ t : Fin grid1.N, condLast (grid1.coords t) ↔ t.val = 19)

/-- The inputs are never idle. -/
theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cfg1.idle 3 (grid1.coords t) = false := fun _ => rfl
/-- The output is idle at every point but the last, and not written back there; -/
theorem idle_4 : ∀ t : Fin cfg1.N, ¬condLast (grid1.coords t) → cfg1.idle 4 (grid1.coords t) = true := by decide +kernel
theorem noFlush_4 : ∀ t : Fin cfg1.N, ¬condLast (grid1.coords t) → (cfg1.win 4).flush t = false := by decide +kernel
/-- at the last point it is live. -/
theorem live_4 : ∀ t : Fin cfg1.N, condLast (grid1.coords t) → cfg1.idle 4 (grid1.coords t) = false := by decide +kernel

/-! ## The body's three runs

All of the body's loads and stores are of whole buffers: a load reads the buffer's contents, and a buffer stored into
holds the last store's value. -/

theorem zeroOffs : (![0, 0] : Fin 2 → ℕ) = fun _ => 0 := funext fun a => by fin_cases a <;> rfl

/-- A buffer whose last store was of the whole buffer reads as that store's value, whatever was stored before. -/
theorem read_store_whole {S : Shape} (v : View sig .tc .vmem S .f32) (f : v.ty.Contents (Elt F)) {off : Fin S.rank → ℕ}
    (h : off = fun _ => 0) (inb : ∀ a, off a + S.size a ≤ S.size a) (w : S.Idx → Elt F .f32)
    (L : List (View.Piece (Elt F) S .f32)) :
    v.read (Elt F) (v.writes (Elt F) f ((⟨Rect.unit off S.size inb, w⟩ : View.Piece (Elt F) S .f32) :: L)) = w :=
  (View.read_writes_eq_canon v f _ (fun y => ⟨_, List.mem_cons_self, View.mem_set_unit_zero h inb y⟩)).trans
    (View.canon_cons_unit_zero h inb w L)

set_option maxHeartbeats 1000000 in
/-- A middle point: both carried buffers are updated from the point's two blocks; nothing else is touched. -/
theorem run_mid (c : Dev nD) (E : Set ℕ) (i : grid1.Coords) (hc0 : ¬condFirst i) (hc1 : ¬condLast i)
    (arg1 : Memref sig .tc .vmem S5000x64 .f32) (harg1 : arg1.IsWhole) (arg2 : Memref sig .tc .vmem S5000x2 .f32) (harg2 : arg2.IsWhole)
    (arg3 : Memref sig .tc .vmem S64x4 .f32) (harg3 : arg3.IsWhole) (arg4 : Memref sig .tc .vmem S1x4 .f32) (harg4 : arg4.IsWhole)
    (arg5 : Memref sig .tc .vmem S16x4 .f32) (harg5 : arg5.IsWhole)
    (arg6 : Memref sig .tc .vmem S16x64 .f32) (harg6 : arg6.IsWhole) (arg7 : Memref sig .tc .vmem S16x1 .f32) (harg7 : arg7.IsWhole)
    (x0 : Vec F S5000x64 .f32) (x1 : Vec F S5000x2 .f32) (s0 : Vec F S16x64 .f32) (s1 : Vec F S16x1 .f32) (K : PUnit → sProp 𝕄) :
    iprop(owns (c : Thread nD τ) arg1 fullShare x0 ∗ owns (c : Thread nD τ) arg2 fullShare x1
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg6 fullShare (k1_pay5 x1 x0 s0) ∗ owns (c : Thread nD τ) arg7 fullShare (k1_pay6 x1 s1)) -∗ K ⟨⟩))
      ⊢ wp frame (wpE (defs₀ (F := F)) Variants.none c none) E (cc1__meanpool_softmax_kernel i arg1 harg1 arg2 harg2 arg3 harg3 arg4 harg4 arg5 harg5 arg6 harg6 arg7 harg7) K := by
  simp only [cc1__meanpool_softmax_kernel_eq_skeleton]; unfold cc1__meanpool_softmax_kernel_skel
  unfold owns
  iintro ⟨⟨%f0, %hf0, H0⟩, ⟨%f1, %hf1, H1⟩, ⟨%g0, %hg0, S0⟩, ⟨%g1, %hg1, S1⟩, Hk⟩
  subst hf0; subst hf1; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    rw [read_store_whole _ _ zeroOffs]
    simp only [View.readAt_eq_ld, View.ld_unit_zero (S := S5000x2) zeroOffs, View.ld_unit_zero (S := S5000x64) zeroOffs, View.ld_unit_zero (S := S16x64) zeroOffs]
  iexists _; isplitr
  swap; · iexact S1
  ipureintro
  rw [read_store_whole _ _ zeroOffs]
  simp only [View.readAt_eq_ld, View.ld_unit_zero (S := S5000x2) zeroOffs, View.ld_unit_zero (S := S16x1) zeroOffs]

set_option maxHeartbeats 1000000 in
/-- The first point: both carried buffers, found at anything, are zeroed and then updated. -/
theorem run_first (c : Dev nD) (E : Set ℕ) (i : grid1.Coords) (hc0 : condFirst i) (hc1 : ¬condLast i)
    (arg1 : Memref sig .tc .vmem S5000x64 .f32) (harg1 : arg1.IsWhole) (arg2 : Memref sig .tc .vmem S5000x2 .f32) (harg2 : arg2.IsWhole)
    (arg3 : Memref sig .tc .vmem S64x4 .f32) (harg3 : arg3.IsWhole) (arg4 : Memref sig .tc .vmem S1x4 .f32) (harg4 : arg4.IsWhole)
    (arg5 : Memref sig .tc .vmem S16x4 .f32) (harg5 : arg5.IsWhole)
    (arg6 : Memref sig .tc .vmem S16x64 .f32) (harg6 : arg6.IsWhole) (arg7 : Memref sig .tc .vmem S16x1 .f32) (harg7 : arg7.IsWhole)
    (x0 : Vec F S5000x64 .f32) (x1 : Vec F S5000x2 .f32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k1_pay5 x1 x0 k1_pay1) ∗ owns (c : Thread nD τ) arg7 fullShare (k1_pay6 x1 k1_pay2)) -∗ K ⟨⟩))
      ⊢ wp frame (wpE (defs₀ (F := F)) Variants.none c none) E (cc1__meanpool_softmax_kernel i arg1 harg1 arg2 harg2 arg3 harg3 arg4 harg4 arg5 harg5 arg6 harg6 arg7 harg7) K := by
  simp only [cc1__meanpool_softmax_kernel_eq_skeleton]; unfold cc1__meanpool_softmax_kernel_skel
  unfold owns
  iintro ⟨⟨%f0, %hf0, H0⟩, ⟨%f1, %hf1, H1⟩, ⟨%d6, %g0, -, S0⟩, ⟨%d7, %g1, -, S1⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [S0]
  · iexists _; isplitr
    swap; · iexact S0
    ipureintro
    sl_unfold_words
    rw [read_store_whole _ _ zeroOffs]
    simp only [View.readAt_eq_ld, View.readCov_unit_zero (S := S16x64) _ zeroOffs, View.ld_unit_zero (S := S5000x2) zeroOffs,
      View.ld_unit_zero (S := S5000x64) zeroOffs]
  iexists _; isplitr
  swap; · iexact S1
  ipureintro
  sl_unfold_words
  rw [read_store_whole _ _ zeroOffs]
  simp only [View.readAt_eq_ld, View.readCov_unit_zero (S := S16x1) _ zeroOffs, View.ld_unit_zero (S := S5000x2) zeroOffs]

set_option maxHeartbeats 1000000 in
/-- The last point: the carried buffers are updated, then the output's buffer, found at anything, is stored the softmax
    block of the updated counts and sums, the weights and the bias row. -/
theorem run_last (c : Dev nD) (E : Set ℕ) (i : grid1.Coords) (hc0 : ¬condFirst i) (hc1 : condLast i)
    (arg1 : Memref sig .tc .vmem S5000x64 .f32) (harg1 : arg1.IsWhole) (arg2 : Memref sig .tc .vmem S5000x2 .f32) (harg2 : arg2.IsWhole)
    (arg3 : Memref sig .tc .vmem S64x4 .f32) (harg3 : arg3.IsWhole) (arg4 : Memref sig .tc .vmem S1x4 .f32) (harg4 : arg4.IsWhole)
    (arg5 : Memref sig .tc .vmem S16x4 .f32) (harg5 : arg5.IsWhole)
    (arg6 : Memref sig .tc .vmem S16x64 .f32) (harg6 : arg6.IsWhole) (arg7 : Memref sig .tc .vmem S16x1 .f32) (harg7 : arg7.IsWhole)
    (x0 : Vec F S5000x64 .f32) (x1 : Vec F S5000x2 .f32) (x2 : Vec F S64x4 .f32) (x3 : Vec F S1x4 .f32)
    (s0 : Vec F S16x64 .f32) (s1 : Vec F S16x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay7 (k1_pay6 x1 s1) (k1_pay5 x1 x0 s0) x2 x3)
            ∗ owns (c : Thread nD τ) arg6 fullShare (k1_pay5 x1 x0 s0) ∗ owns (c : Thread nD τ) arg7 fullShare (k1_pay6 x1 s1)) -∗ K ⟨⟩))
      ⊢ wp frame (wpE (defs₀ (F := F)) Variants.none c none) E (cc1__meanpool_softmax_kernel i arg1 harg1 arg2 harg2 arg3 harg3 arg4 harg4 arg5 harg5 arg6 harg6 arg7 harg7) K := by
  simp only [cc1__meanpool_softmax_kernel_eq_skeleton]; unfold cc1__meanpool_softmax_kernel_skel
  unfold owns
  iintro ⟨⟨%f0, %hf0, H0⟩, ⟨%f1, %hf1, H1⟩, ⟨%f2, %hf2, H2⟩, ⟨%f3, %hf3, H3⟩, ⟨%d5, %f4, -, H4⟩, ⟨%g0, %hg0, S0⟩, ⟨%g1, %hg1, S1⟩, Hk⟩
  subst hf0; subst hf1; subst hf2; subst hf3; subst hg0; subst hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [read_store_whole _ _ zeroOffs]
    simp only [View.readAt_eq_ld, View.readCov_unit_zero (S := S16x64) _ zeroOffs, View.readCov_unit_zero (S := S16x1) _ zeroOffs,
      View.ld_unit_zero (S := S5000x2) zeroOffs, View.ld_unit_zero (S := S5000x64) zeroOffs, View.ld_unit_zero (S := S16x64) zeroOffs,
      View.ld_unit_zero (S := S16x1) zeroOffs, View.ld_unit_zero (S := S64x4) zeroOffs, View.ld_unit_zero (S := S1x4) zeroOffs]
  isplitl [S0]
  · iexists _; isplitr
    swap; · iexact S0
    ipureintro
    sl_unfold_words
    rw [read_store_whole _ _ zeroOffs]
    simp only [View.readAt_eq_ld, View.ld_unit_zero (S := S5000x2) zeroOffs, View.ld_unit_zero (S := S5000x64) zeroOffs, View.ld_unit_zero (S := S16x64) zeroOffs]
  iexists _; isplitr
  swap; · iexact S1
  ipureintro
  sl_unfold_words
  rw [read_store_whole _ _ zeroOffs]
  simp only [View.readAt_eq_ld, View.ld_unit_zero (S := S5000x2) zeroOffs, View.ld_unit_zero (S := S16x1) zeroOffs]

/-! ## The inputs' buffers at every point -/

/-- An input window's staging buffer holds its block at every point, fetched there or not: where it is not fetched the
    block index has not moved. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay7 (acc V c t.val t.isLt).2 (acc V c t.val t.isLt).1 (iblk V c 2 t) (iblk V c 3 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d

/-- The invariant at a point's start, restated at the point's position. -/
theorem Phi_castSucc (c : Dev nD) (t : Fin cfg1.N) :
    (dat V c).Φ t.castSucc = Phi V c t.val (Nat.le_of_lt t.isLt) := by
  dsimp only [dat]; simp only [Fin.coe_castSucc]

/-! ## The carried sums, point by point -/

theorem acc_first_fst (c : Dev nD) (t : Fin cfg1.N) (hz : t.val = 0) :
    (acc V c t.val t.isLt).1 = k1_pay5 (iblk V c 1 t) (iblk V c 0 t) k1_pay1 := by
  obtain ⟨n, hn⟩ := t
  cases n with
  | zero => rfl
  | succ n => exact absurd hz (Nat.succ_ne_zero n)
theorem acc_first_snd (c : Dev nD) (t : Fin cfg1.N) (hz : t.val = 0) :
    (acc V c t.val t.isLt).2 = k1_pay6 (iblk V c 1 t) k1_pay2 := by
  obtain ⟨n, hn⟩ := t
  cases n with
  | zero => rfl
  | succ n => exact absurd hz (Nat.succ_ne_zero n)
theorem acc_pos_fst (c : Dev nD) (t : Fin cfg1.N) (hz : t.val ≠ 0) :
    (acc V c t.val t.isLt).1
      = k1_pay5 (iblk V c 1 t) (iblk V c 0 t) (acc V c (t.val - 1) (Nat.lt_of_le_of_lt (Nat.sub_le _ _) t.isLt)).1 := by
  obtain ⟨n, hn⟩ := t
  cases n with
  | zero => exact absurd rfl hz
  | succ n => rfl
theorem acc_pos_snd (c : Dev nD) (t : Fin cfg1.N) (hz : t.val ≠ 0) :
    (acc V c t.val t.isLt).2
      = k1_pay6 (iblk V c 1 t) (acc V c (t.val - 1) (Nat.lt_of_le_of_lt (Nat.sub_le _ _) t.isLt)).2 := by
  obtain ⟨n, hn⟩ := t
  cases n with
  | zero => exact absurd rfl hz
  | succ n => rfl

/-- The class's invariant with the two carried buffers named. -/
theorem PhiA_eq (c : Dev nD) :
    (Pipeline.ΦA spec1 c : sProp 𝕄) = iprop(others (F := F) c ∗ (∃ d, owns (c : Thread nD τ) scSum fullShare d)
      ∗ (∃ d, owns (c : Thread nD τ) scCnt fullShare d) ∗ (∃ r, prngReg c r)) :=
  BI.equiv_iff.mp ⟨PhiA_open c, PhiA_close c⟩

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns: the output's buffer as found where the point is idle for it, at the stored block at the last. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 2000000 in
/-- The body at any point. The inputs' memrefs hold their blocks; the coordinate decides the case. At the first point
    the invariant is the class's and hands the two carried buffers over at anything; later it hands them at what the
    point before left. The run returns them at this point's sums, which is the invariant at the next position. At
    the last point the output's buffer comes back at the stored block; elsewhere it passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show (dat V c).leavesExact 3 t = owns (c : Thread nD τ) (st1_3 t) fullShare ((dat V c).after 3 t) from by
    unfold Dat.leavesExact; rw [live_3 t], after_3]
  have hN : t.val < 20 := lt_of_lt_of_eq t.isLt N_eq
  by_cases hl : t.val = 19
  · have h0 : t.val ≠ 0 := by omega
    rw [show (dat V c).leavesExact 4 t = owns (c : Thread nD τ) (st1_4 t) fullShare ((dat V c).after 4 t) from by
      unfold Dat.leavesExact; rw [live_4 t ((hcondLast t).mpr hl)], after_4]
    rw [acc_pos_fst V c t h0, acc_pos_snd V c t h0]
    rw [Phi_castSucc V c t, Phi_pos V c _ _ h0]
    iintro ⟨⟨Hoth, S0, S1, Hg⟩, Ho, ⟨%d0, H0⟩, ⟨%d1, H1⟩, ⟨%d2, H2⟩, ⟨%d3, H3⟩, ⟨%d4, H4⟩⟩
    iapply (run_last c Set.univ (grid1.coords t) (fun h => h0 ((hcondFirst t).mp h)) ((hcondLast t).mpr hl)
      _ _ _ _ _ _ _ _ _ _ _ _ _ _ (iblk V c 0 t) (iblk V c 1 t) (iblk V c 2 t) (iblk V c 3 t)
      (acc V c (t.val - 1) (Nat.lt_of_le_of_lt (Nat.sub_le _ _) t.isLt)).1
      (acc V c (t.val - 1) (Nat.lt_of_le_of_lt (Nat.sub_le _ _) t.isLt)).2 _)
    isplitl [H0]; · iexact H0
    isplitl [H1]; · iexact H1
    isplitl [H2]; · iexact H2
    isplitl [H3]; · iexact H3
    isplitl [H4]; · iexists _; iexact H4
    isplitl [S0]; · iexact S0
    isplitl [S1]; · iexact S1
    iintro ⟨H0, H1, H2, H3, H4, S0, S1⟩
    isplitl [Hoth S0 S1 Hg]
    · isplitl [Hoth]; · iexact Hoth
      isplitl [S0]; · iexact S0
      isplitl [S1]; · iexact S1
      iexact Hg
    isplitl [Ho]; · iexact Ho
    isplitl [H0]; · iexact H0
    isplitl [H1]; · iexact H1
    isplitl [H2]; · iexact H2
    isplitl [H3]; · iexact H3
    iexact H4
  · have hnl : ¬condLast (grid1.coords t) := fun h => hl ((hcondLast t).mp h)
    rw [Dat.leavesExact_idle (dat V c) 4 t (idle_4 t hnl) (noFlush_4 t hnl)]
    by_cases h0 : t.val = 0
    · rw [acc_first_fst V c t h0, acc_first_snd V c t h0]
      rw [Phi_castSucc V c t, Phi_zero V c _ _ h0, PhiA_eq]
      iintro ⟨⟨Hoth, S0, S1, Hg⟩, Ho, ⟨%d0, H0⟩, ⟨%d1, H1⟩, ⟨%d2, H2⟩, ⟨%d3, H3⟩, ⟨%d4, H4⟩⟩
      iapply (run_first c Set.univ (grid1.coords t) ((hcondFirst t).mpr h0) hnl
        _ _ _ _ _ _ _ _ _ _ _ _ _ _ (iblk V c 0 t) (iblk V c 1 t) _)
      isplitl [H0]; · iexact H0
      isplitl [H1]; · iexact H1
      isplitl [S0]; · iexact S0
      isplitl [S1]; · iexact S1
      iintro ⟨H0, H1, S0, S1⟩
      isplitl [Hoth S0 S1 Hg]
      · isplitl [Hoth]; · iexact Hoth
        isplitl [S0]; · iexact S0
        isplitl [S1]; · iexact S1
        iexact Hg
      isplitl [Ho]; · iexact Ho
      isplitl [H0]; · iexact H0
      isplitl [H1]; · iexact H1
      isplitl [H2]; · iexact H2
      isplitl [H3]; · iexact H3
      iexists _; iexact H4
    · rw [acc_pos_fst V c t h0, acc_pos_snd V c t h0]
      rw [Phi_castSucc V c t, Phi_pos V c _ _ h0]
      iintro ⟨⟨Hoth, S0, S1, Hg⟩, Ho, ⟨%d0, H0⟩, ⟨%d1, H1⟩, ⟨%d2, H2⟩, ⟨%d3, H3⟩, ⟨%d4, H4⟩⟩
      iapply (run_mid c Set.univ (grid1.coords t) (fun h => h0 ((hcondFirst t).mp h)) hnl
        _ _ _ _ _ _ _ _ _ _ _ _ _ _ (iblk V c 0 t) (iblk V c 1 t)
        (acc V c (t.val - 1) (Nat.lt_of_le_of_lt (Nat.sub_le _ _) t.isLt)).1
        (acc V c (t.val - 1) (Nat.lt_of_le_of_lt (Nat.sub_le _ _) t.isLt)).2 _)
      isplitl [H0]; · iexact H0
      isplitl [H1]; · iexact H1
      isplitl [S0]; · iexact S0
      isplitl [S1]; · iexact S1
      iintro ⟨H0, H1, S0, S1⟩
      isplitl [Hoth S0 S1 Hg]
      · isplitl [Hoth]; · iexact Hoth
        isplitl [S0]; · iexact S0
        isplitl [S1]; · iexact S1
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Pool

end
-- ==== Proof.KIRun.lean ====
/-
  The run of the kernel's program: host operations, the dense-layer region, host operations, the pooled-softmax region.

  Between two items of @main every unscoped buffer of the core is held whole at a known valuation: the launch memory, then
  each host stretch applied in turn, then — across a region — the same valuation with the region's result array replaced
  by what its write-backs leave (the proof data's final array). Beside the buffers ride the generator register at some
  state and the core's dues, which are nothing. Each region's record sorts its windows' arrays out of the unscoped
  buffers at entry and puts them back at exit; its invariant takes the generator register in and gives it back.
  The launch then says: every weakly fair execution terminates, the result buffer holds the second region's final array,
  and every argument is as launched.
-/
import proofs.«402030_j79542794322477_3_alg».proof.Proof.KIDense
import proofs.«402030_j79542794322477_3_alg».proof.Proof.KIPool
import proofs.«402030_j79542794322477_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The buffers as the first region finds them, read at the core's references. -/
abbrev VA (c : Dev nD) (b : Ref sig .tc) : Buf (Elt F) ((c : Thread nD τ).loc b) := V5 m c b

/-- What the first region leaves in its result array. -/
def res0 (c : Dev nD) : Buf (Elt F) ((c : Thread nD τ).loc main_v28) := (Dense.dat (VA m) c).arrAt 4 cfg0.N

/-- The unknowns of the boundary valuations, with the first region's result filled in. -/
def outs0 : Outs (F := F) := fun _ r c => Function.update (V5 m c) (Proc.devRef .tc main_v28) (res0 m c) (Proc.devRef .tc r)

/-- The buffers as the second region finds them, read at the core's references. -/
abbrev VB (c : Dev nD) (b : Ref sig .tc) : Buf (Elt F) ((c : Thread nD τ).loc b) := V7 m (outs0 m) c b

/-- What the second region leaves in its result array. -/
def res1 (c : Dev nD) : Buf (Elt F) ((c : Thread nD τ).loc main_v44) := (Pool.dat (VB m) c).arrAt 4 cfg1.N

/-- The unknowns of the boundary valuations: each region's result array at what the region leaves. -/
def outs : Outs (F := F) := fun J r c =>
  if J = 8 then Function.update (V7 m (outs0 m) c) (Proc.devRef .tc main_v44) (res1 m c) (Proc.devRef .tc r) else outs0 m J r c

theorem outs_6 (c : Dev nD) : outs m 6 main_v28 c = res0 m c := by
  unfold outs outs0; rw [if_neg (by decide)]; exact Function.update_self _ _ _

theorem outs_8 (c : Dev nD) : outs m 8 main_v44 c = res1 m c := by
  unfold outs; rw [if_pos rfl]; exact Function.update_self _ _ _

theorem V6_outs (c : Dev nD) : V6 m (outs m) c = V6 m (outs0 m) c := by
  unfold V6; rw [outs_6]; unfold outs0; rw [Function.update_self]

theorem V7_outs (c : Dev nD) : V7 m (outs m) c = V7 m (outs0 m) c := by
  unfold V7; rw [V6_outs]

/-! ## The proof data family and what rides beside the buffers -/

/-- Every pipeline's proof data, each at its region's entry contents: a literal match on the pipeline's number. -/
def pdats : (p : Fin 2) → (c : Dev nD) → Dat τ (Elt F) Unit ℕ (UR sig nD τ) ℕ (cfgs p) c
  | ⟨0, _⟩ => fun c => Dense.dat (VA m) c
  | ⟨1, _⟩ => fun c => Pool.dat (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at
    nothing. -/
abbrev R (c : Dev nD) : sProp 𝕄 := iprop((∃ r, prngReg c r) ∗ ∃ W, owes (c : Thread nD τ) (0 : CellTallies nD τ sig Unit) W)

/-! ## The contents at each region's exit -/

/-- The buffers at the first region's exit, read at the core's references. -/
abbrev VA' (c : Dev nD) (b : Ref sig .tc) : Buf (Elt F) ((c : Thread nD τ).loc b) := V6 m (outs m) c b
/-- The buffers at the second region's exit, read at the core's references. -/
abbrev VB' (c : Dev nD) (b : Ref sig .tc) : Buf (Elt F) ((c : Thread nD τ).loc b) := V8 m (outs m) c b

/-- At the first region's exit each of its arrays holds what the pipeline leaves: an input its entry contents (no
    write-back touches it), the result its final array. -/
theorem hF0 (c : Dev nD) (w : Fin cfg0.W) : (pdats m 0 c).arrAt w cfg0.N = VA' m c (Pipeline.arrRef spec0 w) :=
  match w with
  | ⟨0, _⟩ => ((Dense.dat (VA m) c).arrAt_in 0 rfl cfg0.N).trans ((Dense.A_eq (VA m) c 0).trans (V6_of m (outs m) c _ (by decide)).symm)
  | ⟨1, _⟩ => ((Dense.dat (VA m) c).arrAt_in 1 rfl cfg0.N).trans ((Dense.A_eq (VA m) c 1).trans (V6_of m (outs m) c _ (by decide)).symm)
  | ⟨2, _⟩ => ((Dense.dat (VA m) c).arrAt_in 2 rfl cfg0.N).trans ((Dense.A_eq (VA m) c 2).trans (V6_of m (outs m) c _ (by decide)).symm)
  | ⟨3, _⟩ => ((Dense.dat (VA m) c).arrAt_in 3 rfl cfg0.N).trans ((Dense.A_eq (VA m) c 3).trans (V6_of m (outs m) c _ (by decide)).symm)
  | ⟨4, _⟩ => by
    show res0 m c = Function.update (V5 m c) (Proc.devRef .tc main_v28) (outs m 6 main_v28 c) (Proc.devRef .tc main_v28)
    rw [Function.update_self, outs_6]

/-- Every other buffer is as the region found it. -/
theorem hrest0 (c : Dev nD) : ∀ b, b ∉ Finset.univ.image (Pipeline.arrRef spec0) → VA' m c b = VA m c b :=
  fun b hb => V6_of m (outs m) c b (fun h => hb (by
    rw [List.mem_singleton] at h; subst h
    exact Finset.mem_image.mpr ⟨4, Finset.mem_univ _, rfl⟩))

theorem hF1 (c : Dev nD) (w : Fin cfg1.W) : (pdats m 1 c).arrAt w cfg1.N = VB' m c (Pipeline.arrRef spec1 w) :=
  match w with
  | ⟨0, _⟩ => ((Pool.dat (VB m) c).arrAt_in 0 rfl cfg1.N).trans ((Pool.A_eq (VB m) c 0).trans
      ((congrFun (V7_outs m c) _).symm.trans (V8_of m (outs m) c _ (by decide)).symm))
  | ⟨1, _⟩ => ((Pool.dat (VB m) c).arrAt_in 1 rfl cfg1.N).trans ((Pool.A_eq (VB m) c 1).trans
      ((congrFun (V7_outs m c) _).symm.trans (V8_of m (outs m) c _ (by decide)).symm))
  | ⟨2, _⟩ => ((Pool.dat (VB m) c).arrAt_in 2 rfl cfg1.N).trans ((Pool.A_eq (VB m) c 2).trans
      ((congrFun (V7_outs m c) _).symm.trans (V8_of m (outs m) c _ (by decide)).symm))
  | ⟨3, _⟩ => ((Pool.dat (VB m) c).arrAt_in 3 rfl cfg1.N).trans ((Pool.A_eq (VB m) c 3).trans
      ((congrFun (V7_outs m c) _).symm.trans (V8_of m (outs m) c _ (by decide)).symm))
  | ⟨4, _⟩ => by
    show res1 m c = Function.update (V7 m (outs m) c) (Proc.devRef .tc main_v44) (outs m 8 main_v44 c) (Proc.devRef .tc main_v44)
    rw [Function.update_self, outs_8]

theorem hrest1 (c : Dev nD) : ∀ b, b ∉ Finset.univ.image (Pipeline.arrRef spec1) → VB' m c b = VB m c b :=
  fun b hb => (V8_of m (outs m) c b (fun h => hb (by
    rw [List.mem_singleton] at h; subst h
    exact Finset.mem_image.mpr ⟨4, Finset.mem_univ _, rfl⟩))).trans (congrFun (V7_outs m c) _)

/-! ## The regions as segments -/

set_option backward.isDefEq.respectTransparency.types false in
/-- The dense-layer region over the thread state: entered from every unscoped buffer at the contents after the host
    prefix, left at those contents with the result array at its final value. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (VA m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooled-softmax region over the thread state: entered from every unscoped buffer at the contents after the second
    host stretch, left at those contents with the result array at its final value. The class's invariant becomes the
    region's at the first point (the scratch at anything) and is given back after the last (the scratch forgotten). -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool.body_obligation (VB m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V7_outs]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec1 c from by
      unfold Pipeline.ΦA
      iintro ⟨Hp, -, Hr⟩
      isplitl [Hr]; · iexact Hr
      iexact Hp).trans (Pool.hin (VB m) c)
  hout c := by
    rw [Pipeline.ownSems0_none]
    exact (Pool.hout (VB m) c).trans (show Pipeline.ΦA spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN, at any `F`: from any memory with zero counters, every weakly fair execution of @main on the TensorCores
    terminates, nothing faulting; the result buffer ends at the second region's final array and every argument as
    launched. -/
theorem run_main : θ_run defs (onTc (τ := τ) (main (F := F))) ⟨m, fun _ => 0, ρ⟩ (fun r => ∀ c : Dev nD,
      r.2.mem ((c.tc : Thread nD τ).loc main_v44) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v44) = res1 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  -- the end: the result and each argument read off the last valuation
  unfold StableHlo.held
  iintro ⟨Hh, HSI⟩
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨(h (Proc.devRef .tc main_v44) (Finset.mem_filter.mpr ⟨StableHlo.devRef_mem_tcRefs main_v44, by decide⟩)).trans
        ((show V8 m (outs m) c (Proc.devRef .tc main_v44) = outs m 8 main_v44 c from Function.update_self _ _ _).trans (outs_8 m c)),
      (h (Proc.devRef .tc main_arg0) (Finset.mem_filter.mpr ⟨StableHlo.devRef_mem_tcRefs main_arg0, by decide⟩)).trans (V8_main_arg0 m (outs m) c),
      (h (Proc.devRef .tc main_arg1) (Finset.mem_filter.mpr ⟨StableHlo.devRef_mem_tcRefs main_arg1, by decide⟩)).trans (V8_main_arg1 m (outs m) c),
      (h (Proc.devRef .tc main_arg2) (Finset.mem_filter.mpr ⟨StableHlo.devRef_mem_tcRefs main_arg2, by decide⟩)).trans (V8_main_arg2 m (outs m) c),
      (h (Proc.devRef .tc main_arg3) (Finset.mem_filter.mpr ⟨StableHlo.devRef_mem_tcRefs main_arg3, by decide⟩)).trans (V8_main_arg3 m (outs m) c),
      (h (Proc.devRef .tc main_arg4) (Finset.mem_filter.mpr ⟨StableHlo.devRef_mem_tcRefs main_arg4, by decide⟩)).trans (V8_main_arg4 m (outs m) c),
      (h (Proc.devRef .tc main_arg5) (Finset.mem_filter.mpr ⟨StableHlo.devRef_mem_tcRefs main_arg5, by decide⟩)).trans (V8_main_arg5 m (outs m) c),
      (h (Proc.devRef .tc main_arg6) (Finset.mem_filter.mpr ⟨StableHlo.devRef_mem_tcRefs main_arg6, by decide⟩)).trans (V8_main_arg6 m (outs m) c),
      (h (Proc.devRef .tc main_arg7) (Finset.mem_filter.mpr ⟨StableHlo.devRef_mem_tcRefs main_arg7, by decide⟩)).trans (V8_main_arg7 m (outs m) c)⟩
  · iexact HSI

end Cert.KernelIdeal.Run

end
-- ==== Proof.Spec.lean ====
/-
  The mathematics of the two kernels, as functions of whole arrays over the extended reals.

  The program is a two-layer graph convolution followed by a per-graph mean and a softmax. Everything up to the
  aggregated features is the same chain of host operations in the kernel's program and in the reference; the two
  differ in what the kernels replace:

  * the DENSE layer: from the aggregated features `agg` (one row per node), the two norm columns `norms`
    (column 0 the source norm, column 1 the destination norm), a weight matrix and a bias row, the row
    `max (((agg n · norms n 1) W) j + b j) 0 · norms n 0`;
  * the POOLED SOFTMAX: from the aggregated features `agg2`, the columns `ndgid` (column 0 the destination
    norm, column 1 the node's graph id as a number), a weight matrix and a bias row: per graph `g` the sum over its
    nodes of `agg2 n · ndgid n 0` and the number of its nodes, the mean (sum over `max count 1`), the mean times
    the weights plus the bias where the graph has a node, and the softmax of each row.
-/
import Idealize.ShloMosaic.PureOps.Ideal
import Idealize.ShloMosaic.Lib.ValueIdx

noncomputable section

namespace Cert.Spec

open Idealize.ShloMosaic Idealize.ShloMosaic.ValueIdx
open scoped BigOperators

abbrev SN64 : Shape := ⟨2, ![100000, 64]⟩
abbrev SN2 : Shape := ⟨2, ![100000, 2]⟩
abbrev SW1 : Shape := ⟨2, ![64, 64]⟩
abbrev SB1 : Shape := ⟨2, ![1, 64]⟩
abbrev SW2 : Shape := ⟨2, ![64, 4]⟩
abbrev SB2 : Shape := ⟨2, ![1, 4]⟩
abbrev SOut : Shape := ⟨2, ![16, 4]⟩

/-- Every entry of the array is a real number (neither infinity). -/
def AllReal {S : Shape} (x : S.Idx → EReal) : Prop := ∀ i, ∃ r : ℝ, x i = (r : EReal)

/-! ## The dense layer -/

/-- Entry `(n, j)` of the dense layer's result. -/
def denseAt (agg : SN64.Idx → EReal) (norms : SN2.Idx → EReal) (W : SW1.Idx → EReal) (b : SB1.Idx → EReal)
    (n : Fin 100000) (j : Fin 64) : EReal :=
  max ((∑ k : Fin 64, (agg (ix2 n k) * norms (ix2 n (1 : Fin 2))) * W (ix2 k j)) + b (ix2 (0 : Fin 1) j)) 0
    * norms (ix2 n (0 : Fin 2))

/-- The dense layer's result array. -/
def dense (agg : SN64.Idx → EReal) (norms : SN2.Idx → EReal) (W : SW1.Idx → EReal) (b : SB1.Idx → EReal) :
    SN64.Idx → EReal :=
  fun i => denseAt agg norms W b (i 0) (i 1)

/-! ## The pooled softmax -/

/-- `1` when the number `x` is the graph number `g`, else `0`. -/
def oneHot (x : EReal) (g : Fin 16) : EReal := if x = ((g.val : ℝ) : EReal) then 1 else 0

/-- The sum, over the nodes of graph `g`, of feature `k` of `agg2 n · ndgid n 0`. -/
def poolSum (agg2 : SN64.Idx → EReal) (ndgid : SN2.Idx → EReal) (g : Fin 16) (k : Fin 64) : EReal :=
  ∑ n : Fin 100000, oneHot (ndgid (ix2 n (1 : Fin 2))) g * (agg2 (ix2 n k) * ndgid (ix2 n (0 : Fin 2)))

/-- The number of nodes of graph `g`. -/
def poolCnt (ndgid : SN2.Idx → EReal) (g : Fin 16) : EReal :=
  ∑ n : Fin 100000, oneHot (ndgid (ix2 n (1 : Fin 2))) g * 1

/-- Entry `(g, j)` of the logits: the mean features of graph `g` times the weights, plus the bias where the graph
    has a node. -/
def poolLogits (agg2 : SN64.Idx → EReal) (ndgid : SN2.Idx → EReal) (W2 : SW2.Idx → EReal) (b2 : SB2.Idx → EReal)
    (g : Fin 16) (j : Fin 4) : EReal :=
  (∑ k : Fin 64, Ideal.div (poolSum agg2 ndgid g k) (max (poolCnt ndgid g) 1) * W2 (ix2 k j))
    + b2 (ix2 (0 : Fin 1) j) * (if 0 < poolCnt ndgid g then 1 else 0)

/-- The softmax of row `g` of `l`, at column `j`: the exponential of the entry less the row's maximum, over the sum of
    those exponentials along the row. -/
def softmaxAt (l : Fin 16 → Fin 4 → EReal) (g : Fin 16) (j : Fin 4) : EReal :=
  Ideal.div (Ideal.exp (l g j - Finset.univ.sup (l g)))
    (∑ j' : Fin 4, Ideal.exp (l g j' - Finset.univ.sup (l g)))

/-- The pooled softmax's result array. -/
def pooled (agg2 : SN64.Idx → EReal) (ndgid : SN2.Idx → EReal) (W2 : SW2.Idx → EReal) (b2 : SB2.Idx → EReal) :
    SOut.Idx → EReal :=
  fun i => softmaxAt (poolLogits agg2 ndgid W2 b2) (i 0) (i 1)

end Cert.Spec

end
-- ==== Proof.DenseValue.lean ====
/-
  The dense layer's result array, at the ideal values: what the first kernel region leaves in its output.

  The grid has ten points. Point `t` holds, in its staging buffers, rows `10000 t … 10000 t + 9999` of the aggregated
  features and of the two norm columns, the whole weight matrix and the whole bias row, and stores one value over its whole
  output block. Over the extended reals every operation of that value is exact and the change of float format is the
  identity, so entry `(p, q)` of the stored block is

    max (∑ k, (features p k · norms p 1) · weights k q + bias 0 q) 0 · norms p 0,

  the matrix product into a zero accumulator being the plain sum over the contracted axis. Row `p` of point `t`'s blocks is
  row `10000 t + p` of the arrays, so the stored entry is the dense layer's entry `(10000 t + p, q)` of the four arrays as
  the region finds them. The ten output blocks tile the rows (row `r` lies in block `r / 10000`) and every point writes its
  block back, so after the region the result array is the dense layer of those four arrays, entry by entry.
-/
import proofs.«402030_j79542794322477_3_alg».proof.Proof.KIDense
import proofs.«402030_j79542794322477_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.DenseValue

open Cert.KernelIdeal Cert.KernelIdeal.Gen Cert.KernelIdeal.Dense
open Idealize.ShloMosaic Idealize.ShloMosaic.TcCoe Idealize.ShloMosaic.ValueIdx
open scoped BigOperators

/-! ## The point's arithmetic at one entry -/

/-- The offsets of a rectangle that starts at the block's corner. -/
theorem zeroOff : (![0, 0] : Fin 2 → Nat) = fun _ => 0 := funext fun a => by fin_cases a <;> rfl

/-- In the product of a `[10000, 64]` block with the `[64, 64]` weights, the left factor's row is the result's row, -/
theorem prodLhs_row (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- its column the summation index; -/
theorem prodLhs_col (i : S10000x64.Idx) (s : dot_S10000x64_S64x64_S10000x64_1_0_0_1_n_n.contr.Idx) :
    (dot_S10000x64_S64x64_S10000x64_1_0_0_1_n_n.lhsIdx i s 1).val = (s ⟨0, by decide⟩).val :=
  dot_S10000x64_S64x64_S10000x64_1_0_0_1_n_n.lhsIdx_val_of_single rfl i s
/-- the right factor's row is the summation index, -/
theorem prodRhs_row (i : S10000x64.Idx) (s : dot_S10000x64_S64x64_S10000x64_1_0_0_1_n_n.contr.Idx) :
    (dot_S10000x64_S64x64_S10000x64_1_0_0_1_n_n.rhsIdx i s 0).val = (s ⟨0, by decide⟩).val :=
  dot_S10000x64_S64x64_S10000x64_1_0_0_1_n_n.rhsIdx_val_of_single rfl i s
/-- its column the result's column. -/
theorem prodRhs_col (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix product into a zero accumulator, at entry `(p, q)`: the sum over `k` of `l p k · r k q`. -/
theorem product_at (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  show FloatOps.matmul dot_S10000x64_S64x64_S10000x64_1_0_0_1_n_n none l r (constant (F := Ideal) S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact prodLhs_row _ _
    | ⟨1, _⟩ => exact (prodLhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (prodRhs_row _ _).trans hk
    | ⟨1, _⟩ => exact prodRhs_col _ _)
  rw [el, er]

/-- A column `[10000, 1]` spread over the 64 columns reads, at `(p, q)`, the column's entry in row `p`. -/
theorem column_spread_at {α : Type} (v : S10000x1.Idx → α) (h : S10000x1.Broadcasts S10000x64) (p : Fin 10000) (q : Fin 64) :
    broadcastTo S10000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- Column 1 of the two norm columns, as a column, reads the row's entry in column 1, -/
theorem column_one_at {α : Type} (v : S10000x2.Idx → α) (h : S10000x2.Slices ![0, 1] S10000x1) (p : Fin 10000) :
    extractStridedSlice S10000x1 ![0, 1] v h (ix2 p (0 : Fin 1)) = v (ix2 p (1 : Fin 2)) :=
  slice2_axis1_apply 1 v h p 0 1 rfl
/-- and column 0 the row's entry in column 0. -/
theorem column_zero_at {α : Type} (v : S10000x2.Idx → α) (h : S10000x2.Slices ![0, 0] S10000x1) (p : Fin 10000) :
    extractStridedSlice S10000x1 ![0, 0] v h (ix2 p (0 : Fin 1)) = v (ix2 p (0 : Fin 2)) :=
  slice2_axis1_apply 0 v h p 0 0 rfl

/-- What a point stores at entry `(p, q)` of its block, from its four loaded blocks: row `p` of the features scaled by the
    row's destination norm, times column `q` of the weights, plus the bias, cut below at zero, scaled by the row's source norm. -/
theorem payload_at (v0 : Vec Ideal S10000x2 .f32) (v3 : Vec Ideal S10000x64 .f32) (v8 : Vec Ideal S64x64 .f32) (v11 : Vec Ideal S1x64 .f32)
    (p : Fin 10000) (q : Fin 64) :
    k0_pay1 (F := Ideal) v0 v3 v8 v11 (ix2 p q)
      = max ((∑ k : Fin 64, (v3 (ix2 p k) * v0 (ix2 p (1 : Fin 2))) * v8 (ix2 k q)) + v11 (ix2 (0 : Fin 1) q)) 0 * v0 (ix2 p (0 : Fin 2)) := by
  unfold k0_pay1
  simp only [shapeCast_self]
  rw [mulf_apply, maximumf_apply, addf_apply, broadcast_apply, product_at, column_spread_at, column_zero_at, broadcastTo_1b_ab_apply]
  simp only [truncf_apply, mulf_apply, column_spread_at, column_one_at]
  show max _ (Ideal.ofBits .f32 0x00000000#32) * _ = _
  rw [Ideal.ofBits_zero_f32]

/-- The block a point stores, at entry `(p, q)`, from the four blocks in its staging buffers: the store and every load are of
    the whole block. -/
theorem outBlk_at (x0 : Vec Ideal S10000x64 .f32) (x1 : Vec Ideal S10000x2 .f32) (x2 : Vec Ideal S64x64 .f32) (x3 : Vec Ideal S1x64 .f32)
    (p : Fin 10000) (q : Fin 64) :
    outBlk (F := Ideal) x0 x1 x2 x3 (ix2 p q)
      = max ((∑ k : Fin 64, (x0 (ix2 p k) * x1 (ix2 p (1 : Fin 2))) * x2 (ix2 k q)) + x3 (ix2 (0 : Fin 1) q)) 0 * x1 (ix2 p (0 : Fin 2)) := by
  unfold outBlk
  rw [View.canon_unit_zero zeroOff]
  simp only [View.ld_unit_zero (S := S10000x64) zeroOff, View.ld_unit_zero (S := S10000x2) zeroOff,
    View.ld_unit_zero (S := S64x64) zeroOff, View.ld_unit_zero (S := S1x64) zeroOff]
  exact payload_at x1 x0 x2 x3 p q

/-! ## The blocks, read off the arrays -/

variable (V : (c : Dev nD) → (b : Ref sig .tc) → Buf (Elt Ideal) ((c : Thread nD τ).loc b))

/-- The block indices over the grid: at point `t` the features, the norm columns and the result are at block `t` along the
    rows; the weights and the bias row have one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block of the features is row `10000 t + p` of the array. -/
theorem features_block_at (c : Dev nD) (t : Fin cfg0.N) (p : Fin 10000) (k : Fin 64) (n : Fin 100000) (hn : n.val = t.val * 10000 + p.val) :
    (iblk V c 0 t : Vec Ideal S10000x64 .f32) (ix2 p k) = (V c main_v26 : Cert.Spec.SN64.Idx → EReal) (ix2 n k) := by
  obtain ⟨e0, e1, -⟩ := block_indices t
  show V c main_v26 (((cfg0.win 0).blk t).view.emb (ix2 p k)) = V c main_v26 (ix2 n k)
  refine congrArg _ (funext fun a => Fin.ext ?_)
  match a with
  | ⟨0, _⟩ => show win0_0.index t (0 : Fin 2) * 10000 + 1 * p.val = n.val; omega
  | ⟨1, _⟩ => show win0_0.index t (1 : Fin 2) * 64 + 1 * k.val = k.val; omega

/-- Row `p` of point `t`'s block of the norm columns is row `10000 t + p` of the array. -/
theorem norms_block_at (c : Dev nD) (t : Fin cfg0.N) (p : Fin 10000) (j : Fin 2) (n : Fin 100000) (hn : n.val = t.val * 10000 + p.val) :
    (iblk V c 1 t : Vec Ideal S10000x2 .f32) (ix2 p j) = (V c main_v13 : Cert.Spec.SN2.Idx → EReal) (ix2 n j) := by
  obtain ⟨-, -, e0, e1, -⟩ := block_indices t
  show V c main_v13 (((cfg0.win 1).blk t).view.emb (ix2 p j)) = V c main_v13 (ix2 n j)
  refine congrArg _ (funext fun a => Fin.ext ?_)
  match a with
  | ⟨0, _⟩ => show win0_1.index t (0 : Fin 2) * 10000 + 1 * p.val = n.val; omega
  | ⟨1, _⟩ => show win0_1.index t (1 : Fin 2) * 2 + 1 * j.val = j.val; omega

/-- The weights' one block is the array. -/
theorem weights_block_at (c : Dev nD) (t : Fin cfg0.N) (k : Fin 64) (q : Fin 64) :
    (iblk V c 2 t : Vec Ideal S64x64 .f32) (ix2 k q) = (V c main_arg4 : Cert.Spec.SW1.Idx → EReal) (ix2 k q) := by
  obtain ⟨-, -, -, -, e0, e1, -⟩ := block_indices t
  show V c main_arg4 (((cfg0.win 2).blk t).view.emb (ix2 k q)) = V c main_arg4 (ix2 k q)
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- The bias row's one block is the array. -/
theorem bias_block_at (c : Dev nD) (t : Fin cfg0.N) (r : Fin 1) (q : Fin 64) :
    (iblk V c 3 t : Vec Ideal S1x64 .f32) (ix2 r q) = (V c main_v27 : Cert.Spec.SB1.Idx → EReal) (ix2 r q) := by
  obtain ⟨-, -, -, -, -, -, e0, e1, -⟩ := block_indices t
  show V c main_v27 (((cfg0.win 3).blk t).view.emb (ix2 r q)) = V c main_v27 (ix2 r q)
  refine congrArg _ (funext fun a => Fin.ext ?_)
  match a with
  | ⟨0, _⟩ => show win0_3.index t (0 : Fin 2) * 1 + 1 * r.val = r.val; omega
  | ⟨1, _⟩ => show win0_3.index t (1 : Fin 2) * 64 + 1 * q.val = q.val; omega

/-! ## From the blocks to the array -/

/-- The dense layer's result as one function of the four arrays the region finds. -/
abbrev result (c : Dev nD) : Cert.Spec.SN64.Idx → EReal :=
  Cert.Spec.dense (V c main_v26) (V c main_v13) (V c main_arg4) (V c main_v27)

/-- What point `t` stores at `(p, q)` of its block is the dense layer's entry `(10000 t + p, q)`: row `p` of the point's
    blocks of the features and of the norm columns is row `10000 t + p` of the arrays, and the weights and the bias row are whole. -/
theorem stored_at (c : Dev nD) (t : Fin cfg0.N) (p : Fin 10000) (q : Fin 64) (n : Fin 100000) (hn : n.val = t.val * 10000 + p.val) :
    outBlk (F := Ideal) (iblk V c 0 t) (iblk V c 1 t) (iblk V c 2 t) (iblk V c 3 t) (ix2 p q)
      = Cert.Spec.denseAt (V c main_v26) (V c main_v13) (V c main_arg4) (V c main_v27) n q := by
  refine (outBlk_at (iblk V c 0 t) (iblk V c 1 t) (iblk V c 2 t) (iblk V c 3 t) p q).trans ?_
  unfold Cert.Spec.denseAt
  rw [norms_block_at V c t p 1 n hn, norms_block_at V c t p 0 n hn, bias_block_at V c t 0 q]
  refine congrArg (fun s => max (s + _) 0 * _) (Finset.sum_congr rfl fun k _ => ?_)
  rw [features_block_at V c t p k n hn, weights_block_at V c t k q]

/-- The same at any index `y` of the block and the index `i` of the array it is written to. -/
theorem stored_entry (c : Dev nD) (t : Fin cfg0.N) (y : S10000x64.Idx) (i : S100000x64.Idx)
    (h0 : (i 0).val = t.val * 10000 + (y 0).val) (h1 : (i 1).val = (y 1).val) :
    outBlk (F := Ideal) (iblk V c 0 t) (iblk V c 1 t) (iblk V c 2 t) (iblk V c 3 t) y = result V c i := by
  obtain ⟨p, q, rfl⟩ : ∃ (p : Fin 10000) (q : Fin 64), y = ix2 p q := ⟨y 0, y 1, eq_ix2 y⟩
  have hq : i 1 = q := Fin.ext h1
  show _ = Cert.Spec.denseAt (V c main_v26) (V c main_v13) (V c main_arg4) (V c main_v27) (i 0) (i 1)
  rw [hq]
  exact stored_at V c t p q (i 0) h0

/-- The block point `t` writes back to the result array is the dense layer's result read through that block's rows. -/
theorem writeback_eq (c : Dev nD) (t : Fin cfg0.N) :
    (dat V c).flushed 4 t = ((cfg0.win 4).blk t).view.read (Elt Ideal) (result V c) := by
  show (cfg0.win 4).cut (grid0.coords t) ((dat V c).after 4 t) = _
  rw [after_4]
  obtain ⟨-, -, -, -, -, -, -, -, e0, e1⟩ := block_indices t
  funext y
  show outBlk (F := Ideal) (iblk V c 0 t) (iblk V c 1 t) (iblk V c 2 t) (iblk V c 3 t) ((cfg0.win 4).xinj (grid0.coords t) y)
    = result V c (((cfg0.win 4).blk t).view.emb y)
  refine stored_entry V c t _ _ ?_ ?_
  · show win0_4.index t (0 : Fin 2) * 10000 + 1 * (y 0).val = t.val * 10000 + (y 0).val; omega
  · show win0_4.index t (1 : Fin 2) * 64 + 1 * (y 1).val = (y 1).val; omega

/-- An index of the array is in point `t`'s block iff each coordinate is in the block's range on its axis. -/
theorem mem_row_block (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v28).slice (win0_4.rect t)).set ↔ _
  rw [View.set_slice_whole, Rect.mem_set_unit]
  exact Iff.rfl

/-- The ten blocks tile the rows: row `r` is in the block of point `r / 10000`, and every point writes its block back. -/
theorem rows_covered (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, e0, e1⟩ := block_indices t
  refine ⟨t, flush0_4 t, ?_⟩
  rw [mem_row_block]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- After the region the result array is the dense layer of the four arrays the region finds, entry by entry. -/
theorem final (c : Dev nD) :
    ((Cert.KernelIdeal.Dense.dat (F := Ideal) V c).arrAt 4 cfg0.N : Cert.Spec.SN64.Idx → EReal)
      = Cert.Spec.dense (V c main_v26) (V c main_v13) (V c main_arg4) (V c main_v27) :=
  (dat V c).arrAt_eq_of_cover 4 (result V c) (fun t _ => writeback_eq V c t) rows_covered

end Cert.KernelIdeal.DenseValue

end
-- ==== Proof.PoolValueSums.lean ====
/-
  The sums and counts the pooled-softmax region carries from grid point to grid point, over the extended reals, in closed form.

  Point `t` of the twenty reads rows `5000 t … 5000 t + 4999` of the aggregated features (5000 × 64) and of the two columns
  "destination norm, graph id" (5000 × 2). From the graph-id column it forms the one-hot matrix `[graph id of row r = g]`
  (5000 × 16) and adds to the carried sums (16 × 64) the product (one-hot)ᵀ · (features · norm), and to the carried counts (16 × 1)
  the product (one-hot)ᵀ · ones. Each product contracts the row axis of both operands, so at an entry it is a plain sum over the
  block's 5000 rows. The first point starts both buffers at zero. So after the last point the sums hold at `(g, k)` the sum over
  all 100000 nodes `n` of `[gid n = g] · (agg2 n k · nd n)`, and the counts at `g` the number of nodes of graph `g`: addition on
  the extended reals is associative and commutative, so twenty sums of five thousand terms are one sum of a hundred thousand.
-/
import proofs.«402030_j79542794322477_3_alg».proof.Proof.KIPool
import proofs.«402030_j79542794322477_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Cert.KernelIdeal Cert.KernelIdeal.Gen
open Idealize.ShloMosaic Idealize.ShloMosaic.TcCoe Idealize.ShloMosaic.ValueIdx
open scoped BigOperators

/-! ## Two words, and two small facts about machine integers -/

/-- The word of the number one. -/
theorem ofBits_one : Ideal.ofBits .f32 0x3F800000#32 = 1 := by
  simp [Ideal.ofBits, Ideal.ieee, -EReal.coe_mul]
  norm_num

/-- The word of minus infinity. -/
theorem ofBits_negInf : Ideal.ofBits .f32 0xFF800000#32 = ⊥ := by
  simp [Ideal.ofBits, Ideal.ieee]

/-- A graph number below 16, as a 32-bit signed integer, is itself. -/
theorem toInt_ofNat16 : ∀ g : Fin 16, (BitVec.ofNat 32 g.val).toInt = (g.val : ℤ) := by decide

/-- A truth value widened to 32 bits reads 1 or 0. -/
theorem toInt_ofBool (b : Bool) : ((BitVec.ofBool b).setWidth 32).toInt = if b then 1 else 0 := by
  cases b <;> decide

/-! ## The one-hot matrix -/

/-- Entry `(r, g)` of the one-hot matrix: 1 when row `r`'s graph id (column 1 of the two-column block) is the number `g`,
    else 0. -/
theorem onehot_apply (x1 : Vec Ideal S5000x2 .f32) (r : Fin 5000) (g : Fin 16) :
    k1_pay4 x1 (ix2 r g) = Spec.oneHot (x1 (ix2 r (1 : Fin 2))) g := by
  unfold k1_pay4 k1_pay3
  dsimp only
  have e1 : broadcastTo S5000x16 (extractStridedSlice S5000x1 ![0, 1] (shapeCast S5000x2 x1 shapeCasts_S5000x2_S5000x2)
      slices_S5000x2_o0_1_S5000x1) broadcasts_S5000x1_S5000x16 (ix2 r g) = x1 (ix2 r (1 : Fin 2)) := by
    refine (broadcastTo_apply _ _ (ix2 r g) (ix2 r (0 : Fin 1)) ?_).trans ?_
    · intro a
      match a with
      | ⟨0, _⟩ => rfl
      | ⟨1, _⟩ => rfl
    refine (extractStridedSlice_apply _ _ _ (ix2 r (0 : Fin 1)) (ix2 r (1 : Fin 2)) ?_).trans ?_
    · intro a
      match a with
      | ⟨0, _⟩ => show r.val = 0 + r.val; omega
      | ⟨1, _⟩ => rfl
    rw [shapeCast_self]
  have e2 : iota Kind.tc S5000x16 32 [1] iota_S5000x16_d1_w32 (ix2 r g) = BitVec.ofNat 32 g.val :=
    iota_single_apply _ _ _ _ _ _
  show FloatOps.sitofp (F := Ideal) .f32 ((FloatOps.cmpf (F := Ideal) (φ := .f32) .oeq (broadcastTo S5000x16 (extractStridedSlice S5000x1 ![0, 1] (shapeCast S5000x2 x1 shapeCasts_S5000x2_S5000x2)
      slices_S5000x2_o0_1_S5000x1) broadcasts_S5000x1_S5000x16 (ix2 r g)) (FloatOps.sitofp (F := Ideal) .f32 (iota Kind.tc S5000x16 32 [1] iota_S5000x16_d1_w32 (ix2 r g)))).setWidth 32) = _
  rw [e1, e2]
  show (((((BitVec.ofBool (decide (x1 (ix2 r (1 : Fin 2)) = (((BitVec.ofNat 32 g.val).toInt : ℝ) : EReal)))).setWidth 32).toInt : ℤ) : ℝ) : EReal) = _
  rw [toInt_ofBool, toInt_ofNat16, Int.cast_natCast]
  unfold Spec.oneHot
  by_cases h : x1 (ix2 r (1 : Fin 2)) = ((g.val : ℝ) : EReal)
  · rw [if_pos h, if_pos (decide_eq_true h), Int.cast_one, EReal.coe_one]
  · rw [if_neg h, if_neg (fun hd => h (of_decide_eq_true hd)), Int.cast_zero, EReal.coe_zero]

/-! ## The two per-point products: each contracts the row axis of both operands -/

/-- The operand indices of the product that updates the sums, axis by axis: the row axis of either operand is the contraction index, the left
    operand's other axis is the result's graph axis, the right operand's other axis the result's column axis. -/
theorem lhsS_0 (i : S16x64.Idx) (q : dot_S5000x16_S5000x64_S16x64_0_0_1_1_n_n.contr.Idx) :
    (dot_S5000x16_S5000x64_S16x64_0_0_1_1_n_n.lhsIdx i q 0).val = (q ⟨0, by decide⟩).val :=
  dot_S5000x16_S5000x64_S16x64_0_0_1_1_n_n.lhsIdx_val_of_single rfl i q
theorem lhsS_1 (i : S16x64.Idx) (q : dot_S5000x16_S5000x64_S16x64_0_0_1_1_n_n.contr.Idx) :
    (dot_S5000x16_S5000x64_S16x64_0_0_1_1_n_n.lhsIdx i q 1).val = (i 0).val := by
  unfold DotDims.lhsIdx
  rw [dif_neg (show ¬(1 : Fin S5000x16.rank) ∈ dot_S5000x16_S5000x64_S16x64_0_0_1_1_n_n.lhsBatch by decide), dif_pos (show (1 : Fin S5000x16.rank) ∈ dot_S5000x16_S5000x64_S16x64_0_0_1_1_n_n.lhsNonContracting by decide)]
  rfl
theorem rhsS_0 (i : S16x64.Idx) (q : dot_S5000x16_S5000x64_S16x64_0_0_1_1_n_n.contr.Idx) :
    (dot_S5000x16_S5000x64_S16x64_0_0_1_1_n_n.rhsIdx i q 0).val = (q ⟨0, by decide⟩).val :=
  dot_S5000x16_S5000x64_S16x64_0_0_1_1_n_n.rhsIdx_val_of_single rfl i q
theorem rhsS_1 (i : S16x64.Idx) (q : dot_S5000x16_S5000x64_S16x64_0_0_1_1_n_n.contr.Idx) :
    (dot_S5000x16_S5000x64_S16x64_0_0_1_1_n_n.rhsIdx i q 1).val = (i 1).val := by
  unfold DotDims.rhsIdx
  rw [dif_neg (show ¬(1 : Fin S5000x64.rank) ∈ dot_S5000x16_S5000x64_S16x64_0_0_1_1_n_n.rhsBatch by decide), dif_pos (show (1 : Fin S5000x64.rank) ∈ dot_S5000x16_S5000x64_S16x64_0_0_1_1_n_n.rhsNonContracting by decide)]
  rfl

/-- The product into a zero accumulator, at an entry: a plain sum over the block's rows. -/
theorem matmulS_apply (A : FVec Ideal S5000x16 .f32) (B : FVec Ideal S5000x64 .f32) (g : Fin 16) (k : Fin 64) :
    matmul dot_S5000x16_S5000x64_S16x64_0_0_1_1_n_n (some .fp32) A B (constant (F := Ideal) S16x64 .f32 0x00000000#32) (ix2 g k)
      = ∑ r : Fin 5000, A (ix2 r g) * B (ix2 r k) := by
  simp only [matmul]
  rw [Ideal.matmul_constant_zero_apply, ← Equiv.sum_comp (contrEquiv1 dot_S5000x16_S5000x64_S16x64_0_0_1_1_n_n 5000 rfl rfl).symm]
  refine Finset.sum_congr rfl fun r _ => ?_
  have hr := contrEquiv1_symm_val dot_S5000x16_S5000x64_S16x64_0_0_1_1_n_n 5000 rfl rfl r
  have el : dot_S5000x16_S5000x64_S16x64_0_0_1_1_n_n.lhsIdx (ix2 g k) ((contrEquiv1 dot_S5000x16_S5000x64_S16x64_0_0_1_1_n_n 5000 rfl rfl).symm r) = ix2 r g := funext fun a => Fin.ext (by
    match a with
    | ⟨0, _⟩ => exact (lhsS_0 _ _).trans hr
    | ⟨1, _⟩ => exact lhsS_1 _ _)
  have er : dot_S5000x16_S5000x64_S16x64_0_0_1_1_n_n.rhsIdx (ix2 g k) ((contrEquiv1 dot_S5000x16_S5000x64_S16x64_0_0_1_1_n_n 5000 rfl rfl).symm r) = ix2 r k := funext fun a => Fin.ext (by
    match a with
    | ⟨0, _⟩ => exact (rhsS_0 _ _).trans hr
    | ⟨1, _⟩ => exact rhsS_1 _ _)
  rw [el, er]

/-- The operand indices of the product that updates the counts, axis by axis: the row axis of either operand is the contraction index, the left
    operand's other axis is the result's graph axis, the right operand's other axis the result's column axis. -/
theorem lhsC_0 (i : S16x1.Idx) (q : dot_S5000x16_S5000x1_S16x1_0_0_1_1_n_n.contr.Idx) :
    (dot_S5000x16_S5000x1_S16x1_0_0_1_1_n_n.lhsIdx i q 0).val = (q ⟨0, by decide⟩).val :=
  dot_S5000x16_S5000x1_S16x1_0_0_1_1_n_n.lhsIdx_val_of_single rfl i q
theorem lhsC_1 (i : S16x1.Idx) (q : dot_S5000x16_S5000x1_S16x1_0_0_1_1_n_n.contr.Idx) :
    (dot_S5000x16_S5000x1_S16x1_0_0_1_1_n_n.lhsIdx i q 1).val = (i 0).val := by
  unfold DotDims.lhsIdx
  rw [dif_neg (show ¬(1 : Fin S5000x16.rank) ∈ dot_S5000x16_S5000x1_S16x1_0_0_1_1_n_n.lhsBatch by decide), dif_pos (show (1 : Fin S5000x16.rank) ∈ dot_S5000x16_S5000x1_S16x1_0_0_1_1_n_n.lhsNonContracting by decide)]
  rfl
theorem rhsC_0 (i : S16x1.Idx) (q : dot_S5000x16_S5000x1_S16x1_0_0_1_1_n_n.contr.Idx) :
    (dot_S5000x16_S5000x1_S16x1_0_0_1_1_n_n.rhsIdx i q 0).val = (q ⟨0, by decide⟩).val :=
  dot_S5000x16_S5000x1_S16x1_0_0_1_1_n_n.rhsIdx_val_of_single rfl i q
theorem rhsC_1 (i : S16x1.Idx) (q : dot_S5000x16_S5000x1_S16x1_0_0_1_1_n_n.contr.Idx) :
    (dot_S5000x16_S5000x1_S16x1_0_0_1_1_n_n.rhsIdx i q 1).val = (i 1).val := by
  unfold DotDims.rhsIdx
  rw [dif_neg (show ¬(1 : Fin S5000x1.rank) ∈ dot_S5000x16_S5000x1_S16x1_0_0_1_1_n_n.rhsBatch by decide), dif_pos (show (1 : Fin S5000x1.rank) ∈ dot_S5000x16_S5000x1_S16x1_0_0_1_1_n_n.rhsNonContracting by decide)]
  rfl

/-- The same for the product that updates the counts. -/
theorem matmulC_apply (A : FVec Ideal S5000x16 .f32) (B : FVec Ideal S5000x1 .f32) (g : Fin 16) :
    matmul dot_S5000x16_S5000x1_S16x1_0_0_1_1_n_n (some .fp32) A B (constant (F := Ideal) S16x1 .f32 0x00000000#32) (ix2 g (0 : Fin 1))
      = ∑ r : Fin 5000, A (ix2 r g) * B (ix2 r (0 : Fin 1)) := by
  simp only [matmul]
  rw [Ideal.matmul_constant_zero_apply, ← Equiv.sum_comp (contrEquiv1 dot_S5000x16_S5000x1_S16x1_0_0_1_1_n_n 5000 rfl rfl).symm]
  refine Finset.sum_congr rfl fun r _ => ?_
  have hr := contrEquiv1_symm_val dot_S5000x16_S5000x1_S16x1_0_0_1_1_n_n 5000 rfl rfl r
  have el : dot_S5000x16_S5000x1_S16x1_0_0_1_1_n_n.lhsIdx (ix2 g (0 : Fin 1)) ((contrEquiv1 dot_S5000x16_S5000x1_S16x1_0_0_1_1_n_n 5000 rfl rfl).symm r) = ix2 r g := funext fun a => Fin.ext (by
    match a with
    | ⟨0, _⟩ => exact (lhsC_0 _ _).trans hr
    | ⟨1, _⟩ => exact lhsC_1 _ _)
  have er : dot_S5000x16_S5000x1_S16x1_0_0_1_1_n_n.rhsIdx (ix2 g (0 : Fin 1)) ((contrEquiv1 dot_S5000x16_S5000x1_S16x1_0_0_1_1_n_n 5000 rfl rfl).symm r) = ix2 r (0 : Fin 1) := funext fun a => Fin.ext (by
    match a with
    | ⟨0, _⟩ => exact (rhsC_0 _ _).trans hr
    | ⟨1, _⟩ => exact rhsC_1 _ _)
  rw [el, er]

/-! ## The payloads at an entry -/

/-- The sums' starting value is zero everywhere. -/
theorem pay1_apply (g : Fin 16) (k : Fin 64) : (k1_pay1 (F := Ideal)) (ix2 g k) = 0 := by
  unfold k1_pay1
  rw [shapeCast_self]
  exact Ideal.ofBits_zero_f32

/-- The counts' starting value is zero everywhere. -/
theorem pay2_apply (g : Fin 16) : (k1_pay2 (F := Ideal)) (ix2 g (0 : Fin 1)) = 0 := by
  unfold k1_pay2
  rw [shapeCast_self]
  exact Ideal.ofBits_zero_f32

/-- Column 0 of the two-column block (the destination norm), spread over the 64 features. -/
theorem col0_apply (x1 : Vec Ideal S5000x2 .f32) (r : Fin 5000) (k : Fin 64) :
    broadcastTo S5000x64 (extractStridedSlice S5000x1 ![0, 0] x1 slices_S5000x2_o0_0_S5000x1)
      broadcasts_S5000x1_S5000x64 (ix2 r k) = x1 (ix2 r (0 : Fin 2)) := by
  refine (broadcastTo_apply _ _ (ix2 r k) (ix2 r (0 : Fin 1)) ?_).trans ?_
  · intro a
    match a with
    | ⟨0, _⟩ => rfl
    | ⟨1, _⟩ => rfl
  refine extractStridedSlice_apply _ _ _ (ix2 r (0 : Fin 1)) (ix2 r (0 : Fin 2)) ?_
  intro a
  match a with
  | ⟨0, _⟩ => show r.val = 0 + r.val; omega
  | ⟨1, _⟩ => rfl

/-- One point's update of the sums, at an entry: the previous sum plus, over the block's rows, the row's one-hot
    weight for the graph times the row's feature times its destination norm. -/
theorem pay5_apply (x1 : Vec Ideal S5000x2 .f32) (x0 : Vec Ideal S5000x64 .f32) (s : Vec Ideal S16x64 .f32)
    (g : Fin 16) (k : Fin 64) :
    k1_pay5 x1 x0 s (ix2 g k)
      = s (ix2 g k) + ∑ r : Fin 5000, Spec.oneHot (x1 (ix2 r (1 : Fin 2))) g * (x0 (ix2 r k) * x1 (ix2 r (0 : Fin 2))) := by
  unfold k1_pay5 k1_pay3
  dsimp only
  simp only [shapeCast_self]
  show s (ix2 g k) + matmul dot_S5000x16_S5000x64_S16x64_0_0_1_1_n_n (some .fp32) (k1_pay4 x1)
      (mulf x0 (broadcastTo S5000x64 (extractStridedSlice S5000x1 ![0, 0] x1 slices_S5000x2_o0_0_S5000x1) broadcasts_S5000x1_S5000x64))
      (constant (F := Ideal) S16x64 .f32 0x00000000#32) (ix2 g k) = _
  rw [matmulS_apply]
  refine congrArg (s (ix2 g k) + ·) (Finset.sum_congr rfl fun r _ => ?_)
  rw [onehot_apply, mulf_apply, col0_apply]

/-- One point's update of the counts, at an entry: the previous count plus the number of the block's rows of that graph. -/
theorem pay6_apply (x1 : Vec Ideal S5000x2 .f32) (s : Vec Ideal S16x1 .f32) (g : Fin 16) :
    k1_pay6 x1 s (ix2 g (0 : Fin 1))
      = s (ix2 g (0 : Fin 1)) + ∑ r : Fin 5000, Spec.oneHot (x1 (ix2 r (1 : Fin 2))) g * 1 := by
  unfold k1_pay6
  simp only [shapeCast_self]
  show s (ix2 g (0 : Fin 1)) + matmul dot_S5000x16_S5000x1_S16x1_0_0_1_1_n_n (some .fp32) (k1_pay4 x1)
      (broadcast S5000x1 (Ideal.ofBits .f32 0x3F800000#32))
      (constant (F := Ideal) S16x1 .f32 0x00000000#32) (ix2 g (0 : Fin 1)) = _
  rw [matmulC_apply]
  refine congrArg (s (ix2 g (0 : Fin 1)) + ·) (Finset.sum_congr rfl fun r _ => ?_)
  rw [onehot_apply, broadcast_apply, ofBits_one]

/-! ## The blocks read off their arrays -/

variable (V : (c : Dev nD) → (b : Ref sig .tc) → Buf (Elt Ideal) ((c : Thread nD τ).loc b))

/-- The block index of the feature window at point `t` is `(t, 0)`, and so is the two-column window's. -/
theorem idx_facts0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem idx_facts1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- The feature block of point `t`, the two-column block of point `t`, and the two arrays they are cut from. -/
abbrev featBlk (c : Dev nD) (t : Fin cfg1.N) : Vec Ideal S5000x64 .f32 := Pool.iblk V c 0 t
abbrev colBlk (c : Dev nD) (t : Fin cfg1.N) : Vec Ideal S5000x2 .f32 := Pool.iblk V c 1 t
abbrev featArr (c : Dev nD) : Vec Ideal S100000x64 .f32 := V c main_v38
abbrev colArr (c : Dev nD) : Vec Ideal S100000x2 .f32 := V c main_v42

/-- Row `r` of point `t`'s feature block is row `5000 t + r` of the array. -/
theorem featBlk_apply (c : Dev nD) (t : Fin cfg1.N) (r : Fin 5000) (k : Fin 64) (h : 5000 * t.val + r.val < 100000) :
    featBlk V c t (ix2 r k) = featArr V c (ix2 ⟨5000 * t.val + r.val, h⟩ k) := by
  obtain ⟨h0, h1⟩ := idx_facts0 t
  show Pool.iblk V c 0 t (ix2 r k) = _
  unfold Pool.iblk
  rw [View.read_apply]
  show V c main_v38 _ = V c main_v38 _
  congr 1
  funext a
  apply Fin.ext
  match a with
  | ⟨0, _⟩ => show win1_0.index t 0 * 5000 + 1 * r.val = 5000 * t.val + r.val; rw [h0]; omega
  | ⟨1, _⟩ => show win1_0.index t 1 * 64 + 1 * k.val = k.val; rw [h1]; omega

/-- Row `r` of point `t`'s two-column block is row `5000 t + r` of the array. -/
theorem colBlk_apply (c : Dev nD) (t : Fin cfg1.N) (r : Fin 5000) (j : Fin 2) (h : 5000 * t.val + r.val < 100000) :
    colBlk V c t (ix2 r j) = colArr V c (ix2 ⟨5000 * t.val + r.val, h⟩ j) := by
  obtain ⟨h0, h1⟩ := idx_facts1 t
  show Pool.iblk V c 1 t (ix2 r j) = _
  unfold Pool.iblk
  rw [View.read_apply]
  show V c main_v42 _ = V c main_v42 _
  congr 1
  funext a
  apply Fin.ext
  match a with
  | ⟨0, _⟩ => show win1_1.index t 0 * 5000 + 1 * r.val = 5000 * t.val + r.val; rw [h0]; omega
  | ⟨1, _⟩ => show win1_1.index t 1 * 2 + 1 * j.val = j.val; rw [h1]; omega

/-! ## The carried sums and counts in closed form -/

/-- What node `m` adds to the sum of graph `g`, feature `k` (past the array: nothing; never read). -/
def sumTerm (c : Dev nD) (g : Fin 16) (k : Fin 64) (m : ℕ) : EReal :=
  if h : m < 100000 then
    Spec.oneHot (colArr V c (ix2 ⟨m, h⟩ (1 : Fin 2))) g * (featArr V c (ix2 ⟨m, h⟩ k) * colArr V c (ix2 ⟨m, h⟩ (0 : Fin 2)))
  else 0

/-- What node `m` adds to the count of graph `g`. -/
def cntTerm (c : Dev nD) (g : Fin 16) (m : ℕ) : EReal :=
  if h : m < 100000 then Spec.oneHot (colArr V c (ix2 ⟨m, h⟩ (1 : Fin 2))) g * 1 else 0

/-- One point's update of the sums: the rows of point `t` are the nodes `5000 t … 5000 t + 4999`. -/
theorem step_sum (c : Dev nD) (t : Fin cfg1.N) (s : Vec Ideal S16x64 .f32) (g : Fin 16) (k : Fin 64) :
    k1_pay5 (colBlk V c t) (featBlk V c t) s (ix2 g k)
      = s (ix2 g k) + ∑ r : Fin 5000, sumTerm V c g k (5000 * t.val + r.val) := by
  have ht : t.val < 20 := Pool.N_eq ▸ t.isLt
  refine (pay5_apply (colBlk V c t) (featBlk V c t) s g k).trans ?_
  refine congrArg (s (ix2 g k) + ·) (Finset.sum_congr rfl fun r _ => ?_)
  have h : 5000 * t.val + r.val < 100000 := by have := r.isLt; omega
  rw [colBlk_apply V c t r 1 h, colBlk_apply V c t r 0 h, featBlk_apply V c t r k h]
  unfold sumTerm
  rw [dif_pos h]

/-- One point's update of the counts, likewise. -/
theorem step_cnt (c : Dev nD) (t : Fin cfg1.N) (s : Vec Ideal S16x1 .f32) (g : Fin 16) :
    k1_pay6 (colBlk V c t) s (ix2 g (0 : Fin 1))
      = s (ix2 g (0 : Fin 1)) + ∑ r : Fin 5000, cntTerm V c g (5000 * t.val + r.val) := by
  have ht : t.val < 20 := Pool.N_eq ▸ t.isLt
  refine (pay6_apply (colBlk V c t) s g).trans ?_
  refine congrArg (s (ix2 g (0 : Fin 1)) + ·) (Finset.sum_congr rfl fun r _ => ?_)
  have h : 5000 * t.val + r.val < 100000 := by have := r.isLt; omega
  rw [colBlk_apply V c t r 1 h]
  unfold cntTerm
  rw [dif_pos h]

/-- After point `n` the sums buffer holds, at `(g, k)`, the contributions of the nodes of the points `0 … n`. -/
theorem acc_sum (c : Dev nD) : ∀ (n : ℕ) (h : n < cfg1.N) (g : Fin 16) (k : Fin 64),
    (Pool.acc V c n h).1 (ix2 g k) = ∑ t ∈ Finset.range (n + 1), ∑ r : Fin 5000, sumTerm V c g k (5000 * t + r.val)
  | 0, h, g, k => by
    show k1_pay5 (colBlk V c ⟨0, h⟩) (featBlk V c ⟨0, h⟩) (k1_pay1 (F := Ideal)) (ix2 g k) = _
    rw [Finset.sum_range_one]
    refine (step_sum V c ⟨0, h⟩ (k1_pay1 (F := Ideal)) g k).trans ?_
    rw [pay1_apply, zero_add]
  | n + 1, h, g, k => by
    show k1_pay5 (colBlk V c ⟨n + 1, h⟩) (featBlk V c ⟨n + 1, h⟩) (Pool.acc V c n (Nat.lt_of_succ_lt h)).1 (ix2 g k) = _
    rw [Finset.sum_range_succ]
    refine (step_sum V c ⟨n + 1, h⟩ _ g k).trans ?_
    rw [acc_sum c n _ g k]

/-- After point `n` the counts buffer holds, at `g`, the number of nodes of graph `g` among those of the points `0 … n`. -/
theorem acc_cnt (c : Dev nD) : ∀ (n : ℕ) (h : n < cfg1.N) (g : Fin 16),
    (Pool.acc V c n h).2 (ix2 g (0 : Fin 1)) = ∑ t ∈ Finset.range (n + 1), ∑ r : Fin 5000, cntTerm V c g (5000 * t + r.val)
  | 0, h, g => by
    show k1_pay6 (colBlk V c ⟨0, h⟩) (k1_pay2 (F := Ideal)) (ix2 g (0 : Fin 1)) = _
    rw [Finset.sum_range_one]
    refine (step_cnt V c ⟨0, h⟩ (k1_pay2 (F := Ideal)) g).trans ?_
    rw [pay2_apply, zero_add]
  | n + 1, h, g => by
    show k1_pay6 (colBlk V c ⟨n + 1, h⟩) (Pool.acc V c n (Nat.lt_of_succ_lt h)).2 (ix2 g (0 : Fin 1)) = _
    rw [Finset.sum_range_succ]
    refine (step_cnt V c ⟨n + 1, h⟩ _ g).trans ?_
    rw [acc_cnt c n _ g]

/-- Twenty blocks of five thousand rows are the hundred thousand rows. -/
theorem sum_blocks (T : ℕ → EReal) :
    ∑ t ∈ Finset.range 20, ∑ r : Fin 5000, T (5000 * t + r.val) = ∑ m : Fin 100000, T m.val := by
  rw [Finset.sum_range fun t => ∑ r : Fin 5000, T (5000 * t + r.val)]
  rw [← Equiv.sum_comp (finProdFinEquiv (m := 20) (n := 5000)) fun m : Fin 100000 => T m.val, Fintype.sum_prod_type]
  refine Finset.sum_congr rfl fun t _ => Finset.sum_congr rfl fun r _ => ?_
  show T (5000 * t.val + r.val) = T (r.val + 5000 * t.val)
  rw [Nat.add_comm]

/-- After the last point the sums are the per-graph feature sums … -/
theorem acc_last_sum (c : Dev nD) (h : 19 < cfg1.N) (g : Fin 16) (k : Fin 64) :
    (Pool.acc V c 19 h).1 (ix2 g k) = Spec.poolSum (featArr V c) (colArr V c) g k := by
  rw [acc_sum V c 19 h g k, sum_blocks]
  unfold Spec.poolSum
  refine Finset.sum_congr rfl fun m _ => ?_
  unfold sumTerm
  rw [dif_pos m.isLt]

/-- … and the counts the per-graph node counts. -/
theorem acc_last_cnt (c : Dev nD) (h : 19 < cfg1.N) (g : Fin 16) :
    (Pool.acc V c 19 h).2 (ix2 g (0 : Fin 1)) = Spec.poolCnt (colArr V c) g := by
  rw [acc_cnt V c 19 h g, sum_blocks]
  unfold Spec.poolCnt
  refine Finset.sum_congr rfl fun m _ => ?_
  unfold cntTerm
  rw [dif_pos m.isLt]

end Cert.KernelIdeal.PoolValue

end
-- ==== Proof.PoolValue.lean ====
/-
  What the pooled-softmax kernel region leaves in its result array, over the extended reals: the pooled softmax of its four
  operands (aggregated features, the two columns "destination norm, graph id", weights, bias row).

  The last grid point turns the carried counts and sums into the result block: per graph the mean features
  `sum / max count 1`, times the weights (a product contracting the 64 features), plus the bias row where the count is positive;
  then along each row of the 16 × 4 logits the maximum (taken from −∞, so it is the row's supremum), the exponentials of the
  differences from it, their sum, and the quotient. The weights and the bias row have one block each, the whole array. The
  carried counts and sums are the per-graph node counts and feature sums over all 100000 nodes. The result window is written back
  at the last point only, and its block is the whole 16 × 4 array: the array ends at that block.
-/
import proofs.«402030_j79542794322477_3_alg».proof.Proof.PoolValueSums
import proofs.«402030_j79542794322477_3_alg».proof.Proof.KIPool
import proofs.«402030_j79542794322477_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Cert.KernelIdeal Cert.KernelIdeal.Gen
open Idealize.ShloMosaic Idealize.ShloMosaic.TcCoe Idealize.ShloMosaic.ValueIdx
open scoped BigOperators

/-! ## The last point's payload: logits, then the softmax of each row -/

/-- The index of row `g` with column `j` put back is `(g, j)`. -/
theorem lift_ix (g : Fin 16) (j : Fin 4) : reduces_S16x4_S16.lift (ix1 g) j = ix2 g j :=
  funext fun a => Fin.ext (by
    match a with
    | ⟨0, _⟩ => rfl
    | ⟨1, _⟩ => rfl)

/-- The row maximum taken from minus infinity is the supremum of the row. -/
theorem rowMax_apply (l : FVec Ideal S16x4 .f32) (hφ : FKind.Formats .f32)
    (hacc : (0xFF800000#32 : BitVec 32) = FKind.maximumf.neutral .f32 hφ) (g : Fin 16) :
    multiReduction (F := Ideal) .maximumf [1] S16 l 0xFF800000#32 reduces_S16x4_S16 hφ hacc (ix1 g)
      = Finset.univ.sup fun j : Fin 4 => l (ix2 g j) := by
  refine (Ideal.multiReduction_maximumf_single l 0xFF800000#32 reduces_S16x4_S16 hφ hacc (ix1 g)).trans ?_
  show (Finset.univ : Finset (Fin 4)).fold max (Ideal.ofBits .f32 0xFF800000#32) (l ∘ reduces_S16x4_S16.lift (ix1 g)) = _
  rw [ofBits_negInf]
  have e : (l ∘ reduces_S16x4_S16.lift (ix1 g)) = fun j : Fin 4 => l (ix2 g j) :=
    funext fun j => congrArg l (lift_ix g j)
  rw [e]
  rfl

/-- The row sum taken from zero is the sum of the row. -/
theorem rowSum_apply (e : FVec Ideal S16x4 .f32) (hφ : FKind.Formats .f32)
    (hacc : (0x00000000#32 : BitVec 32) = FKind.add.neutral .f32 hφ) (g : Fin 16) :
    multiReduction (F := Ideal) .add [1] S16 e 0x00000000#32 reduces_S16x4_S16 hφ hacc (ix1 g)
      = ∑ j : Fin 4, e (ix2 g j) := by
  refine (Ideal.multiReduction_add_single e 0x00000000#32 reduces_S16x4_S16 hφ hacc (ix1 g)).trans ?_
  show ∑ j : Fin 4, e (reduces_S16x4_S16.lift (ix1 g) j) = _
  exact Finset.sum_congr rfl fun j _ => congrArg e (lift_ix g j)

/-- A per-row vector made a column and spread along the row reads the row's entry. -/
theorem colSpread_apply (v : FVec Ideal S16 .f32) (g : Fin 16) (j : Fin 4) :
    broadcastTo S16x4 (shapeCast S16x1 v shapeCasts_S16_S16x1) broadcasts_S16x1_S16x4 (ix2 g j) = v (ix1 g) := by
  refine (broadcastTo_apply _ _ (ix2 g j) (ix2 g (0 : Fin 1)) ?_).trans ?_
  · intro a
    match a with
    | ⟨0, _⟩ => rfl
    | ⟨1, _⟩ => rfl
  refine shapeCast_apply _ _ (ix2 g (0 : Fin 1)) (ix1 g) ?_
  rw [Shape.rowMajor_val_one, Shape.rowMajor_val_two]
  show g.val = g.val * 1 + 0
  omega

/-- The row maxima of the logits, as the payload takes them: from minus infinity, then once more against minus infinity. -/
def rowMaxV (l : FVec Ideal S16x4 .f32) : FVec Ideal S16 .f32 :=
  maximumf (broadcast S16 (Scalar.ofBits .f32 0xFF800000#32))
    (multiReduction .maximumf [1] S16 l 0xFF800000#32 reduces_S16x4_S16 (.inl rfl) rfl)

theorem rowMaxV_apply (l : FVec Ideal S16x4 .f32) (g : Fin 16) :
    rowMaxV l (ix1 g) = Finset.univ.sup fun j : Fin 4 => l (ix2 g j) := by
  unfold rowMaxV
  show max (Ideal.ofBits .f32 0xFF800000#32)
    (multiReduction (F := Ideal) .maximumf [1] S16 l 0xFF800000#32 reduces_S16x4_S16 (.inl rfl) rfl (ix1 g)) = _
  refine (congrArg (max (Ideal.ofBits .f32 0xFF800000#32)) (rowMax_apply l _ _ g)).trans ?_
  rw [ofBits_negInf]
  exact max_eq_right bot_le

/-- The exponentials of the logits less their row's maximum. -/
def expV (l : FVec Ideal S16x4 .f32) : FVec Ideal S16x4 .f32 :=
  exp (subf l (broadcastTo S16x4 (shapeCast S16x1 (rowMaxV l) shapeCasts_S16_S16x1) broadcasts_S16x1_S16x4))

theorem expV_apply (l : FVec Ideal S16x4 .f32) (g : Fin 16) (j : Fin 4) :
    expV l (ix2 g j) = Ideal.exp (l (ix2 g j) - Finset.univ.sup fun j : Fin 4 => l (ix2 g j)) := by
  unfold expV
  show Ideal.exp (l (ix2 g j)
    - broadcastTo S16x4 (shapeCast S16x1 (rowMaxV l) shapeCasts_S16_S16x1) broadcasts_S16x1_S16x4 (ix2 g j)) = _
  rw [colSpread_apply, rowMaxV_apply]

/-- The softmax part of the payload, as a function of the logits. -/
def softmaxV (l : FVec Ideal S16x4 .f32) : FVec Ideal S16x4 .f32 :=
  divf (expV l) (broadcastTo S16x4 (shapeCast S16x1
    (multiReduction .add [1] S16 (expV l) 0x00000000#32 reduces_S16x4_S16 (.inl rfl) rfl) shapeCasts_S16_S16x1) broadcasts_S16x1_S16x4)

/-- The softmax part at an entry is the softmax of the logits' row. -/
theorem softmaxV_apply (l : FVec Ideal S16x4 .f32) (g : Fin 16) (j : Fin 4) :
    softmaxV l (ix2 g j) = Spec.softmaxAt (fun g j => l (ix2 g j)) g j := by
  unfold softmaxV Spec.softmaxAt
  show Ideal.div (expV l (ix2 g j)) (broadcastTo S16x4 (shapeCast S16x1
    (multiReduction (F := Ideal) .add [1] S16 (expV l) 0x00000000#32 reduces_S16x4_S16 (.inl rfl) rfl) shapeCasts_S16_S16x1) broadcasts_S16x1_S16x4 (ix2 g j)) = _
  refine (congrArg (Ideal.div (expV l (ix2 g j)))
    ((colSpread_apply _ g j).trans (rowSum_apply (expV l) _ _ g))).trans ?_
  rw [expV_apply]
  refine congrArg (Ideal.div _) (Finset.sum_congr rfl fun j' _ => ?_)
  exact expV_apply l g j'

/-! ## The logits -/

/-- The operand indices of the product with the weights, axis by axis: the left operand's row is the result's row, its
    column the contraction index; the right operand's row is the contraction index, its column the result's column. -/
theorem lhsW_0 (i : S16x4.Idx) (q : dot_S16x64_S64x4_S16x4_1_0_0_1_n_n.contr.Idx) :
    (dot_S16x64_S64x4_S16x4_1_0_0_1_n_n.lhsIdx i q 0).val = (i 0).val := by
  unfold DotDims.lhsIdx
  rw [dif_neg (show ¬(0 : Fin S16x64.rank) ∈ dot_S16x64_S64x4_S16x4_1_0_0_1_n_n.lhsBatch by decide), dif_pos (show (0 : Fin S16x64.rank) ∈ dot_S16x64_S64x4_S16x4_1_0_0_1_n_n.lhsNonContracting by decide)]
  rfl
theorem lhsW_1 (i : S16x4.Idx) (q : dot_S16x64_S64x4_S16x4_1_0_0_1_n_n.contr.Idx) :
    (dot_S16x64_S64x4_S16x4_1_0_0_1_n_n.lhsIdx i q 1).val = (q ⟨0, by decide⟩).val :=
  dot_S16x64_S64x4_S16x4_1_0_0_1_n_n.lhsIdx_val_of_single rfl i q
theorem rhsW_0 (i : S16x4.Idx) (q : dot_S16x64_S64x4_S16x4_1_0_0_1_n_n.contr.Idx) :
    (dot_S16x64_S64x4_S16x4_1_0_0_1_n_n.rhsIdx i q 0).val = (q ⟨0, by decide⟩).val :=
  dot_S16x64_S64x4_S16x4_1_0_0_1_n_n.rhsIdx_val_of_single rfl i q
theorem rhsW_1 (i : S16x4.Idx) (q : dot_S16x64_S64x4_S16x4_1_0_0_1_n_n.contr.Idx) :
    (dot_S16x64_S64x4_S16x4_1_0_0_1_n_n.rhsIdx i q 1).val = (i 1).val := by
  unfold DotDims.rhsIdx
  rw [dif_neg (show ¬(1 : Fin S64x4.rank) ∈ dot_S16x64_S64x4_S16x4_1_0_0_1_n_n.rhsBatch by decide), dif_pos (show (1 : Fin S64x4.rank) ∈ dot_S16x64_S64x4_S16x4_1_0_0_1_n_n.rhsNonContracting by decide)]
  rfl

/-- The product with the weights into a zero accumulator, at an entry: a plain sum over the 64 features. -/
theorem matmulW_apply (A : FVec Ideal S16x64 .f32) (B : FVec Ideal S64x4 .f32) (g : Fin 16) (j : Fin 4) :
    matmul dot_S16x64_S64x4_S16x4_1_0_0_1_n_n (some .fp32) A B (constant (F := Ideal) S16x4 .f32 0x00000000#32) (ix2 g j)
      = ∑ k : Fin 64, A (ix2 g k) * B (ix2 k j) := by
  simp only [matmul]
  rw [Ideal.matmul_constant_zero_apply, ← Equiv.sum_comp (contrEquiv1 dot_S16x64_S64x4_S16x4_1_0_0_1_n_n 64 rfl rfl).symm]
  refine Finset.sum_congr rfl fun k _ => ?_
  have hk := contrEquiv1_symm_val dot_S16x64_S64x4_S16x4_1_0_0_1_n_n 64 rfl rfl k
  have el : dot_S16x64_S64x4_S16x4_1_0_0_1_n_n.lhsIdx (ix2 g j) ((contrEquiv1 dot_S16x64_S64x4_S16x4_1_0_0_1_n_n 64 rfl rfl).symm k) = ix2 g k := funext fun a => Fin.ext (by
    match a with
    | ⟨0, _⟩ => exact lhsW_0 _ _
    | ⟨1, _⟩ => exact (lhsW_1 _ _).trans hk)
  have er : dot_S16x64_S64x4_S16x4_1_0_0_1_n_n.rhsIdx (ix2 g j) ((contrEquiv1 dot_S16x64_S64x4_S16x4_1_0_0_1_n_n 64 rfl rfl).symm k) = ix2 k j := funext fun a => Fin.ext (by
    match a with
    | ⟨0, _⟩ => exact (rhsW_0 _ _).trans hk
    | ⟨1, _⟩ => exact rhsW_1 _ _)
  rw [el, er]

/-- A column spread along the 64 features reads the column's entry … -/
theorem colSpread64_apply (v : FVec Ideal S16x1 .f32) (g : Fin 16) (k : Fin 64) :
    broadcastTo S16x64 v broadcasts_S16x1_S16x64 (ix2 g k) = v (ix2 g (0 : Fin 1)) := by
  refine broadcastTo_apply _ _ (ix2 g k) (ix2 g (0 : Fin 1)) ?_
  intro a
  match a with
  | ⟨0, _⟩ => rfl
  | ⟨1, _⟩ => rfl

/-- … and along the 4 classes. -/
theorem colSpread4_apply (v : FVec Ideal S16x1 .f32) (g : Fin 16) (j : Fin 4) :
    broadcastTo S16x4 v broadcasts_S16x1_S16x4 (ix2 g j) = v (ix2 g (0 : Fin 1)) := by
  refine broadcastTo_apply _ _ (ix2 g j) (ix2 g (0 : Fin 1)) ?_
  intro a
  match a with
  | ⟨0, _⟩ => rfl
  | ⟨1, _⟩ => rfl

/-- The logits part of the payload, as a function of the counts, the sums, the weights and the bias row. -/
def logitsV (cnt : FVec Ideal S16x1 .f32) (sums : FVec Ideal S16x64 .f32) (W : FVec Ideal S64x4 .f32) (b : FVec Ideal S1x4 .f32) :
    FVec Ideal S16x4 .f32 :=
  addf
    (matmul dot_S16x64_S64x4_S16x4_1_0_0_1_n_n (some .fp32)
      (divf sums (broadcastTo S16x64 (maximumf cnt (broadcast S16x1 (Scalar.ofBits .f32 0x3F800000#32))) broadcasts_S16x1_S16x64))
      W (constant S16x4 .f32 0x00000000#32))
    (mulf (broadcastTo S16x4 (shapeCast S1x4 b shapeCasts_S1x4_S1x4) broadcasts_S1x4_S16x4)
      (broadcastTo S16x4 (sitofp .f32 (extui 32 (cmpf (F := Ideal) .ogt cnt (broadcast S16x1 (Scalar.ofBits .f32 0x00000000#32))) natLt_1_32))
        broadcasts_S16x1_S16x4))

/-- The logits at an entry: the mean features of the graph times the weights, plus the bias where the count is positive. -/
theorem logitsV_apply (cnt : FVec Ideal S16x1 .f32) (sums : FVec Ideal S16x64 .f32) (W : FVec Ideal S64x4 .f32) (b : FVec Ideal S1x4 .f32)
    (g : Fin 16) (j : Fin 4) :
    logitsV cnt sums W b (ix2 g j)
      = (∑ k : Fin 64, Ideal.div (sums (ix2 g k)) (max (cnt (ix2 g (0 : Fin 1))) 1) * W (ix2 k j))
        + b (ix2 (0 : Fin 1) j) * (if 0 < cnt (ix2 g (0 : Fin 1)) then 1 else 0) := by
  unfold logitsV
  show matmul dot_S16x64_S64x4_S16x4_1_0_0_1_n_n (some .fp32)
      (divf sums (broadcastTo S16x64 (maximumf cnt (broadcast S16x1 (Ideal.ofBits .f32 0x3F800000#32))) broadcasts_S16x1_S16x64))
      W (constant (F := Ideal) S16x4 .f32 0x00000000#32) (ix2 g j)
    + broadcastTo S16x4 (shapeCast S1x4 b shapeCasts_S1x4_S1x4) broadcasts_S1x4_S16x4 (ix2 g j)
      * broadcastTo S16x4 (sitofp (F := Ideal) .f32 (extui 32 (cmpf (F := Ideal) .ogt cnt (broadcast S16x1 (Ideal.ofBits .f32 0x00000000#32))) natLt_1_32))
        broadcasts_S16x1_S16x4 (ix2 g j) = _
  rw [matmulW_apply, colSpread4_apply, shapeCast_self, broadcastTo_1b_ab_apply]
  have e1 : ∀ k : Fin 64, divf sums (broadcastTo S16x64 (maximumf cnt (broadcast S16x1 (Ideal.ofBits .f32 0x3F800000#32))) broadcasts_S16x1_S16x64) (ix2 g k)
      = Ideal.div (sums (ix2 g k)) (max (cnt (ix2 g (0 : Fin 1))) 1) := fun k => by
    rw [divf_apply, colSpread64_apply, maximumf_apply, broadcast_apply, ofBits_one]
  have e2 : sitofp (F := Ideal) .f32 (extui 32 (cmpf (F := Ideal) .ogt cnt (broadcast S16x1 (Ideal.ofBits .f32 0x00000000#32))) natLt_1_32) (ix2 g (0 : Fin 1))
      = if 0 < cnt (ix2 g (0 : Fin 1)) then 1 else 0 := by
    show (((((BitVec.ofBool (decide (Ideal.ofBits .f32 0x00000000#32 < cnt (ix2 g (0 : Fin 1))))).setWidth 32).toInt : ℤ) : ℝ) : EReal) = _
    rw [toInt_ofBool, Ideal.ofBits_zero_f32]
    by_cases h : 0 < cnt (ix2 g (0 : Fin 1))
    · rw [if_pos h, if_pos (decide_eq_true h), Int.cast_one, EReal.coe_one]
    · rw [if_neg h, if_neg (fun hd => h (of_decide_eq_true hd)), Int.cast_zero, EReal.coe_zero]
  rw [e2]
  exact congrArg (· + _) (Finset.sum_congr rfl fun k _ => by rw [e1 k])

/-- The last point's payload is the softmax part of the logits part. -/
theorem pay7_eq (cnt : FVec Ideal S16x1 .f32) (sums : FVec Ideal S16x64 .f32) (W : FVec Ideal S64x4 .f32) (b : FVec Ideal S1x4 .f32) :
    k1_pay7 (F := Ideal) cnt sums W b = softmaxV (logitsV cnt sums W b) := rfl

/-- The last point's payload at an entry: the softmax of the logits' row. -/
theorem pay7_apply (cnt : FVec Ideal S16x1 .f32) (sums : FVec Ideal S16x64 .f32) (W : FVec Ideal S64x4 .f32) (b : FVec Ideal S1x4 .f32)
    (g : Fin 16) (j : Fin 4) :
    k1_pay7 (F := Ideal) cnt sums W b (ix2 g j) = Spec.softmaxAt (fun g j => logitsV cnt sums W b (ix2 g j)) g j := by
  rw [pay7_eq, softmaxV_apply]

variable (V : (c : Dev nD) → (b : Ref sig .tc) → Buf (Elt Ideal) ((c : Thread nD τ).loc b))

/-! ## The weights and the bias row: one block each, the whole array -/

/-- The block index of the weights', the bias row's and the result's window is `(0, 0)` at every point. -/
theorem idx_facts2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem idx_facts3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

theorem idx_facts4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- The weights' and the bias row's block at point `t`, and the two arrays. -/
abbrev wBlk (c : Dev nD) (t : Fin cfg1.N) : FVec Ideal S64x4 .f32 := Pool.iblk V c 2 t
abbrev bBlk (c : Dev nD) (t : Fin cfg1.N) : FVec Ideal S1x4 .f32 := Pool.iblk V c 3 t
abbrev wArr (c : Dev nD) : FVec Ideal S64x4 .f32 := V c main_arg6
abbrev bArr (c : Dev nD) : FVec Ideal S1x4 .f32 := V c main_v43

/-- The weights' one block is the whole array … -/
theorem wBlk_eq (c : Dev nD) (t : Fin cfg1.N) : wBlk V c t = wArr V c := by
  obtain ⟨h0, h1⟩ := idx_facts2 t
  funext y
  show Pool.iblk V c 2 t y = _
  unfold Pool.iblk
  rw [View.read_apply]
  show V c main_arg6 _ = V c main_arg6 y
  congr 1
  funext a
  apply Fin.ext
  match a with
  | ⟨0, _⟩ => show win1_2.index t 0 * 64 + 1 * (y 0).val = (y 0).val; rw [h0]; omega
  | ⟨1, _⟩ => show win1_2.index t 1 * 4 + 1 * (y 1).val = (y 1).val; rw [h1]; omega

/-- … and so is the bias row's. -/
theorem bBlk_eq (c : Dev nD) (t : Fin cfg1.N) : bBlk V c t = bArr V c := by
  obtain ⟨h0, h1⟩ := idx_facts3 t
  funext y
  show Pool.iblk V c 3 t y = _
  unfold Pool.iblk
  rw [View.read_apply]
  show V c main_v43 _ = V c main_v43 y
  congr 1
  funext a
  apply Fin.ext
  match a with
  | ⟨0, _⟩ => show win1_3.index t 0 * 1 + 1 * (y 0).val = (y 0).val; rw [h0]; omega
  | ⟨1, _⟩ => show win1_3.index t 1 * 4 + 1 * (y 1).val = (y 1).val; rw [h1]; omega

/-! ## The result block, and the result array -/

/-- The pooled softmax of the region's four operands, as contents of the result array. -/
abbrev pooledArr (c : Dev nD) : FVec Ideal S16x4 .f32 :=
  Spec.pooled (featArr V c) (colArr V c) (wArr V c) (bArr V c)

/-- What the last point stores is, entry by entry, the pooled softmax. -/
theorem resBlk_apply (c : Dev nD) (g : Fin 16) (j : Fin 4) :
    Pool.resBlk V c (ix2 g j) = pooledArr V c (ix2 g j) := by
  show k1_pay7 (F := Ideal) (Pool.acc V c 19 Pool.tLast.isLt).2 (Pool.acc V c 19 Pool.tLast.isLt).1
      (wBlk V c Pool.tLast) (bBlk V c Pool.tLast) (ix2 g j)
    = Spec.softmaxAt (Spec.poolLogits (featArr V c) (colArr V c) (wArr V c) (bArr V c)) g j
  refine (pay7_apply (Pool.acc V c 19 Pool.tLast.isLt).2 (Pool.acc V c 19 Pool.tLast.isLt).1
    (wBlk V c Pool.tLast) (bBlk V c Pool.tLast) g j).trans ?_
  refine congrArg (fun l => Spec.softmaxAt l g j) (funext fun g' => funext fun j' => ?_)
  have hs : ∀ k : Fin 64, (Pool.acc V c 19 Pool.tLast.isLt).1 (ix2 g' k) = Spec.poolSum (featArr V c) (colArr V c) g' k :=
    fun k => acc_last_sum V c Pool.tLast.isLt g' k
  have hc : (Pool.acc V c 19 Pool.tLast.isLt).2 (ix2 g' (0 : Fin 1)) = Spec.poolCnt (colArr V c) g' :=
    acc_last_cnt V c Pool.tLast.isLt g'
  rw [logitsV_apply, wBlk_eq, bBlk_eq, hc]
  simp only [hs]
  rfl

/-- … so it is the pooled softmax. -/
theorem resBlk_eq (c : Dev nD) : (Pool.resBlk V c : FVec Ideal S16x4 .f32) = pooledArr V c := by
  funext y
  obtain ⟨g, j, rfl⟩ : ∃ (g : Fin 16) (j : Fin 4), y = ix2 g j := ⟨y 0, y 1, eq_ix2 y⟩
  exact resBlk_apply V c g j

/-- Only the last point writes the result back, and its block is the whole array: the array ends at what the
    last point left in the output's buffer. -/
theorem arr_of_last (c : Dev nD) (G : FVec Ideal S16x4 .f32)
    (hG : (Pool.dat (F := Ideal) V c).after 4 Pool.tLast = G) :
    (Pool.dat (F := Ideal) V c).arrAt 4 cfg1.N = G := by
  obtain ⟨h0, h1⟩ := idx_facts4 Pool.tLast
  have hlast : ∀ t : Fin cfg1.N, (cfg1.win 4).flush t = true → t = Pool.tLast := fun t hf => Fin.ext (by
    have h := (flush1_4 t).mp hf
    have ht : t.val < 20 := Pool.N_eq ▸ t.isLt
    show t.val = 19
    omega)
  refine (Pool.dat (F := Ideal) V c).arrAt_eq_of_cover 4 G (fun t hf => ?_)
    (fun i => ⟨Pool.tLast, (flush1_4 Pool.tLast).mpr rfl, ?_⟩)
  · obtain rfl := hlast t hf
    show (cfg1.win 4).cut (grid1.coords Pool.tLast) ((Pool.dat (F := Ideal) V c).after 4 Pool.tLast) = _
    rw [hG]
    funext y
    rw [View.read_apply]
    show G _ = G _
    congr 1
    funext a
    apply Fin.ext
    match a with
    | ⟨0, _⟩ => show (y 0).val = win1_4.index Pool.tLast 0 * 16 + 1 * (y 0).val; rw [h0]; omega
    | ⟨1, _⟩ => show (y 1).val = win1_4.index Pool.tLast 1 * 4 + 1 * (y 1).val; rw [h1]; omega
  · show i ∈ ((View.whole main_v44).slice (win1_4.rect Pool.tLast)).set
    rw [View.set_slice_whole, Rect.mem_set_unit]
    intro a
    have hi0 : (i 0 : Nat) < 16 := (i 0).isLt
    have hi1 : (i 1 : Nat) < 4 := (i 1).isLt
    match a with
    | ⟨0, _⟩ =>
      show win1_4.index Pool.tLast 0 * 16 ≤ (i 0 : Nat) ∧ (i 0 : Nat) < win1_4.index Pool.tLast 0 * 16 + 16
      rw [h0]; omega
    | ⟨1, _⟩ =>
      show win1_4.index Pool.tLast 1 * 4 ≤ (i 1 : Nat) ∧ (i 1 : Nat) < win1_4.index Pool.tLast 1 * 4 + 4
      rw [h1]; omega

/-- What the region leaves in its result array: the pooled softmax of its four operands. -/
theorem final (V : (c : Dev nD) → (b : Ref sig .tc) → Buf (Elt Ideal) ((c : Thread nD τ).loc b)) (c : Dev nD) :
    ((Cert.KernelIdeal.Pool.dat (F := Ideal) V c).arrAt 4 cfg1.N : Cert.Spec.SOut.Idx → EReal)
      = Cert.Spec.pooled (V c main_v38) (V c main_v42) (V c main_arg6) (V c main_v43) :=
  arr_of_last V c (pooledArr V c) ((Pool.after_4_last V c).trans (resBlk_eq V c))

end Cert.KernelIdeal.PoolValue

end
-- ==== Proof.KHost.lean ====
/-
  The kernel program's host operations against the reference's: what each region's operand arrays hold, as the
  reference's own stages of the same arguments.

  Before the first region the kernel's program computes the two degree norms, scales the features, gathers and
  scatter-adds them exactly as the reference does (the first aggregation), stacks the two norm vectors as the two
  columns of one array and reshapes the bias to a row. Between the regions it gathers and scatter-adds the first
  region's result exactly as the reference does its rectified first layer (the second aggregation), stacks the
  destination norm with the graph ids converted to numbers, and reshapes the second bias to a row.
-/
import proofs.«402030_j79542794322477_3_alg».proof.Proof.Gen.KernelIdeal.Regions
import proofs.«402030_j79542794322477_3_alg».proof.Proof.Gen.ReferenceIdeal.Read
import proofs.«402030_j79542794322477_3_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.KHost

open Cert.KernelIdeal Cert.KernelIdeal.Gen
open Idealize.ShloMosaic Idealize.ShloMosaic.TcCoe Idealize.ShloMosaic.ValueIdx Idealize.SL.Sem
open Cert.ReferenceIdeal.Read (val_main_v9 val_main_v10 val_main_v23 val_main_v34 val_main_v44)

variable (m : (ℓ : Loc nD τ sig) → Buf (Elt Ideal) ℓ) (outs : Outs (F := Ideal)) (c : Dev nD)

/-! ## The arguments, which no host operation writes -/

theorem v4_arg0 : V4 m c main_arg0 = (m ((c.tc : Thread nD τ).loc main_arg0)) := (V4_of m c main_arg0 (by decide)).trans <| (V3_of m c main_arg0 (by decide)).trans <| (V2_of m c main_arg0 (by decide)).trans <| (V1_of m c main_arg0 (by decide)).trans rfl
theorem v4_arg1 : V4 m c main_arg1 = (m ((c.tc : Thread nD τ).loc main_arg1)) := (V4_of m c main_arg1 (by decide)).trans <| (V3_of m c main_arg1 (by decide)).trans <| (V2_of m c main_arg1 (by decide)).trans <| (V1_of m c main_arg1 (by decide)).trans rfl
theorem v4_arg2 : V4 m c main_arg2 = (m ((c.tc : Thread nD τ).loc main_arg2)) := (V4_of m c main_arg2 (by decide)).trans <| (V3_of m c main_arg2 (by decide)).trans <| (V2_of m c main_arg2 (by decide)).trans <| (V1_of m c main_arg2 (by decide)).trans rfl
theorem v4_arg5 : V4 m c main_arg5 = (m ((c.tc : Thread nD τ).loc main_arg5)) := (V4_of m c main_arg5 (by decide)).trans <| (V3_of m c main_arg5 (by decide)).trans <| (V2_of m c main_arg5 (by decide)).trans <| (V1_of m c main_arg5 (by decide)).trans rfl
theorem v2_arg2 : V2 m c main_arg2 = (m ((c.tc : Thread nD τ).loc main_arg2)) := (V2_of m c main_arg2 (by decide)).trans <| (V1_of m c main_arg2 (by decide)).trans rfl

/-! ## The degrees and the norms, stretch by stretch -/

/-- After the first stretch: the vector of ones the degrees are counted with, -/
theorem v1_ones : V1 m c main_v0 = Cert.ReferenceIdeal.Read.val_main_v0 (F := Ideal) := by
  show StableHlo.after hostOps0 (V0 m c) main_v0 = _
  generalize V0 m c = W
  after_results
  rfl
/-- the out-degrees (ones scatter-added at the source indices), -/
theorem v1_outDeg : V1 m c main_v3 = Cert.ReferenceIdeal.Read.val_main_v3 (F := Ideal) (m ((c.tc : Thread nD τ).loc main_arg1)) := by
  have h1 : V0 m c main_arg1 = (m ((c.tc : Thread nD τ).loc main_arg1)) := rfl
  show StableHlo.after hostOps0 (V0 m c) main_v3 = _
  generalize V0 m c = W at h1 ⊢
  after_results
  rw [h1]
  rfl
/-- and the constant one the out-degrees are clipped below at. -/
theorem v1_one : V1 m c main_cst_1 = Cert.ReferenceIdeal.Read.val_main_cst_1 (F := Ideal) := by
  show StableHlo.after hostOps0 (V0 m c) main_cst_1 = _
  generalize V0 m c = W
  after_results
  rfl

/-- After the second stretch: the out-degrees clipped below at one. -/
theorem v2_outDegClipped : V2 m c main_v4 = Cert.ReferenceIdeal.Read.val_main_v4 (F := Ideal) (m ((c.tc : Thread nD τ).loc main_arg1)) := by
  have h3 := v1_outDeg m c
  have hc := v1_one m c
  show StableHlo.after hostOps0_1 (V1 m c) main_v4 = _
  generalize V1 m c = W at h3 hc ⊢
  after_results
  simp only [StableHlo.TRef.ofBuf, StableHlo.TRef.toBuf, cast_eq]
  rw [h3, hc]
  rfl

/-- After the third stretch: the in-degrees (ones scatter-added at the destination indices), -/
theorem v3_inDeg : V3 m c main_v7 = Cert.ReferenceIdeal.Read.val_main_v7 (F := Ideal) (m ((c.tc : Thread nD τ).loc main_arg2)) := by
  have h2 := v2_arg2 m c
  have h0 : V2 m c main_v0 = Cert.ReferenceIdeal.Read.val_main_v0 (F := Ideal) := (V2_of m c main_v0 (by decide)).trans (v1_ones m c)
  show StableHlo.after hostOps0_2 (V2 m c) main_v7 = _
  generalize V2 m c = W at h2 h0 ⊢
  after_results
  rw [h2, h0]
  rfl
/-- and the constant one they are clipped below at. -/
theorem v3_one : V3 m c main_cst_3 = Cert.ReferenceIdeal.Read.val_main_cst_3 (F := Ideal) := by
  show StableHlo.after hostOps0_2 (V2 m c) main_cst_3 = _
  generalize V2 m c = W
  after_results
  rfl

/-- After the fourth stretch: the in-degrees clipped below at one; the clipped out-degrees are still there. -/
theorem v4_inDegClipped : V4 m c main_v8 = Cert.ReferenceIdeal.Read.val_main_v8 (F := Ideal) (m ((c.tc : Thread nD τ).loc main_arg2)) := by
  have h7 := v3_inDeg m c
  have hc := v3_one m c
  show StableHlo.after hostOps0_3 (V3 m c) main_v8 = _
  generalize V3 m c = W at h7 hc ⊢
  after_results
  simp only [StableHlo.TRef.ofBuf, StableHlo.TRef.toBuf, cast_eq]
  rw [h7, hc]
  rfl
theorem v4_outDegClipped : V4 m c main_v4 = Cert.ReferenceIdeal.Read.val_main_v4 (F := Ideal) (m ((c.tc : Thread nD τ).loc main_arg1)) :=
  (V4_of m c main_v4 (by decide)).trans <| (V3_of m c main_v4 (by decide)).trans (v2_outDegClipped m c)

/-- At the first region's entry the source norm is the reference's: the reciprocal square root of the clipped out-degree, -/
theorem v5_normSrc : (V5 m c main_v9 : (⟨1, ![100000]⟩ : Shape).Idx → EReal) = val_main_v9 (F := Ideal) (m ((c.tc : Thread nD τ).loc main_arg1)) := by
  have h4 := v4_outDegClipped m c
  show StableHlo.after hostOps0_4 (V4 m c) main_v9 = _
  generalize V4 m c = W at h4 ⊢
  after_results
  rw [h4]
  rfl
/-- and the destination norm the reference's: the reciprocal square root of the clipped in-degree. -/
theorem v5_normDst : (V5 m c main_v10 : (⟨1, ![100000]⟩ : Shape).Idx → EReal) = val_main_v10 (F := Ideal) (m ((c.tc : Thread nD τ).loc main_arg2)) := by
  have h8 := v4_inDegClipped m c
  show StableHlo.after hostOps0_4 (V4 m c) main_v10 = _
  generalize V4 m c = W at h8 ⊢
  after_results
  rw [h8]
  rfl

/-! ## Layout operations at an index -/

/-- A vector made a column reads, at `(n, 0)`, the vector at `n`. -/
theorem column_of_vector_at {α : Type} (v : S100000.Idx → α) (h : S100000.BroadcastsInDim S100000x1 (![0] : Fin 1 → Fin S100000x1.rank))
    (n : Fin 100000) : broadcastInDim S100000x1 ![0] h v (ix2 n (0 : Fin 1)) = v (ix1 n) :=
  broadcastInDim_apply _ h v (ix2 n (0 : Fin 1)) (ix1 n) (fun a => by match a with | ⟨0, _⟩ => rfl)

/-- Two columns stacked side by side read, in column 0, the first column, -/
theorem stacked_col0 {α : Type} (x₁ x₂ : S100000x1.Idx → α) (h : Shape.Concatenates [S100000x1, S100000x1] S100000x2 1) (n : Fin 100000) :
    concatenate S100000x2 1 [⟨S100000x1, x₁⟩, ⟨S100000x1, x₂⟩] h (ix2 n (0 : Fin 2)) = x₁ (ix2 n (0 : Fin 1)) :=
  concatenate_pair_apply_left 1 x₁ x₂ h (ix2 n (0 : Fin 2)) rfl (ix2 n (0 : Fin 1))
    (fun b => by match b with | ⟨0, _⟩ => rfl | ⟨1, _⟩ => rfl)
/-- and in column 1 the second. -/
theorem stacked_col1 {α : Type} (x₁ x₂ : S100000x1.Idx → α) (h : Shape.Concatenates [S100000x1, S100000x1] S100000x2 1) (n : Fin 100000) :
    concatenate S100000x2 1 [⟨S100000x1, x₁⟩, ⟨S100000x1, x₂⟩] h (ix2 n (1 : Fin 2)) = x₂ (ix2 n (0 : Fin 1)) :=
  concatenate_pair_apply_right 1 x₁ x₂ h (ix2 n (1 : Fin 2)) rfl rfl (ix2 n (0 : Fin 1))
    (fun b hb => by match b with | ⟨0, _⟩ => rfl | ⟨1, _⟩ => exact absurd rfl hb) rfl

/-! ## At the first region's entry -/

/-- The stacked norms are the two norm vectors, each made a column, side by side. -/
theorem v5_stacked : V5 m c main_v13
    = concatenate S100000x2 1 [⟨S100000x1, broadcastInDim S100000x1 ![0] bcast_S100000_S100000x1_0 (val_main_v9 (F := Ideal) (m ((c.tc : Thread nD τ).loc main_arg1)))⟩,
        ⟨S100000x1, broadcastInDim S100000x1 ![0] bcast_S100000_S100000x1_0 (val_main_v10 (F := Ideal) (m ((c.tc : Thread nD τ).loc main_arg2)))⟩]
        concatenates_S100000x1_S100000x1_S100000x2_d1 := by
  have h4 := v4_outDegClipped m c
  have h8 := v4_inDegClipped m c
  show StableHlo.after hostOps0_4 (V4 m c) main_v13 = _
  generalize V4 m c = W at h4 h8 ⊢
  after_results
  rw [h4, h8]
  rfl

/-- The bias row is the bias vector given a leading unit axis. -/
theorem v5_biasRow : V5 m c main_v27 = shapeCast S1x64 (m ((c.tc : Thread nD τ).loc main_arg5)) shapeCasts_S64_S1x64 := by
  have h5 := v4_arg5 m c
  show StableHlo.after hostOps0_4 (V4 m c) main_v27 = _
  generalize V4 m c = W at h5 ⊢
  after_results
  rw [h5]
  rfl

/-- The first region's feature operand is the reference's first aggregation. -/
theorem v5_agg1 : (V5 m c main_v26 : Cert.Spec.SN64.Idx → EReal) = val_main_v23 (F := Ideal) (m ((c.tc : Thread nD τ).loc main_arg0)) (m ((c.tc : Thread nD τ).loc main_arg1)) (m ((c.tc : Thread nD τ).loc main_arg2)) := by
  have h0 := v4_arg0 m c
  have h1 := v4_arg1 m c
  have h2 := v4_arg2 m c
  have h4 := v4_outDegClipped m c
  show StableHlo.after hostOps0_4 (V4 m c) main_v26 = _
  generalize V4 m c = W at h0 h1 h2 h4 ⊢
  after_results_simp
  rw [h0, h1, h2, h4]
  rfl

/-- Column 0 of the stacked norms is the reference's source norm, column 1 its destination norm. -/
theorem v5_norms0 (n : Fin 100000) : (V5 m c main_v13 : Cert.Spec.SN2.Idx → EReal) (ix2 n (0 : Fin 2)) = val_main_v9 (F := Ideal) (m ((c.tc : Thread nD τ).loc main_arg1)) (ix1 n) :=
  (congrFun (v5_stacked m c) (ix2 n (0 : Fin 2))).trans <| (stacked_col0 _ _ _ n).trans (column_of_vector_at _ _ n)
theorem v5_norms1 (n : Fin 100000) : (V5 m c main_v13 : Cert.Spec.SN2.Idx → EReal) (ix2 n (1 : Fin 2)) = val_main_v10 (F := Ideal) (m ((c.tc : Thread nD τ).loc main_arg2)) (ix1 n) :=
  (congrFun (v5_stacked m c) (ix2 n (1 : Fin 2))).trans <| (stacked_col1 _ _ _ n).trans (column_of_vector_at _ _ n)

/-- The bias row is the bias. -/
theorem v5_b1row (j : Fin 64) : (V5 m c main_v27 : Cert.Spec.SB1.Idx → EReal) (ix2 (0 : Fin 1) j) = (m ((c.tc : Thread nD τ).loc main_arg5)) (ix1 j) :=
  (congrFun (v5_biasRow m c) (ix2 (0 : Fin 1) j)).trans (shapeCast_a_1a_apply (m ((c.tc : Thread nD τ).loc main_arg5)) shapeCasts_S64_S1x64 0 j)

/-- The weights are an argument, as launched. -/
theorem v5_W1 : (V5 m c main_arg4 : Cert.Spec.SW1.Idx → EReal) = (m ((c.tc : Thread nD τ).loc main_arg4)) :=
  (V5_of m c main_arg4 (by decide)).trans <| (V4_of m c main_arg4 (by decide)).trans <| (V3_of m c main_arg4 (by decide)).trans <|
    (V2_of m c main_arg4 (by decide)).trans <| (V1_of m c main_arg4 (by decide)).trans rfl

end Cert.KernelIdeal.KHost

end
-- ==== Proof.KHost2.lean ====
/-
  The kernel program's host operations against the reference's: what each region's operand arrays hold, as the
  reference's own stages of the same arguments.

  Before the first region the kernel's program computes the two degree norms, scales the features, gathers and
  scatter-adds them exactly as the reference does (the first aggregation), stacks the two norm vectors as the two
  columns of one array and reshapes the bias to a row. Between the regions it gathers and scatter-adds the first
  region's result exactly as the reference does its rectified first layer (the second aggregation), stacks the
  destination norm with the graph ids converted to numbers, and reshapes the second bias to a row.
-/
import proofs.«402030_j79542794322477_3_alg».proof.Proof.Gen.KernelIdeal.Regions
import proofs.«402030_j79542794322477_3_alg».proof.Proof.Gen.ReferenceIdeal.Read
import proofs.«402030_j79542794322477_3_alg».proof.Proof.Spec
import proofs.«402030_j79542794322477_3_alg».proof.Proof.KHost
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KHost2

open Cert.KernelIdeal Cert.KernelIdeal.Gen
open Idealize.ShloMosaic Idealize.ShloMosaic.TcCoe Idealize.ShloMosaic.ValueIdx Idealize.SL.Sem
open Cert.ReferenceIdeal.Read (val_main_v9 val_main_v10 val_main_v23 val_main_v34 val_main_v44)

variable (m : (ℓ : Loc nD τ sig) → Buf (Elt Ideal) ℓ) (outs : Outs (F := Ideal)) (c : Dev nD)

/-! ## The arguments, and the first region's result, between the regions -/

theorem V6_arg1 : V6 m outs c main_arg1 = m ((c.tc : Thread nD τ).loc main_arg1) :=
  (V7_of m outs c main_arg1 (by decide)).symm.trans ((V8_of m outs c main_arg1 (by decide)).symm.trans (V8_main_arg1 m outs c))
theorem V6_arg2 : V6 m outs c main_arg2 = m ((c.tc : Thread nD τ).loc main_arg2) :=
  (V7_of m outs c main_arg2 (by decide)).symm.trans ((V8_of m outs c main_arg2 (by decide)).symm.trans (V8_main_arg2 m outs c))
theorem V6_arg3 : V6 m outs c main_arg3 = m ((c.tc : Thread nD τ).loc main_arg3) :=
  (V7_of m outs c main_arg3 (by decide)).symm.trans ((V8_of m outs c main_arg3 (by decide)).symm.trans (V8_main_arg3 m outs c))
theorem V6_arg7 : V6 m outs c main_arg7 = m ((c.tc : Thread nD τ).loc main_arg7) :=
  (V7_of m outs c main_arg7 (by decide)).symm.trans ((V8_of m outs c main_arg7 (by decide)).symm.trans (V8_main_arg7 m outs c))
/-- What the first region left in its result array. -/
theorem V6_v28 : V6 m outs c main_v28 = outs 6 main_v28 c := by
  simp only [V6, Function.update_self]
/-- The destination norm is not written after the first region's entry. -/
theorem V6_v10 : V6 m outs c main_v10 = V5 m c main_v10 := V6_of m outs c main_v10 (by decide)

/-! ## The second aggregation: the same gather and scatter-add in both programs

The two programs spell the same operations over records of their own; each stage is identified on its own. -/

section Stages
variable (src dst : (⟨S1600000, .i32⟩ : BufTy).Contents (Elt Ideal))

theorem st_c6 : constantI S_ 32 0#32 = Cert.ReferenceIdeal.Read.val_main_c_6 (F := Ideal) := rfl
theorem st_v35 : broadcastInDim S1600000 ![] bcast_S_S1600000 (Cert.ReferenceIdeal.Read.val_main_c_6 (F := Ideal)) = Cert.ReferenceIdeal.Read.val_main_v35 (F := Ideal) := rfl
theorem st_v36 : cmpi .slt src (Cert.ReferenceIdeal.Read.val_main_v35 (F := Ideal)) = Cert.ReferenceIdeal.Read.val_main_v36 (F := Ideal) src := rfl
theorem st_c7 : constantI S_ 32 100000#32 = Cert.ReferenceIdeal.Read.val_main_c_7 (F := Ideal) := rfl
theorem st_v37 : broadcastInDim S1600000 ![] bcast_S_S1600000 (Cert.ReferenceIdeal.Read.val_main_c_7 (F := Ideal)) = Cert.ReferenceIdeal.Read.val_main_v37 (F := Ideal) := rfl
theorem st_v38 : addi src (Cert.ReferenceIdeal.Read.val_main_v37 (F := Ideal)) = Cert.ReferenceIdeal.Read.val_main_v38 (F := Ideal) src := rfl
theorem st_v39 : select (Cert.ReferenceIdeal.Read.val_main_v36 (F := Ideal) src) (Cert.ReferenceIdeal.Read.val_main_v38 (F := Ideal) src) src = Cert.ReferenceIdeal.Read.val_main_v39 (F := Ideal) src := rfl
theorem st_v40 : broadcastInDim S1600000x1 ![0] bcast_S1600000_S1600000x1_0 (Cert.ReferenceIdeal.Read.val_main_v39 (F := Ideal) src) = Cert.ReferenceIdeal.Read.val_main_v40 (F := Ideal) src := rfl
theorem st_cst8 : constant (F := Ideal) S_ .f32 0x00000000#32 = Cert.ReferenceIdeal.Read.val_main_cst_8 (F := Ideal) := rfl
theorem st_v42 : broadcastInDim S100000x64 ![] bcast_S_S100000x64 (Cert.ReferenceIdeal.Read.val_main_cst_8 (F := Ideal)) = Cert.ReferenceIdeal.Read.val_main_v42 (F := Ideal) := rfl
theorem st_v43 : broadcastInDim S1600000x1 ![0] bcast_S1600000_S1600000x1_0 dst = Cert.ReferenceIdeal.Read.val_main_v43 (F := Ideal) dst := rfl
theorem st_gather (X : (⟨S100000x64, .f32⟩ : BufTy).Contents (Elt Ideal)) (W : (⟨S1600000x1, .i32⟩ : BufTy).Contents (Elt Ideal)) :
    Host.gather gather_S100000x64_S1600000x1_S1600000x64_1_0_n_n_0_1_164 X W
      = Host.gather Cert.ReferenceIdeal.gather_S100000x64_S1600000x1_S1600000x64_1_0_n_n_0_1_164 X W := rfl
theorem st_scatter (A : FVec Ideal S100000x64 .f32) (B : IVec S1600000x1 32) (G : FVec Ideal S1600000x64 .f32) :
    Host.scatterAdd (F := Ideal) scatter_S100000x64_S1600000x1_S1600000x64_1_0_0_1 A B G
      = Host.scatterAdd (F := Ideal) Cert.ReferenceIdeal.scatter_S100000x64_S1600000x1_S1600000x64_1_0_0_1 A B G := rfl

/-- Negative source indices wrapped, as a column. -/
theorem wrap_eq :
    broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)
      = Cert.ReferenceIdeal.Read.val_main_v40 (F := Ideal) src := by
  rw [st_c6, st_v35, st_v36, st_c7, st_v37, st_v38, st_v39, st_v40]

/-- The scatter-add, at the destinations, of the rows gathered at the wrapped sources, into zeros, whatever array
    `X` is gathered from. -/
theorem agg_eq (X : (⟨S100000x64, .f32⟩ : BufTy).Contents (Elt Ideal)) :
    Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 dst)
        (Host.gather gather_S100000x64_S1600000x1_S1600000x64_1_0_n_n_0_1_164 X
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
      = Host.scatterAdd Cert.ReferenceIdeal.scatter_S100000x64_S1600000x1_S1600000x64_1_0_0_1 (Cert.ReferenceIdeal.Read.val_main_v42 (F := Ideal))
          (Cert.ReferenceIdeal.Read.val_main_v43 (F := Ideal) dst)
          (Host.gather Cert.ReferenceIdeal.gather_S100000x64_S1600000x1_S1600000x64_1_0_n_n_0_1_164 X (Cert.ReferenceIdeal.Read.val_main_v40 (F := Ideal) src)) := by
  rw [wrap_eq, st_cst8, st_v42, st_v43, st_gather, st_scatter]

end Stages

/-! ## At the second region's entry -/

set_option maxHeartbeats 1000000 in
/-- The second region's feature operand, as the host operations between the regions compute it from the first
    region's result and the edge lists. -/
theorem agg2_arr :
    (V7 m outs c main_v38 : Cert.Spec.SN64.Idx → EReal)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (m ((c.tc : Thread nD τ).loc main_arg2)))
          (Host.gather gather_S100000x64_S1600000x1_S1600000x64_1_0_n_n_0_1_164 (outs 6 main_v28 c)
            (broadcastInDim S1600000x1 ![0] bcast_S1600000_S1600000x1_0
              (select (cmpi .slt (m ((c.tc : Thread nD τ).loc main_arg1)) (broadcastInDim S1600000 ![] bcast_S_S1600000 (constantI S_ 32 0#32)))
                (addi (m ((c.tc : Thread nD τ).loc main_arg1)) (broadcastInDim S1600000 ![] bcast_S_S1600000 (constantI S_ 32 100000#32)))
                (m ((c.tc : Thread nD τ).loc main_arg1))))) := by
  dsimp only [V7, hostOps1]
  after_results
  rw [V6_arg1 m outs c, V6_arg2 m outs c, V6_v28 m outs c]

/-- If the first region left the reference's scaled, rectified first layer in its result array, the second region's
    feature operand is the reference's second aggregation. -/
theorem v7_agg2
    (hX : (outs 6 main_v28 c : Cert.Spec.SN64.Idx → EReal) = val_main_v34 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) :
    (V7 m outs c main_v38 : Cert.Spec.SN64.Idx → EReal) = val_main_v44 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  rw [agg2_arr, hX]
  exact agg_eq _ _ _

/-! ## The stacked columns, and the bias row -/

set_option maxHeartbeats 1000000 in
/-- The second stacked array: the destination norm and the graph ids as numbers, each as a column, side by side. -/
theorem ndgid_arr :
    (V7 m outs c main_v42 : Cert.Spec.SN2.Idx → EReal)
      = concatenate S100000x2 1
          [⟨S100000x1, broadcastInDim S100000x1 ![0] bcast_S100000_S100000x1_0 (V6 m outs c main_v10)⟩,
           ⟨S100000x1, broadcastInDim S100000x1 ![0] bcast_S100000_S100000x1_0
              (sitofp (F := Ideal) .f32 (m ((c.tc : Thread nD τ).loc main_arg3)))⟩]
          concatenates_S100000x1_S100000x1_S100000x2_d1 := by
  dsimp only [V7, hostOps1]
  after_results
  rw [V6_arg3 m outs c]

/-- The destination norm is the reference's, at the first region's entry and, nothing writing it since, between the
    regions. -/
theorem v6_normDst :
    (V6 m outs c main_v10 : (⟨1, ![100000]⟩ : Shape).Idx → EReal) = val_main_v10 (F := Ideal) (m ((c.tc : Thread nD τ).loc main_arg2)) :=
  (V6_v10 m outs c).trans (Cert.KernelIdeal.KHost.v5_normDst m c)

/-- Column 0 of the second stacked array is the reference's destination norm, column 1 the node's graph id as a number. -/
theorem v7_ndgid0 (n : Fin 100000) : (V7 m outs c main_v42 : Cert.Spec.SN2.Idx → EReal) (ix2 n (0 : Fin 2)) = val_main_v10 (F := Ideal) (m ((c.tc : Thread nD τ).loc main_arg2)) (ix1 n) := by
  rw [ndgid_arr]
  exact ((Cert.KernelIdeal.KHost.stacked_col0 _ _ _ n).trans (Cert.KernelIdeal.KHost.column_of_vector_at _ _ n)).trans
    (congrFun (v6_normDst m outs c) (ix1 n))
theorem v7_ndgid1 (n : Fin 100000) : (V7 m outs c main_v42 : Cert.Spec.SN2.Idx → EReal) (ix2 n (1 : Fin 2)) = ((((m ((c.tc : Thread nD τ).loc main_arg3)) (ix1 n)).toInt : ℝ) : EReal) := by
  rw [ndgid_arr]
  refine ((Cert.KernelIdeal.KHost.stacked_col1 _ _ _ n).trans (Cert.KernelIdeal.KHost.column_of_vector_at _ _ n)).trans ?_
  rfl

set_option maxHeartbeats 1000000 in
/-- The second bias row, as the host operations compute it: the second bias recast as one row. -/
theorem b2row_arr :
    (V7 m outs c main_v43 : Cert.Spec.SB2.Idx → EReal)
      = shapeCast S1x4 (m ((c.tc : Thread nD τ).loc main_arg7) : S4.Idx → EReal) shapeCasts_S4_S1x4 := by
  dsimp only [V7, hostOps1]
  after_results
  rw [V6_arg7 m outs c]
  rfl

/-- The second bias row is the second bias. -/
theorem v7_b2row (j : Fin 4) : (V7 m outs c main_v43 : Cert.Spec.SB2.Idx → EReal) (ix2 (0 : Fin 1) j) = (m ((c.tc : Thread nD τ).loc main_arg7)) (ix1 j) := by
  rw [b2row_arr]
  exact shapeCast_a_1a_apply _ shapeCasts_S4_S1x4 (0 : Fin 1) j

/-- The second weights are an argument, as launched. -/
theorem v7_W2 : (V7 m outs c main_arg6 : Cert.Spec.SW2.Idx → EReal) = (m ((c.tc : Thread nD τ).loc main_arg6)) :=
  (V8_of m outs c main_arg6 (by decide)).symm.trans (V8_main_arg6 m outs c)

end Cert.KernelIdeal.KHost2

end
-- ==== Proof.DenseBridge.lean ====
/-
  The dense layer against the reference: the first kernel's whole-array function of the aggregated features, the two norm
  columns, the weights and the bias row IS the reference's stage "relu (agg · norm_dst · W1 + b1) · norm_src".

  Both sides are the same operations in the same order, so nothing is rearranged: the reference's stage is read at an
  entry `(n, j)` one operation at a time (product with the broadcast source norm, maximum with zero, sum with the
  broadcast bias, the contraction over `k`, product with the broadcast destination norm), the broadcasts' and the
  contraction's index functions are identified with the coordinates they pick, and the two expressions coincide.
-/
import proofs.«402030_j79542794322477_3_alg».proof.Proof.Gen.ReferenceIdeal.Read
import proofs.«402030_j79542794322477_3_alg».proof.Proof.Spec
import Idealize.ShloMosaic.Lib.ValueIdx
import Idealize.ShloMosaic.PureOps.Ideal.Laws

noncomputable section

namespace Cert.Bridge

open Cert.ReferenceIdeal Cert.ReferenceIdeal.Read Idealize.ShloMosaic Idealize.ShloMosaic.ValueIdx
open scoped BigOperators

/-! ## The index functions, by coordinates -/

/-- The contraction's left operand at entry `(n, j)`, step `k`, is read at `(n, k)`. -/
theorem lidx_eq (n : Fin 100000) (j k : Fin 64) : lidx_main_v27 (ix2 n j) k = ix2 n k :=
  funext fun a => Fin.ext (by match a with | ⟨0, _⟩ => rfl | ⟨1, _⟩ => rfl)

/-- The contraction's right operand at entry `(n, j)`, step `k`, is read at `(k, j)`. -/
theorem ridx_eq (n : Fin 100000) (j k : Fin 64) : ridx_main_v27 (ix2 n j) k = ix2 k j :=
  funext fun a => Fin.ext (by match a with | ⟨0, _⟩ => rfl | ⟨1, _⟩ => rfl)

/-- The destination norm, made a column and spread along the rows, is read at `(n, k)` from the vector's entry `n`. -/
theorem idx_dst_eq (n : Fin 100000) (k : Fin 64) : idx_main_v24 (idx_main_v25 (ix2 n k)) = ix1 n :=
  funext fun a => Fin.ext (by match a with | ⟨0, _⟩ => rfl)

/-- The source norm, made a column and spread along the rows, is read at `(n, j)` from the vector's entry `n`. -/
theorem idx_src_eq (n : Fin 100000) (j : Fin 64) : idx_main_v32 (idx_main_v33 (ix2 n j)) = ix1 n :=
  funext fun a => Fin.ext (by match a with | ⟨0, _⟩ => rfl)

/-- The bias, made a row and spread down the columns, is read at `(n, j)` from the vector's entry `j`. -/
theorem idx_bias_eq (n : Fin 100000) (j : Fin 64) : idx_main_v28 (idx_main_v29 (ix2 n j)) = ix1 j :=
  funext fun a => Fin.ext (by match a with | ⟨0, _⟩ => rfl)

/-! ## The two sides at an entry -/

/-- The aggregated features scaled by the destination norm, at `(n, k)`: the aggregate there times the norm of node `n`. -/
theorem scaled_at (h : (⟨S100000x64, .f32⟩ : BufTy).Contents (Elt Ideal))
    (src dst : (⟨S1600000, .i32⟩ : BufTy).Contents (Elt Ideal)) (n : Fin 100000) (k : Fin 64) :
    val_main_v26 (F := Ideal) h src dst (ix2 n k)
      = val_main_v23 (F := Ideal) h src dst (ix2 n k) * val_main_v10 (F := Ideal) dst (ix1 n) := by
  rw [val_main_v26_apply, val_main_v25_apply, val_main_v24_apply, Ideal.mulf_def, idx_dst_eq]

/-- The dense layer's array at `(n, j)` is its entry function there. -/
theorem dense_at (agg : Cert.Spec.SN64.Idx → EReal) (norms : Cert.Spec.SN2.Idx → EReal) (W : Cert.Spec.SW1.Idx → EReal)
    (b : Cert.Spec.SB1.Idx → EReal) (n : Fin 100000) (j : Fin 64) :
    Cert.Spec.dense agg norms W b (ix2 n j) = Cert.Spec.denseAt agg norms W b n j := rfl

/-! ## The bridge -/

/-- With the norm columns read as the reference's two norm vectors and the bias row as the reference's bias, the
    dense layer of the aggregated features is the reference's scaled, rectified first layer. -/
theorem dense_bridge
    (h : (⟨S100000x64, .f32⟩ : BufTy).Contents (Elt Ideal)) (src dst : (⟨S1600000, .i32⟩ : BufTy).Contents (Elt Ideal))
    (W1 : (⟨S64x64, .f32⟩ : BufTy).Contents (Elt Ideal)) (b1 : (⟨S64, .f32⟩ : BufTy).Contents (Elt Ideal))
    (norms : Cert.Spec.SN2.Idx → EReal) (b1row : Cert.Spec.SB1.Idx → EReal)
    (hn0 : ∀ n : Fin 100000, norms (ix2 n (0 : Fin 2)) = val_main_v9 (F := Ideal) src (ix1 n))
    (hn1 : ∀ n : Fin 100000, norms (ix2 n (1 : Fin 2)) = val_main_v10 (F := Ideal) dst (ix1 n))
    (hb : ∀ j : Fin 64, b1row (ix2 (0 : Fin 1) j) = b1 (ix1 j)) :
    Cert.Spec.dense (val_main_v23 (F := Ideal) h src dst) norms W1 b1row = val_main_v34 (F := Ideal) h src dst W1 b1 := by
  funext i
  obtain ⟨n, j, rfl⟩ : ∃ (n : Fin 100000) (j : Fin 64), i = ix2 n j := ⟨i 0, i 1, eq_ix2 i⟩
  -- the reference's stage at `(n, j)`, outermost operation first, down to the contraction as a sum over `k`
  rw [val_main_v34_apply, val_main_v33_apply, val_main_v32_apply, val_main_v31_apply, val_main_call2_v0_apply,
    val_main_call2_cst_apply, val_main_v30_apply, val_main_v29_apply, val_main_v28_apply, val_main_v27_apply]
  -- over the extended reals: product, sum, maximum, the constant zero; the broadcasts read the vectors' entries
  rw [Ideal.mulf_def, Ideal.addf_def, Ideal.maximumf_def, Ideal.ofBits_def, Ideal.ofBits_zero_f32,
    idx_src_eq, idx_bias_eq]
  -- the contraction's summand at step `k` is `(agg (n, k) · norm_dst n) · W1 (k, j)`
  have hs : (∑ k : Fin 64, val_main_v26 (F := Ideal) h src dst (lidx_main_v27 (ix2 n j) k) * W1 (ridx_main_v27 (ix2 n j) k))
      = ∑ k : Fin 64, (val_main_v23 (F := Ideal) h src dst (ix2 n k) * val_main_v10 (F := Ideal) dst (ix1 n)) * W1 (ix2 k j) :=
    Finset.sum_congr rfl fun k _ => by rw [lidx_eq, ridx_eq, scaled_at]
  -- the dense layer's entry, with the norm columns and the bias row read as the reference's vectors
  rw [hs, dense_at, Cert.Spec.denseAt, hn0, hn1, hb]

end Cert.Bridge

end
-- ==== Proof.SpecRef.lean ====
/-
  The reference's logits as plain mathematics: per node, the scaled features times the second layer's weights plus its bias;
  per graph, the sum of those over the graph's nodes, over the number of its nodes (at least one).
-/
import proofs.«402030_j79542794322477_3_alg».proof.Proof.Spec

noncomputable section

namespace Cert.Spec

open Idealize.ShloMosaic Idealize.ShloMosaic.ValueIdx
open scoped BigOperators

/-- Entry `(g, j)` of the reference's logits, from the scaled features `a` (one row per node), each node's graph id as an
    integer, the weights and the bias: the sum over the nodes whose id is `g` of `(a n) W2 j + b2 j`, added onto zero,
    over the larger of one and the number of those nodes (counted onto zero). -/
def refLogits (a : SN64.Idx → EReal) (gid : Fin 100000 → ℤ) (W2 : SW2.Idx → EReal) (b2 : Fin 4 → EReal)
    (g : Fin 16) (j : Fin 4) : EReal :=
  Ideal.div
    (0 + ∑ n ∈ Finset.univ.filter (fun n : Fin 100000 => gid n = (g.val : ℤ)),
      ((∑ k : Fin 64, a (ix2 n k) * W2 (ix2 k j)) + b2 j))
    (max 1 (0 + ∑ _n ∈ Finset.univ.filter (fun n : Fin 100000 => gid n = (g.val : ℤ)), (1 : EReal)))

end Cert.Spec

end
-- ==== Proof.TailRef.lean ====
/-
  The reference's tail read at an index: its result is the row softmax of its logits, and its logits are the plain
  mathematics of `Spec.refLogits` over its scaled second aggregation.

  The softmax part: the row maximum is a fold of `max` from minus infinity over the row's four entries, that is the
  supremum of the row; the later maximum with minus infinity changes nothing; the row sum starts from zero.
  The logits: each of the two per-graph scatters reads one start index per node, signed, off the node's graph id, so an
  update lands on graph `g` exactly when that id is `g` (the summing scatter carrying the update's column along); the sum
  over the landing updates is then re-indexed as a sum over the nodes of the graph.
-/
import proofs.«402030_j79542794322477_3_alg».proof.Proof.Gen.ReferenceIdeal.Read
import proofs.«402030_j79542794322477_3_alg».proof.Proof.SpecRef
import Idealize.ShloMosaic.Lib.ValueIdx
import Idealize.ShloMosaic.PureOps.Ideal.Laws

noncomputable section

namespace Cert.Bridge

open Cert.ReferenceIdeal Cert.ReferenceIdeal.Gen Cert.ReferenceIdeal.Read Idealize.ShloMosaic Idealize.ShloMosaic.ValueIdx
open scoped BigOperators

/-! ## Two constant words -/

/-- The word `0x3F800000` is the number one. -/
theorem f32_one : Ideal.ofBits .f32 0x3F800000#32 = 1 := by
  simp [Ideal.ofBits, Ideal.ieee, -EReal.coe_mul]; norm_num

/-- The word `0xFF800000` is minus infinity. -/
theorem f32_negInf : Ideal.ofBits .f32 0xFF800000#32 = ⊥ := by
  simp [Ideal.ofBits, Ideal.ieee]

/-- A maximum-reduction of a 16×4 array along its rows, at row `g`: the fold of `max` over the row's four entries, from the
    initial value. -/
theorem rowMax_apply (y : FVec Ideal S16x4 .f32) (init : FVec Ideal S_ .f32) (g : S16.Idx) :
    Host.reduce (FloatOps.maximumf (F := Ideal) (φ := .f32)) y init reducesTo_S16x4_S16_d1 h_S_ g
      = (Finset.univ : Finset (Fin 4)).fold max (init (Shape.Idx.first h_S_)) (fun k => y (ix2 (g 0) k)) := by
  rw [Host.reduce_eq_fold_single (FloatOps.maximumf (F := Ideal) (φ := .f32)) y init reducesTo_S16x4_S16_d1 (by decide) h_S_ g]
  refine congrArg (fun f => Finset.fold max (init (Shape.Idx.first h_S_)) f (Finset.univ : Finset (Fin 4))) (funext fun k => ?_)
  exact congrArg y (funext fun a => Fin.ext (by match a with | ⟨0, _⟩ => rfl | ⟨1, _⟩ => rfl))

/-! ## The softmax over the logits -/

/-- The reference's last eleven operations are the row softmax of its logits: the row maximum folds from minus infinity
    (and the later maximum with minus infinity changes nothing), the row sum starts from zero. -/
theorem softmax_tail
    (h : (⟨S100000x64, .f32⟩ : BufTy).Contents (Elt Ideal)) (src dst : (⟨S1600000, .i32⟩ : BufTy).Contents (Elt Ideal))
    (gid : (⟨S100000, .i32⟩ : BufTy).Contents (Elt Ideal))
    (W1 : (⟨S64x64, .f32⟩ : BufTy).Contents (Elt Ideal)) (b1 : (⟨S64, .f32⟩ : BufTy).Contents (Elt Ideal))
    (W2 : (⟨S64x4, .f32⟩ : BufTy).Contents (Elt Ideal)) (b2 : (⟨S4, .f32⟩ : BufTy).Contents (Elt Ideal)) (i : S16x4.Idx) :
    val_main_v73 (F := Ideal) h src dst gid W1 b1 W2 b2 i
      = Cert.Spec.softmaxAt (fun g j => val_main_v62 (F := Ideal) h src dst gid W1 b1 W2 b2 (ix2 g j)) (i 0) (i 1) := by
  have hmax : ∀ g : S16.Idx, val_main_v65 (F := Ideal) h src dst gid W1 b1 W2 b2 g
      = Finset.univ.sup (fun k : Fin 4 => val_main_v62 (F := Ideal) h src dst gid W1 b1 W2 b2 (ix2 (g 0) k)) := by
    intro g
    rw [val_main_v65_apply, val_main_v64_apply, val_main_cst_14_apply]
    unfold val_main_v63
    generalize val_main_v62 (F := Ideal) h src dst gid W1 b1 W2 b2 = y
    rw [rowMax_apply, val_main_cst_13_apply]
    simp only [Ideal.ofBits_def, Ideal.maximumf_def, f32_negInf, bot_sup_eq]
    rfl
  have hexp : ∀ u : S16x4.Idx, val_main_v69 (F := Ideal) h src dst gid W1 b1 W2 b2 u
      = Ideal.exp (val_main_v62 (F := Ideal) h src dst gid W1 b1 W2 b2 u
          - Finset.univ.sup (fun k : Fin 4 => val_main_v62 (F := Ideal) h src dst gid W1 b1 W2 b2 (ix2 (u 0) k))) := by
    intro u
    rw [val_main_v69_apply, val_main_v68_apply, val_main_v67_apply, val_main_v66_apply, hmax]
    simp only [Ideal.hostUnary_exp_def, Ideal.subf_def]
    rfl
  rw [val_main_v73_apply, val_main_v72_apply, val_main_v71_apply, val_main_v70_apply, val_main_cst_15_apply, hexp]
  simp only [hexp, Ideal.hostDivf_def, Ideal.ofBits_def, Ideal.ofBits_zero_f32, zero_add]
  have hi : ∀ x : Fin 4, idx_main_v70 (idx_main_v71 (idx_main_v72 i)) x = ix2 (i 0) x := fun x =>
    funext fun a => by match a with | ⟨0, _⟩ => rfl | ⟨1, _⟩ => rfl
  simp only [hi]
  clear hexp hmax hi
  generalize val_main_v62 (F := Ideal) h src dst gid W1 b1 W2 b2 = y
  obtain ⟨g, j, rfl⟩ : ∃ g j, i = ix2 g j := ⟨i 0, i 1, eq_ix2 i⟩
  rfl

/-! ## Where a scatter puts an update -/

/-- An update lands on the operand index `i` exactly when, on every axis, its start plus its window coordinate is `i`'s
    coordinate (being then inside the operand). -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro e a
      have ea : (d.start j idx a + (d.window j a : ℤ)).toNat = (i a).val := congrArg (fun f : s.Idx => (f a).val) e
      have := (h a).1
      omega
    · intro e
      funext a
      apply Fin.ext
      show (d.start j idx a + (d.window j a : ℤ)).toNat = (i a).val
      have := e a
      omega
  · rename_i h
    constructor
    · intro e; cases e
    · intro e
      exfalso
      apply h
      intro a
      have := e a
      have := (i a).isLt
      omega

/-! ## Where the two per-graph scatters put an update

Both scatters read one start index per node, signed, off the node's graph id, onto axis 0 of the result; the second carries a
window coordinate along on axis 1. -/

/-- The counting scatter reads update `j`'s start index at row `j 0` of the index column. -/
theorem count_siIdx (j : S100000.Idx) (c : Fin scatter_S16_S100000x1_S100000_n_0_0_1.scatterDimsToOperandDims.length) :
    scatter_S16_S100000x1_S100000_n_0_0_1.siIdx j c = ix2 (j 0) (0 : Fin 1) := by
  funext b
  apply Fin.ext
  match b with
  | ⟨0, _⟩ => rfl
  | ⟨1, _⟩ =>
    have : c.val < 1 := c.isLt
    show c.val = 0
    omega

/-- On the result's one axis the counting scatter's start is the node's graph id, read signed. -/
theorem count_start (idx : IVec S100000x1 32) (j : S100000.Idx) (a : Fin S16.rank) :
    scatter_S16_S100000x1_S100000_n_0_0_1.start j idx a = (idx (ix2 (j 0) (0 : Fin 1))).toInt := by
  have ha : a = 0 := Subsingleton.elim _ _
  subst ha
  unfold ScatterDims.start
  rw [dif_pos (by decide), count_siIdx]
  rfl

/-- The counting scatter has no window axis: the window coordinate is zero. -/
theorem count_window (j : S100000.Idx) (a : Fin S16.rank) :
    scatter_S16_S100000x1_S100000_n_0_0_1.window j a = 0 := by
  have ha : a = 0 := Subsingleton.elim _ _
  subst ha
  unfold ScatterDims.window
  rw [dif_neg (by decide)]

/-- An update of the counting scatter lands on graph `g` exactly when its node's graph id, read signed, is `g`. -/
theorem count_resultIdx (idx : IVec S100000x1 32) (j : S100000.Idx) (g : S16.Idx) :
    scatter_S16_S100000x1_S100000_n_0_0_1.resultIdx? j idx = some g
      ↔ (idx (ix2 (j 0) (0 : Fin 1))).toInt = ((g 0).val : ℤ) := by
  rw [resultIdx?_eq_some_iff]
  simp only [count_start, count_window]
  constructor
  · intro e; have := e 0; omega
  · intro e a
    have ha : a = 0 := Subsingleton.elim _ _
    subst ha
    omega

/-- The summing scatter reads update `j`'s start index at row `j 0` of the index column. -/
theorem sum_siIdx (j : S100000x4.Idx) (c : Fin scatter_S16x4_S100000x1_S100000x4_1_0_0_1.scatterDimsToOperandDims.length) :
    scatter_S16x4_S100000x1_S100000x4_1_0_0_1.siIdx j c = ix2 (j 0) (0 : Fin 1) := by
  funext b
  apply Fin.ext
  match b with
  | ⟨0, _⟩ => rfl
  | ⟨1, _⟩ =>
    have : c.val < 1 := c.isLt
    show c.val = 0
    omega

/-- On the graph axis the summing scatter's start is the node's graph id, read signed … -/
theorem sum_start0 (idx : IVec S100000x1 32) (j : S100000x4.Idx) :
    scatter_S16x4_S100000x1_S100000x4_1_0_0_1.start j idx 0 = (idx (ix2 (j 0) (0 : Fin 1))).toInt := by
  unfold ScatterDims.start
  rw [dif_pos (by decide), sum_siIdx]
  rfl

/-- … and zero on the column axis, which no start index names. -/
theorem sum_start1 (idx : IVec S100000x1 32) (j : S100000x4.Idx) :
    scatter_S16x4_S100000x1_S100000x4_1_0_0_1.start j idx 1 = 0 := by
  unfold ScatterDims.start
  rw [dif_neg (by decide)]

/-- The graph axis is inserted, so its window coordinate is zero … -/
theorem sum_window0 (j : S100000x4.Idx) :
    scatter_S16x4_S100000x1_S100000x4_1_0_0_1.window j 0 = 0 := by
  unfold ScatterDims.window
  rw [dif_neg (by decide)]

/-- … and the column axis's window coordinate is the update's own column. -/
theorem sum_window1 (j : S100000x4.Idx) :
    scatter_S16x4_S100000x1_S100000x4_1_0_0_1.window j 1 = (j 1).val := by
  unfold ScatterDims.window
  rw [dif_pos (by decide)]
  rfl

/-- An update of the summing scatter lands on entry `(g, c)` exactly when its node's graph id, read signed, is `g` and its
    own column is `c`. -/
theorem sum_resultIdx (idx : IVec S100000x1 32) (j : S100000x4.Idx) (i : S16x4.Idx) :
    scatter_S16x4_S100000x1_S100000x4_1_0_0_1.resultIdx? j idx = some i
      ↔ (idx (ix2 (j 0) (0 : Fin 1))).toInt = ((i 0).val : ℤ) ∧ (j 1).val = (i 1).val := by
  rw [resultIdx?_eq_some_iff]
  constructor
  · intro e
    have e0 := e 0
    have e1 := e 1
    rw [sum_start0, sum_window0] at e0
    rw [sum_start1, sum_window1] at e1
    refine ⟨by omega, by omega⟩
  · rintro ⟨e0, e1⟩ a
    match a with
    | ⟨0, _⟩ =>
      show scatter_S16x4_S100000x1_S100000x4_1_0_0_1.start j idx 0 + (scatter_S16x4_S100000x1_S100000x4_1_0_0_1.window j 0 : ℤ) = ((i 0).val : ℤ)
      rw [sum_start0, sum_window0]; omega
    | ⟨1, _⟩ =>
      show scatter_S16x4_S100000x1_S100000x4_1_0_0_1.start j idx 1 + (scatter_S16x4_S100000x1_S100000x4_1_0_0_1.window j 1 : ℤ) = ((i 1).val : ℤ)
      rw [sum_start1, sum_window1, e1]; omega

/-! ## The per-graph count and sum as sums over the graph's nodes -/

/-- The column of graph ids, broadcast to one column per node, read at row `n`. -/
theorem idx54_ix (n : Fin 100000) : idx_main_v54 (ix2 n (0 : Fin 1)) = ix1 n := by
  funext a; match a with | ⟨0, _⟩ => rfl
/-- The same for the second copy of that column. -/
theorem idx58_ix (n : Fin 100000) : idx_main_v58 (ix2 n (0 : Fin 1)) = ix1 n := by
  funext a; match a with | ⟨0, _⟩ => rfl

/-- The per-graph node count: zero plus one for every node whose graph id is `g`. -/
theorem count_apply (gid : (⟨S100000, .i32⟩ : BufTy).Contents (Elt Ideal)) (g : S16.Idx) :
    val_main_v55 (F := Ideal) gid g
      = 0 + ∑ _n ∈ Finset.univ.filter (fun n : Fin 100000 => (gid (ix1 n)).toInt = ((g 0).val : ℤ)), (1 : EReal) := by
  unfold val_main_v55
  simp only [Host.scatterAdd, Ideal.hostScatterAdd_def]
  unfold Ideal.hostScatterAdd
  simp only [count_resultIdx, val_main_v54_apply, val_main_v52_apply, val_main_cst_9_apply, val_main_v53_apply,
    val_main_cst_10_apply, Ideal.ofBits_def, f32_one, Ideal.ofBits_zero_f32, idx54_ix]
  refine congrArg (0 + ·) ?_
  refine Finset.sum_nbij' (fun j => j 0) (fun n => ix1 n) ?_ ?_ ?_ ?_ ?_
  · intro j hj
    have hj' := (Finset.mem_filter.1 hj).2
    exact Finset.mem_filter.2 ⟨Finset.mem_univ _, (congrArg (fun t => BitVec.toInt (gid t)) (idx54_ix (j 0))).symm.trans hj'⟩
  · intro n hn
    have hn' := (Finset.mem_filter.1 hn).2
    exact Finset.mem_filter.2 ⟨Finset.mem_univ _, (congrArg (fun t => BitVec.toInt (gid t)) (idx54_ix n)).trans hn'⟩
  · intro j _; exact (eq_ix1 j).symm
  · intro n _; rfl
  · intro j _; rfl

/-- One node's row of the second layer, before pooling: its scaled features times the weights, plus the bias. -/
theorem node_apply
    (h : (⟨S100000x64, .f32⟩ : BufTy).Contents (Elt Ideal)) (src dst : (⟨S1600000, .i32⟩ : BufTy).Contents (Elt Ideal))
    (W1 : (⟨S64x64, .f32⟩ : BufTy).Contents (Elt Ideal)) (b1 : (⟨S64, .f32⟩ : BufTy).Contents (Elt Ideal))
    (W2 : (⟨S64x4, .f32⟩ : BufTy).Contents (Elt Ideal)) (b2 : (⟨S4, .f32⟩ : BufTy).Contents (Elt Ideal))
    (n : Fin 100000) (c : Fin 4) :
    val_main_v51 (F := Ideal) h src dst W1 b1 W2 b2 (ix2 n c)
      = (∑ k : Fin 64, val_main_v47 (F := Ideal) h src dst W1 b1 (ix2 n k) * W2 (ix2 k c)) + b2 (ix1 c) := by
  rw [val_main_v51_apply, val_main_v48_apply, val_main_v50_apply, val_main_v49_apply]
  simp only [Ideal.addf_def]
  have hl : ∀ k : Fin 64, lidx_main_v48 (ix2 n c) k = ix2 n k := fun k =>
    funext fun a => by match a with | ⟨0, _⟩ => rfl | ⟨1, _⟩ => rfl
  have hr : ∀ k : Fin 64, ridx_main_v48 (ix2 n c) k = ix2 k c := fun k =>
    funext fun a => by match a with | ⟨0, _⟩ => rfl | ⟨1, _⟩ => rfl
  have hb : idx_main_v49 (idx_main_v50 (ix2 n c)) = ix1 c := by
    funext a; match a with | ⟨0, _⟩ => rfl
  simp only [hl, hr, hb]

/-- The per-graph sum: zero plus, for every node whose graph id is `i 0`, the node's entry in column `i 1`. -/
theorem sum_apply
    (h : (⟨S100000x64, .f32⟩ : BufTy).Contents (Elt Ideal)) (src dst : (⟨S1600000, .i32⟩ : BufTy).Contents (Elt Ideal))
    (gid : (⟨S100000, .i32⟩ : BufTy).Contents (Elt Ideal))
    (W1 : (⟨S64x64, .f32⟩ : BufTy).Contents (Elt Ideal)) (b1 : (⟨S64, .f32⟩ : BufTy).Contents (Elt Ideal))
    (W2 : (⟨S64x4, .f32⟩ : BufTy).Contents (Elt Ideal)) (b2 : (⟨S4, .f32⟩ : BufTy).Contents (Elt Ideal)) (i : S16x4.Idx) :
    val_main_v59 (F := Ideal) h src dst gid W1 b1 W2 b2 i
      = 0 + ∑ n ∈ Finset.univ.filter (fun n : Fin 100000 => (gid (ix1 n)).toInt = ((i 0).val : ℤ)),
          val_main_v51 (F := Ideal) h src dst W1 b1 W2 b2 (ix2 n (i 1)) := by
  unfold val_main_v59
  generalize val_main_v51 (F := Ideal) h src dst W1 b1 W2 b2 = y
  simp only [Host.scatterAdd, Ideal.hostScatterAdd_def]
  unfold Ideal.hostScatterAdd
  simp only [sum_resultIdx, val_main_v58_apply, val_main_v57_apply, val_main_cst_12_apply, Ideal.ofBits_def,
    Ideal.ofBits_zero_f32]
  refine congrArg (0 + ·) ?_
  refine Finset.sum_nbij' (fun u => u 0) (fun n => ix2 n (i 1)) ?_ ?_ ?_ ?_ ?_
  · intro u hu
    have hu' := (Finset.mem_filter.1 hu).2
    exact Finset.mem_filter.2 ⟨Finset.mem_univ _, (congrArg (fun t => BitVec.toInt (gid t)) (idx58_ix (u 0))).symm.trans hu'.1⟩
  · intro n hn
    have hn' := (Finset.mem_filter.1 hn).2
    exact Finset.mem_filter.2 ⟨Finset.mem_univ _, (congrArg (fun t => BitVec.toInt (gid t)) (idx58_ix n)).trans hn', rfl⟩
  · intro u hu
    have hu' := (Finset.mem_filter.1 hu).2
    show ix2 (u 0) (i 1) = u
    rw [← Fin.ext hu'.2]; exact (eq_ix2 u).symm
  · intro n _; rfl
  · intro u hu
    have hu' := (Finset.mem_filter.1 hu).2
    have e : ix2 (u 0) (i 1) = u := by rw [← Fin.ext hu'.2]; exact (eq_ix2 u).symm
    exact (congrArg y e).symm

/-! ## The logits, and the tail -/

/-- The reference's logits are `Spec.refLogits` over its scaled second aggregation: the per-graph sum of the nodes' rows
    over the per-graph count clipped below at one. -/
theorem logits_apply
    (h : (⟨S100000x64, .f32⟩ : BufTy).Contents (Elt Ideal)) (src dst : (⟨S1600000, .i32⟩ : BufTy).Contents (Elt Ideal))
    (gid : (⟨S100000, .i32⟩ : BufTy).Contents (Elt Ideal))
    (W1 : (⟨S64x64, .f32⟩ : BufTy).Contents (Elt Ideal)) (b1 : (⟨S64, .f32⟩ : BufTy).Contents (Elt Ideal))
    (W2 : (⟨S64x4, .f32⟩ : BufTy).Contents (Elt Ideal)) (b2 : (⟨S4, .f32⟩ : BufTy).Contents (Elt Ideal)) (i : S16x4.Idx) :
    val_main_v62 (F := Ideal) h src dst gid W1 b1 W2 b2 i
      = Cert.Spec.refLogits (val_main_v47 (F := Ideal) h src dst W1 b1) (fun n => (gid (ix1 n)).toInt) W2
          (fun j => b2 (ix1 j)) (i 0) (i 1) := by
  rw [val_main_v62_apply, val_main_v61_apply, val_main_v60_apply, val_main_v56_apply, val_main_call3_v1_apply,
    val_main_call3_v0_apply, val_main_cst_11_apply, sum_apply, count_apply]
  simp only [Ideal.hostDivf_def, Ideal.maximumf_def, Ideal.ofBits_def, f32_one]
  unfold Cert.Spec.refLogits
  beta_reduce
  refine congrArg₂ Ideal.div (congrArg (0 + ·) (Finset.sum_congr rfl fun n _ => ?_)) rfl
  exact node_apply h src dst W1 b1 W2 b2 n (i 1)

/-- The reference's result, entry by entry: the softmax of row `i 0` of its logits at column `i 1`. -/
theorem ref_tail
    (h : (⟨S100000x64, .f32⟩ : BufTy).Contents (Elt Ideal)) (src dst : (⟨S1600000, .i32⟩ : BufTy).Contents (Elt Ideal))
    (gid : (⟨S100000, .i32⟩ : BufTy).Contents (Elt Ideal))
    (W1 : (⟨S64x64, .f32⟩ : BufTy).Contents (Elt Ideal)) (b1 : (⟨S64, .f32⟩ : BufTy).Contents (Elt Ideal))
    (W2 : (⟨S64x4, .f32⟩ : BufTy).Contents (Elt Ideal)) (b2 : (⟨S4, .f32⟩ : BufTy).Contents (Elt Ideal)) :
    val_main_v73 (F := Ideal) h src dst gid W1 b1 W2 b2
      = fun i => Cert.Spec.softmaxAt
          (Cert.Spec.refLogits (val_main_v47 (F := Ideal) h src dst W1 b1) (fun n => (gid (ix1 n)).toInt) W2 (fun j => b2 (ix1 j)))
          (i 0) (i 1) := by
  funext i
  rw [softmax_tail]
  refine congrArg (fun l => Cert.Spec.softmaxAt l (i 0) (i 1)) ?_
  funext g j
  exact logits_apply h src dst gid W1 b1 W2 b2 (ix2 g j)

end Cert.Bridge

end
-- ==== Proof.TailAlg.lean ====
/-
  The algebra of the pooled logits: the mean of the pooled features times the weights, plus the bias where the graph has a
  node, is the per-node "features times weights plus bias" summed over the graph and divided by its node count — for real
  features, weights and bias.
-/
import proofs.«402030_j79542794322477_3_alg».proof.Proof.SpecRef
import Mathlib.Data.EReal.Basic
import Mathlib.Data.EReal.Operations
import Mathlib.Data.EReal.Inv
import Mathlib.Algebra.BigOperators.Ring.Finset
import Mathlib.Algebra.BigOperators.Group.Finset.Basic
import Mathlib.Algebra.Order.BigOperators.Group.Finset
import Mathlib.Tactic.Ring
import Mathlib.Tactic.FieldSimp
import Mathlib.Tactic.Linarith

noncomputable section

namespace Cert.Spec

open Idealize.ShloMosaic Idealize.ShloMosaic.ValueIdx
open scoped BigOperators

/-- The inclusion of the reals in the extended reals carries a finite sum to the sum of the inclusions. -/
private theorem coe_finset_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A sum weighted by an indicator is the sum over the indicated set (in the extended reals `0 · x = 0` and
    `1 · x = x` for every `x`, infinite ones included). -/
private theorem sum_indicator_mul {ι : Type*} [Fintype ι] (p : ι → Prop) [DecidablePred p] (f : ι → EReal) :
    ∑ n, (if p n then (1 : EReal) else 0) * f n = ∑ n ∈ Finset.univ.filter p, f n := by
  rw [Finset.sum_filter]
  refine Finset.sum_congr rfl ?_
  intro n _
  by_cases h : p n
  · rw [if_pos h, if_pos h, one_mul]
  · rw [if_neg h, if_neg h, zero_mul]

/-- The identity over the reals. With `c` the number of elements of `S` (written as the sum of ones over `S`):
    the column sums over `S`, divided by `max c 1`, times the weights, plus the bias where `0 < c`, is the sum over
    `S` of "row times weights plus bias", divided by `max 1 c`. For empty `S` both sides vanish; otherwise
    `max c 1 = c` and the bias, summed `c` times and divided by `c`, is the bias. -/
private theorem real_pool_identity {ι κ : Type*} [Fintype κ] (S : Finset ι) (A : ι → κ → ℝ) (W : κ → ℝ) (b : ℝ) :
    (∑ k, ((∑ n ∈ S, A n k) * (1 / max (∑ _n ∈ S, (1 : ℝ)) 1)) * W k)
        + b * (if 0 < ∑ _n ∈ S, (1 : ℝ) then 1 else 0)
      = (0 + ∑ n ∈ S, ((∑ k, A n k * W k) + b)) * (1 / max 1 (0 + ∑ _n ∈ S, (1 : ℝ))) := by
  rw [Finset.sum_const, nsmul_eq_mul, mul_one, zero_add, zero_add]
  rcases Nat.eq_zero_or_pos S.card with h0 | hpos
  · have hS : S = ∅ := Finset.card_eq_zero.mp h0
    subst hS
    simp
  · have hc : (1 : ℝ) ≤ (S.card : ℝ) := by exact_mod_cast hpos
    have hcpos : (0 : ℝ) < S.card := by linarith
    have hne : (S.card : ℝ) ≠ 0 := ne_of_gt hcpos
    rw [max_eq_left hc, max_eq_right hc, if_pos hcpos, mul_one, Finset.sum_add_distrib, Finset.sum_const,
      nsmul_eq_mul, Finset.sum_comm, add_mul, Finset.sum_mul]
    congr 1
    · refine Finset.sum_congr rfl ?_
      intro k _
      simp only [Finset.sum_mul]
      refine Finset.sum_congr rfl ?_
      intro n _
      ring
    · field_simp

/-- The same identity in the extended reals, for real-valued data: every sum, product, maximum and the indicator of
    `0 < c` is the image of the real one, and `max c 1 ≥ 1` is not zero, so the division is the product with the
    real reciprocal; then the identity is the image of the real identity. -/
private theorem ereal_pool_identity {ι κ : Type*} [Fintype κ] (S : Finset ι) (A : ι → κ → ℝ) (W : κ → ℝ) (b : ℝ) :
    (∑ k, Ideal.div (∑ n ∈ S, (A n k : EReal)) (max (∑ _n ∈ S, (1 : EReal)) 1) * (W k : EReal))
        + (b : EReal) * (if 0 < ∑ _n ∈ S, (1 : EReal) then 1 else 0)
      = Ideal.div (0 + ∑ n ∈ S, ((∑ k, (A n k : EReal) * (W k : EReal)) + (b : EReal)))
          (max 1 (0 + ∑ _n ∈ S, (1 : EReal))) := by
  have h1 : (∑ _n ∈ S, (1 : EReal)) = ((∑ _n ∈ S, (1 : ℝ) : ℝ) : EReal) := by
    rw [coe_finset_sum, EReal.coe_one]
  have hC : (0 : ℝ) ≤ ∑ _n ∈ S, (1 : ℝ) := Finset.sum_nonneg (fun _ _ => zero_le_one)
  have hm1 : max (∑ _n ∈ S, (1 : ℝ)) 1 ≠ 0 := ne_of_gt (lt_of_lt_of_le zero_lt_one (le_max_right _ _))
  have hm2 : max 1 (0 + ∑ _n ∈ S, (1 : ℝ)) ≠ 0 := ne_of_gt (lt_of_lt_of_le zero_lt_one (le_max_left _ _))
  have hmax1 : max ((∑ _n ∈ S, (1 : ℝ) : ℝ) : EReal) 1 = ((max (∑ _n ∈ S, (1 : ℝ)) 1 : ℝ) : EReal) := by
    rw [← EReal.coe_one]; exact (EReal.coe_strictMono.monotone.map_max).symm
  have hmax2 : max (1 : EReal) (0 + ((∑ _n ∈ S, (1 : ℝ) : ℝ) : EReal))
      = ((max 1 (0 + ∑ _n ∈ S, (1 : ℝ)) : ℝ) : EReal) := by
    rw [← EReal.coe_one, ← EReal.coe_zero, ← EReal.coe_add]; exact (EReal.coe_strictMono.monotone.map_max).symm
  have hite : (if (0 : EReal) < ((∑ _n ∈ S, (1 : ℝ) : ℝ) : EReal) then (1 : EReal) else 0)
      = ((if 0 < ∑ _n ∈ S, (1 : ℝ) then (1 : ℝ) else 0 : ℝ) : EReal) := by
    by_cases h : 0 < ∑ _n ∈ S, (1 : ℝ)
    · rw [if_pos h, if_pos (EReal.coe_pos.mpr h), EReal.coe_one]
    · rw [if_neg h, if_neg (fun h' => h (EReal.coe_pos.mp h')), EReal.coe_zero]
  rw [h1, hmax1, hmax2, hite, Ideal.div_coe hm2]
  simp only [Ideal.div_coe hm1, ← coe_finset_sum, ← EReal.coe_mul, ← EReal.coe_add, ← EReal.coe_zero]
  rw [real_pool_identity]

theorem logits_eq
    (agg2 : SN64.Idx → EReal) (ndgid : SN2.Idx → EReal) (a : SN64.Idx → EReal) (gid : Fin 100000 → ℤ)
    (W2 : SW2.Idx → EReal) (b2row : SB2.Idx → EReal) (b2 : Fin 4 → EReal)
    (ha : ∀ (n : Fin 100000) (k : Fin 64), a (ix2 n k) = agg2 (ix2 n k) * ndgid (ix2 n (0 : Fin 2)))
    (hgid : ∀ n : Fin 100000, ndgid (ix2 n (1 : Fin 2)) = ((gid n : ℝ) : EReal))
    (hb : ∀ j : Fin 4, b2row (ix2 (0 : Fin 1) j) = b2 j)
    (hfin : AllReal a) (hW2 : AllReal W2) (hb2 : ∀ j : Fin 4, ∃ r : ℝ, b2 j = (r : EReal))
    (g : Fin 16) (j : Fin 4) :
    poolLogits agg2 ndgid W2 b2row g j = refLogits a gid W2 b2 g j := by
  -- real-valued names for the features, the weights and the bias
  have hfin' : ∀ i, ∃ r : ℝ, a i = (r : EReal) := hfin
  have hW2' : ∀ i, ∃ r : ℝ, W2 i = (r : EReal) := hW2
  choose a' ha' using hfin'
  choose W' hW' using hW2'
  choose b' hb' using hb2
  -- the indicator of "the node's graph number is g" in terms of the integer ids
  have hone : ∀ n : Fin 100000,
      oneHot (ndgid (ix2 n (1 : Fin 2))) g = if gid n = (g.val : ℤ) then 1 else 0 := by
    intro n
    have hiff : (((gid n : ℝ) : EReal) = ((g.val : ℝ) : EReal)) ↔ gid n = (g.val : ℤ) := by
      rw [EReal.coe_eq_coe_iff]
      constructor
      · intro h; exact_mod_cast h
      · intro h; rw [h]; simp
    rw [oneHot, hgid]
    by_cases h : gid n = (g.val : ℤ)
    · rw [if_pos h, if_pos (hiff.mpr h)]
    · rw [if_neg h, if_neg (fun h' => h (hiff.mp h'))]
  -- the count and the column sums as sums over the graph's nodes
  have hcnt : poolCnt ndgid g
      = ∑ _n ∈ Finset.univ.filter (fun n : Fin 100000 => gid n = (g.val : ℤ)), (1 : EReal) := by
    rw [poolCnt]
    simp only [hone]
    exact sum_indicator_mul (fun n : Fin 100000 => gid n = (g.val : ℤ)) (fun _ => (1 : EReal))
  have hsum : ∀ k : Fin 64, poolSum agg2 ndgid g k
      = ∑ n ∈ Finset.univ.filter (fun n : Fin 100000 => gid n = (g.val : ℤ)), ((a' (ix2 n k) : ℝ) : EReal) := by
    intro k
    rw [poolSum]
    simp only [hone, ← ha, ha']
    exact sum_indicator_mul (fun n : Fin 100000 => gid n = (g.val : ℤ)) (fun n => ((a' (ix2 n k) : ℝ) : EReal))
  rw [poolLogits, refLogits, hcnt, hb, hb']
  simp only [hsum, ha', hW']
  exact ereal_pool_identity _ (fun n k => a' (ix2 n k)) (fun k => W' (ix2 k j)) (b' j)

end Cert.Spec

end
-- ==== Proof.TailBridge.lean ====
/-
  The pooled softmax against the reference's tail: pooling the scaled features per graph, taking the mean and then applying
  the second layer's weights and bias is the same as applying weights and bias per node, summing per graph and dividing by
  the node count — where every scaled feature, weight and bias is a real number.
-/
import proofs.«402030_j79542794322477_3_alg».proof.Proof.Gen.ReferenceIdeal.Read
import proofs.«402030_j79542794322477_3_alg».proof.Proof.Spec
import proofs.«402030_j79542794322477_3_alg».proof.Proof.TailRef
import proofs.«402030_j79542794322477_3_alg».proof.Proof.TailAlg
import Idealize.ShloMosaic.Lib.ValueIdx
import Idealize.ShloMosaic.PureOps.Ideal.Laws

noncomputable section

namespace Cert.Bridge

open Cert.ReferenceIdeal Cert.ReferenceIdeal.Read Idealize.ShloMosaic Idealize.ShloMosaic.ValueIdx
open scoped BigOperators

/-- With the two columns read as the reference's destination norm and the nodes' graph ids, and the bias row as the
    reference's bias, the pooled softmax of the second aggregation is the reference's result. -/
theorem tail_bridge
    (h : (⟨S100000x64, .f32⟩ : BufTy).Contents (Elt Ideal)) (src dst : (⟨S1600000, .i32⟩ : BufTy).Contents (Elt Ideal))
    (gid : (⟨S100000, .i32⟩ : BufTy).Contents (Elt Ideal))
    (W1 : (⟨S64x64, .f32⟩ : BufTy).Contents (Elt Ideal)) (b1 : (⟨S64, .f32⟩ : BufTy).Contents (Elt Ideal))
    (W2 : (⟨S64x4, .f32⟩ : BufTy).Contents (Elt Ideal)) (b2 : (⟨S4, .f32⟩ : BufTy).Contents (Elt Ideal))
    (ndgid : Cert.Spec.SN2.Idx → EReal) (b2row : Cert.Spec.SB2.Idx → EReal)
    (hnd : ∀ n : Fin 100000, ndgid (ix2 n (0 : Fin 2)) = val_main_v10 (F := Ideal) dst (ix1 n))
    (hgid : ∀ n : Fin 100000, ndgid (ix2 n (1 : Fin 2)) = (((gid (ix1 n)).toInt : ℝ) : EReal))
    (hb : ∀ j : Fin 4, b2row (ix2 (0 : Fin 1) j) = b2 (ix1 j))
    (hfin : Cert.Spec.AllReal (val_main_v47 (F := Ideal) h src dst W1 b1))
    (hW2 : Cert.Spec.AllReal W2) (hb2 : Cert.Spec.AllReal b2) :
    Cert.Spec.pooled (val_main_v44 (F := Ideal) h src dst W1 b1) ndgid W2 b2row
      = val_main_v73 (F := Ideal) h src dst gid W1 b1 W2 b2 := by
  -- the scaled second aggregation at an entry is the second aggregation's entry times the node's destination norm
  have ha : ∀ (n : Fin 100000) (k : Fin 64),
      val_main_v47 (F := Ideal) h src dst W1 b1 (ix2 n k)
        = val_main_v44 (F := Ideal) h src dst W1 b1 (ix2 n k) * ndgid (ix2 n (0 : Fin 2)) := by
    intro n k
    have hidx : idx_main_v45 (idx_main_v46 (ix2 n k)) = ix1 n :=
      funext fun a => Fin.ext (by match a with | ⟨0, _⟩ => rfl)
    rw [val_main_v47_apply, val_main_v46_apply, val_main_v45_apply, hidx, Ideal.mulf_def, hnd]
  -- the bias, read along its one axis, is real
  have hb2' : ∀ j : Fin 4, ∃ r : ℝ, (fun j : Fin 4 => b2 (ix1 j)) j = (r : EReal) := fun j => hb2 (ix1 j)
  -- the two logit functions agree entry by entry
  have hl : Cert.Spec.poolLogits (val_main_v44 (F := Ideal) h src dst W1 b1) ndgid W2 b2row
      = Cert.Spec.refLogits (val_main_v47 (F := Ideal) h src dst W1 b1) (fun n => (gid (ix1 n)).toInt) W2
          (fun j => b2 (ix1 j)) := by
    funext g j
    exact Cert.Spec.logits_eq (val_main_v44 (F := Ideal) h src dst W1 b1) ndgid
      (val_main_v47 (F := Ideal) h src dst W1 b1) (fun n => (gid (ix1 n)).toInt) W2 b2row (fun j => b2 (ix1 j))
      ha hgid hb hfin hW2 hb2' g j
  rw [ref_tail]
  funext i
  unfold Cert.Spec.pooled
  rw [hl]

end Cert.Bridge

end
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import proofs.«402030_j79542794322477_3_alg».proof.Proof.Spec
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.Finite.lean ====
/-
  Every entry of the scaled second aggregation is a real number when the features, the first layer's weights and its bias
  are: each stage of the chain keeps real entries real.

  The two norm arrays are positive reals for ANY index arrays: a count is a finite sum of ones added to zero, a real;
  its maximum with one is a real that is at least one; the reciprocal square root of a positive real is a positive
  real. From there every stage is a product, sum or maximum of arrays of reals, a re-indexing (broadcast, gather) of
  one, an accumulating scatter of real updates into zeros, or a contraction of two arrays of reals.
-/
import proofs.«402030_j79542794322477_3_alg».proof.Proof.Gen.ReferenceIdeal.Read
import proofs.«402030_j79542794322477_3_alg».proof.Proof.Spec
import proofs.«402030_j79542794322477_3_alg».proof.Proof.LibAllReal
import Idealize.ShloMosaic.Lib.ValueIdx
import Idealize.ShloMosaic.PureOps.Ideal.Laws

noncomputable section

namespace Cert.Bridge

open Cert.ReferenceIdeal Cert.ReferenceIdeal.Read Idealize.ShloMosaic Idealize.ShloMosaic.ValueIdx
open Cert.Spec
open scoped BigOperators

/-! ## The norms: positive reals, whatever the index arrays hold -/

/-- The array of ones that the counts add up. -/
theorem ones_allReal : AllReal (val_main_v0 (F := Ideal)) := by
  unfold val_main_v0 val_main_cst
  exact AllPos.constant_one.allReal.broadcastInDim

/-- The out-degree counts: ones added into zeros. -/
theorem outCount_allReal (src : (⟨S1600000, .i32⟩ : BufTy).Contents (Elt Ideal)) :
    AllReal (val_main_v3 (F := Ideal) src) := by
  unfold val_main_v3 val_main_v1 val_main_cst_0
  exact AllReal.scatterAdd AllReal.constant_zero.broadcastInDim ones_allReal

/-- The in-degree counts: ones added into zeros. -/
theorem inCount_allReal (dst : (⟨S1600000, .i32⟩ : BufTy).Contents (Elt Ideal)) :
    AllReal (val_main_v7 (F := Ideal) dst) := by
  unfold val_main_v7 val_main_v5 val_main_cst_2
  exact AllReal.scatterAdd AllReal.constant_zero.broadcastInDim ones_allReal

/-- The source norm: the reciprocal square root of the out-degree count clipped below at one. -/
theorem normSrc_allPos (src : (⟨S1600000, .i32⟩ : BufTy).Contents (Elt Ideal)) :
    AllPos (val_main_v9 (F := Ideal) src) := by
  unfold val_main_v9 val_main_v4 val_main_call0_v1 val_main_call0_v0 val_main_cst_1
  exact (AllPos.maximumf_left (AllPos.broadcastInDim (x := id _) AllPos.constant_one) (outCount_allReal src)).hostRsqrt

/-- The destination norm: the reciprocal square root of the in-degree count clipped below at one. -/
theorem normDst_allPos (dst : (⟨S1600000, .i32⟩ : BufTy).Contents (Elt Ideal)) :
    AllPos (val_main_v10 (F := Ideal) dst) := by
  unfold val_main_v10 val_main_v8 val_main_call1_v1 val_main_call1_v0 val_main_cst_3
  exact (AllPos.maximumf_left (AllPos.broadcastInDim (x := id _) AllPos.constant_one) (inCount_allReal dst)).hostRsqrt

/-! ## The chain -/

section Chain
variable (h : (⟨S100000x64, .f32⟩ : BufTy).Contents (Elt Ideal)) (src dst : (⟨S1600000, .i32⟩ : BufTy).Contents (Elt Ideal))
  (W1 : (⟨S64x64, .f32⟩ : BufTy).Contents (Elt Ideal)) (b1 : (⟨S64, .f32⟩ : BufTy).Contents (Elt Ideal))

/-- The features scaled by the source norm. -/
theorem v13_allReal (hh : AllReal h) : AllReal (val_main_v13 (F := Ideal) h src) := by
  unfold val_main_v13 val_main_v12 val_main_v11
  exact hh.mulf (normSrc_allPos src).allReal.broadcastInDim.broadcastInDim

/-- The first aggregation: the scaled features gathered at the sources and added up at the destinations. -/
theorem v23_allReal (hh : AllReal h) : AllReal (val_main_v23 (F := Ideal) h src dst) := by
  unfold val_main_v23 val_main_v21 val_main_cst_5 val_main_v20
  exact AllReal.scatterAdd AllReal.constant_zero.broadcastInDim (v13_allReal h src hh).gather

/-- The first aggregation scaled by the destination norm. -/
theorem v26_allReal (hh : AllReal h) : AllReal (val_main_v26 (F := Ideal) h src dst) := by
  unfold val_main_v26 val_main_v25 val_main_v24
  exact (v23_allReal h src dst hh).mulf (normDst_allPos dst).allReal.broadcastInDim.broadcastInDim

/-- The dense layer before the bias. -/
theorem v27_allReal (hh : AllReal h) (hW1 : AllReal W1) : AllReal (val_main_v27 (F := Ideal) h src dst W1) := by
  unfold val_main_v27
  exact (v26_allReal h src dst hh).dotGeneral hW1

/-- The dense layer with the bias, clipped below at zero. -/
theorem v31_allReal (hh : AllReal h) (hW1 : AllReal W1) (hb1 : AllReal b1) :
    AllReal (val_main_v31 (F := Ideal) h src dst W1 b1) := by
  unfold val_main_v31 val_main_v30 val_main_v29 val_main_v28 val_main_call2_v0 val_main_call2_cst
  exact ((v27_allReal h src dst W1 hh hW1).addf hb1.broadcastInDim.broadcastInDim).maximumf
    AllReal.constant_zero.broadcastInDim

/-- The hidden features scaled by the source norm. -/
theorem v34_allReal (hh : AllReal h) (hW1 : AllReal W1) (hb1 : AllReal b1) :
    AllReal (val_main_v34 (F := Ideal) h src dst W1 b1) := by
  unfold val_main_v34 val_main_v33 val_main_v32
  exact (v31_allReal h src dst W1 b1 hh hW1 hb1).mulf (normSrc_allPos src).allReal.broadcastInDim.broadcastInDim

/-- The second aggregation: the scaled hidden features gathered at the sources and added up at the destinations. -/
theorem v44_allReal (hh : AllReal h) (hW1 : AllReal W1) (hb1 : AllReal b1) :
    AllReal (val_main_v44 (F := Ideal) h src dst W1 b1) := by
  unfold val_main_v44 val_main_v42 val_main_cst_8 val_main_v41
  exact AllReal.scatterAdd AllReal.constant_zero.broadcastInDim (v34_allReal h src dst W1 b1 hh hW1 hb1).gather

end Chain

theorem agg2n_allReal
    (h : (⟨S100000x64, .f32⟩ : BufTy).Contents (Elt Ideal)) (src dst : (⟨S1600000, .i32⟩ : BufTy).Contents (Elt Ideal))
    (W1 : (⟨S64x64, .f32⟩ : BufTy).Contents (Elt Ideal)) (b1 : (⟨S64, .f32⟩ : BufTy).Contents (Elt Ideal))
    (hh : Cert.Spec.AllReal h) (hW1 : Cert.Spec.AllReal W1) (hb1 : Cert.Spec.AllReal b1) :
    Cert.Spec.AllReal (val_main_v47 (F := Ideal) h src dst W1 b1) := by
  unfold val_main_v47 val_main_v46 val_main_v45
  exact (v44_allReal h src dst W1 b1 hh hW1 hb1).mulf (normDst_allPos dst).allReal.broadcastInDim.broadcastInDim

end Cert.Bridge

end
-- ==== Proof.PreFinite.lean ====
/-
  The precondition, read: when the printed predicate "every float input is finite" is all ones on the kernel program's
  argument arrays, every entry of the features, of both weight matrices and of both biases is a real number.
-/
import proofs.«402030_j79542794322477_3_alg».proof.Defs
import proofs.«402030_j79542794322477_3_alg».proof.Proof.Gen.Pre_finite_inputs
import proofs.«402030_j79542794322477_3_alg».proof.Proof.Spec
import Idealize.ShloMosaic.Lib.ReduceAll
import Idealize.ShloMosaic.Lib.ValueIdx

noncomputable section

namespace Cert.KernelIdeal.PreFinite

open Idealize.ShloMosaic Idealize.ShloMosaic.ValueIdx Idealize.SL.Sem

/-- The shape with no axes has one index. -/
private instance subsingleton_scalarIdx : Subsingleton (⟨0, ![]⟩ : Shape).Idx :=
  ⟨fun a b => funext fun d => d.elim0⟩

/-- An extended real whose absolute value `max x (-x)` is below `+∞` is a real number: `x = +∞` gives
    `max x (-x) = +∞`, and `x = -∞` gives `-x = +∞`, so again `max x (-x) = +∞`. -/
private theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The all-axes "and" of the comparisons `|x i| < +∞` being one says every entry of `x` is a real number. -/
private theorem allReal_of_reduce {S : Shape} {axes : List (Fin S.rank)} (x : FVec Ideal S .f32)
    (hb : (⟨0, ![]⟩ : Shape).BroadcastsInDim S (![] : Fin 0 → Fin S.rank)) (hr : S.ReducesTo axes (⟨0, ![]⟩ : Shape))
    (h0 : 0 < (⟨0, ![]⟩ : Shape).numel) (init : IVec (⟨0, ![]⟩ : Shape) 1) (j : (⟨0, ![]⟩ : Shape).Idx)
    (e : Host.reduce IntOp.andi
        (cmpf .olt (Host.absf x) (broadcastInDim S ![] hb (constant (⟨0, ![]⟩ : Shape) .f32 0x7F800000#32)))
        init hr h0 j = 1#1) :
    Cert.Spec.AllReal x := by
  intro i
  have hi := Host.reduce_andi_all _ init hr h0 j e i
  have htop : Ideal.ofBits .f32 0x7F800000#32 = (⊤ : EReal) := by simp [Ideal.ofBits, Ideal.ieee]
  apply real_of_abs_lt_top
  have hi' : Ideal.cmp .olt (max (x i) (-x i)) (Ideal.ofBits .f32 0x7F800000#32) = 1#1 := hi
  rw [htop] at hi'
  simp only [Ideal.cmp] at hi'
  by_contra hn
  rw [decide_eq_false hn] at hi'
  exact absurd hi' (by decide)

theorem allReal_of_pre
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.Spec.AllReal ((m ((c.tc : Thread Cert.KernelIdeal.nD Cert.KernelIdeal.τ).loc Cert.KernelIdeal.main_arg0)) : Cert.Spec.SN64.Idx → EReal)
    ∧ Cert.Spec.AllReal ((m ((c.tc : Thread Cert.KernelIdeal.nD Cert.KernelIdeal.τ).loc Cert.KernelIdeal.main_arg4)) : Cert.Spec.SW1.Idx → EReal)
    ∧ Cert.Spec.AllReal ((m ((c.tc : Thread Cert.KernelIdeal.nD Cert.KernelIdeal.τ).loc Cert.KernelIdeal.main_arg5)) : (⟨1, ![64]⟩ : Shape).Idx → EReal)
    ∧ Cert.Spec.AllReal ((m ((c.tc : Thread Cert.KernelIdeal.nD Cert.KernelIdeal.τ).loc Cert.KernelIdeal.main_arg6)) : Cert.Spec.SW2.Idx → EReal)
    ∧ Cert.Spec.AllReal ((m ((c.tc : Thread Cert.KernelIdeal.nD Cert.KernelIdeal.τ).loc Cert.KernelIdeal.main_arg7)) : (⟨1, ![4]⟩ : Shape).Idx → EReal) := by
  have h := congrFun (hpre c) ValueIdx.ix0
  dsimp only [Cert.Pre_finite_inputs.fn, Cert.Pre_finite_inputs.fn_part1] at h
  simp only [andi, IntOp.andi_eq_one] at h
  obtain ⟨⟨⟨⟨h0, h4⟩, h5⟩, h6⟩, h7⟩ := h
  exact ⟨allReal_of_reduce _ _ _ _ _ _ h0, allReal_of_reduce _ _ _ _ _ _ h4, allReal_of_reduce _ _ _ _ _ _ h5,
    allReal_of_reduce _ _ _ _ _ _ h6, allReal_of_reduce _ _ _ _ _ _ h7⟩

end Cert.KernelIdeal.PreFinite

end
-- ==== Proof.KernelValue.lean ====
/-
  The kernel program's result is the reference's: under the precondition, what the second region leaves in the result
  buffer is the reference's final stage of the same arguments.

  The first region leaves the dense layer of its operands (its value theorem); its operands are the reference's first
  aggregation, norms, weights and bias (the host chain), so it leaves the reference's scaled, rectified first layer (the
  dense bridge). The second region leaves the pooled softmax of its operands; its feature operand is then the
  reference's second aggregation, and — every scaled feature being real because the inputs are — the pooled softmax is
  the reference's result (the tail bridge).
-/
import proofs.«402030_j79542794322477_3_alg».proof.Proof.KIRun
import proofs.«402030_j79542794322477_3_alg».proof.Proof.DenseValue
import proofs.«402030_j79542794322477_3_alg».proof.Proof.PoolValue
import proofs.«402030_j79542794322477_3_alg».proof.Proof.KHost
import proofs.«402030_j79542794322477_3_alg».proof.Proof.KHost2
import proofs.«402030_j79542794322477_3_alg».proof.Proof.DenseBridge
import proofs.«402030_j79542794322477_3_alg».proof.Proof.TailBridge
import proofs.«402030_j79542794322477_3_alg».proof.Proof.Finite
import proofs.«402030_j79542794322477_3_alg».proof.Proof.PreFinite

noncomputable section

namespace Cert.KernelIdeal.KernelValue

open Cert.KernelIdeal Cert.KernelIdeal.Gen Cert.KernelIdeal.Run
open Idealize.ShloMosaic Idealize.ShloMosaic.TcCoe Idealize.ShloMosaic.ValueIdx Idealize.SL.Sem
open Cert.ReferenceIdeal.Read (val_main_v23 val_main_v34 val_main_v44 val_main_v47 val_main_v73)

variable (m : (ℓ : Loc nD τ sig) → Buf (Elt Ideal) ℓ) (c : Dev nD)

/-- What the first region leaves is the reference's scaled, rectified first layer. -/
theorem dense_out :
    (outs0 (F := Ideal) m 6 main_v28 c : Cert.Spec.SN64.Idx → EReal) = val_main_v34 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
  calc (outs0 (F := Ideal) m 6 main_v28 c : Cert.Spec.SN64.Idx → EReal)
      = Cert.Spec.dense (V5 m c main_v26) (V5 m c main_v13) (V5 m c main_arg4) (V5 m c main_v27) :=
        (show (outs0 (F := Ideal) m 6 main_v28 c : Cert.Spec.SN64.Idx → EReal) = res0 m c from Function.update_self _ _ _).trans
          (Cert.KernelIdeal.DenseValue.final (VA m) c)
    _ = Cert.Spec.dense (val_main_v23 (F := Ideal) (m ((c.tc : Thread nD τ).loc main_arg0)) (m ((c.tc : Thread nD τ).loc main_arg1)) (m ((c.tc : Thread nD τ).loc main_arg2))) (V5 m c main_v13) (m ((c.tc : Thread nD τ).loc main_arg4)) (V5 m c main_v27) := by
        rw [Cert.KernelIdeal.KHost.v5_agg1 m c, Cert.KernelIdeal.KHost.v5_W1 m c]
    _ = val_main_v34 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
        Cert.Bridge.dense_bridge _ _ _ _ _ _ _ (Cert.KernelIdeal.KHost.v5_norms0 m c) (Cert.KernelIdeal.KHost.v5_norms1 m c)
          (Cert.KernelIdeal.KHost.v5_b1row m c)

/-- Under the precondition the result buffer's final contents are the reference's final stage of the arguments. -/
theorem result_eq (hpre : Cert.Pre_KernelIdeal (hPre_finite_inputs := Cert.Pre_finite_inputs.Gen.facts) m) :
    (res1 (F := Ideal) m c : Cert.Spec.SOut.Idx → EReal) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨hh, hW1, hb1, hW2, hb2⟩ := Cert.KernelIdeal.PreFinite.allReal_of_pre m hpre c
  calc (res1 (F := Ideal) m c : Cert.Spec.SOut.Idx → EReal)
      = Cert.Spec.pooled (V7 m (outs0 m) c main_v38) (V7 m (outs0 m) c main_v42) (V7 m (outs0 m) c main_arg6) (V7 m (outs0 m) c main_v43) :=
        Cert.KernelIdeal.PoolValue.final (VB m) c
    _ = Cert.Spec.pooled (val_main_v44 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (V7 m (outs0 m) c main_v42) (m ((c.tc : Thread nD τ).loc main_arg6)) (V7 m (outs0 m) c main_v43) := by
        rw [Cert.KernelIdeal.KHost2.v7_agg2 m (outs0 m) c (dense_out m c), Cert.KernelIdeal.KHost2.v7_W2 m (outs0 m) c]
    _ = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
        Cert.Bridge.tail_bridge _ _ _ _ _ _ _ _ _ _ (Cert.KernelIdeal.KHost2.v7_ndgid0 m (outs0 m) c)
          (Cert.KernelIdeal.KHost2.v7_ndgid1 m (outs0 m) c) (Cert.KernelIdeal.KHost2.v7_b2row m (outs0 m) c)
          (Cert.Bridge.agg2n_allReal _ _ _ _ _ hh hW1 hb1) hW2 hb2

end Cert.KernelIdeal.KernelValue

end
-- ==== Proof.lean ====
/-
  A two-layer graph convolution with a per-graph mean and a row softmax, as two Pallas kernels among host operations,
  against the plain reference — equal over the extended reals when every float input is finite.

  Both programs compute the degree norms, scale the features, and aggregate them along the edges with the same host
  gather and scatter-add. The first kernel replaces the reference's dense stage "times destination norm, times W1, plus
  b1, rectified, times source norm": ten row blocks of 10000 nodes, each the same row-wise function, with the two norms
  read from the two columns of one stacked array; the reduced-precision casts in front of its matrix product are the
  identity on extended reals. The second aggregation is again the same host operations on both sides. The second kernel
  replaces the reference's tail: where the reference applies W2 and b2 per node, sums per graph by a scatter-add over
  the graph ids and divides by the node count (at least one), the kernel sums the scaled features per graph over twenty
  blocks of 5000 nodes with a one-hot matrix product (an id outside 0 … 15 matches no column, as the scatter-add drops
  it), divides by the count, and only then applies W2, adding b2 where the graph has a node. The two agree because a
  finite sum of real numbers commutes with a fixed linear map and with division by a positive number: this is where
  finiteness of the inputs is used, carried through every stage of the chain; the empty graph gives zero logits on both
  sides. The row softmax is then the same function of equal logits.

  The frames: each region's body runs at every grid point (the second kernel's three control cases by the grid
  coordinate, its two accumulators carried in the region's invariant), the host stretches in between are the library's,
  and no item writes an argument. The idealization rewrote nothing, so `preserves` has no conjunct.
-/
import proofs.«402030_j79542794322477_3_alg».proof.Defs
import proofs.«402030_j79542794322477_3_alg».proof.Proof.Gen.Kernel
import proofs.«402030_j79542794322477_3_alg».proof.Proof.Gen.KernelIdeal
import proofs.«402030_j79542794322477_3_alg».proof.Proof.Gen.ReferenceIdeal
import proofs.«402030_j79542794322477_3_alg».proof.Proof.Gen.Pre_finite_inputs
import proofs.«402030_j79542794322477_3_alg».proof.Proof.Gen.ReferenceIdeal.Run
import proofs.«402030_j79542794322477_3_alg».proof.Proof.Gen.ReferenceIdeal.Read
import proofs.«402030_j79542794322477_3_alg».proof.Proof.KRun
import proofs.«402030_j79542794322477_3_alg».proof.Proof.KIRun
import proofs.«402030_j79542794322477_3_alg».proof.Proof.KernelValue
import Idealize.ShloMosaic.Adequacy
import Idealize.ShloMosaic.Init

noncomputable section

namespace Cert.Proof

open Idealize.ShloMosaic Idealize.SL.Sem

/-- The word-level program runs and leaves its arguments: its run, the result's contents dropped. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.Run.run_main (F := Bits) m ρ)

/-- The idealized program runs and leaves its arguments: the same run at the extended reals. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Run.run_main (F := Ideal) m ρ)

/-- The reference is host operations only: its run, the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Value.run (F := Ideal) m ρ)

/-- From memories agreeing on the arguments both programs run, and the kernel program's result buffer ends at the
    reference's final stage of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.res1 (F := Ideal) m c, Cert.KernelIdeal.Run.run_main (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v73_eq m' c, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.KernelValue.result_eq m c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
